-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  IdealRules.named_const.Statement Cert.KernelIdeal.κ "inv_50000" .f32 0x37A7C5AC#32 ((1 / 50000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v29_0)) (v1 : (c : Dev Cert.KernelIdeal.nD) → Buf (Elt Ideal) ((c.tc : Thread Cert.KernelIdeal.nD Cert.KernelIdeal.τ).loc Cert.KernelIdeal.main_v29_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29_0) = v0 c
          ∧ r.2.mem ((c.tc : Thread Cert.KernelIdeal.nD Cert.KernelIdeal.τ).loc Cert.KernelIdeal.main_v29_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S800000 : S_.BroadcastsInDim S800000 (![] : Fin 0 → Fin S800000.rank)
  reducesTo_S800000_S_d0 : S800000.ReducesTo [0] S_

variable [Facts]

def fn_part3 {F : FTy → Type} [FloatOps F] (main_arg1 : IVec S800000 32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_c_20 : IVec S_ 32 := constantI S_ 32 4294917296#32
  let main_v54 : IVec S800000 32 := broadcastInDim S800000 ![] bcast_S_S800000 main_c_20
  let main_v55 : IVec S800000 1 := cmpi .sge main_arg1 main_v54
  let main_c_21 : IVec S_ 1 := constantI S_ 1 1#1
  let main_v56 : IVec S_ 1 := (fun x v => Host.reduce IntOp.andi x v reducesTo_S800000_S_d0 h_S_) main_v55 main_c_21
  let main_v57 : IVec S_ 1 := andi main_v53 main_v56
  let main_c_22 : IVec S_ 32 := constantI S_ 32 50000#32
  let main_v58 : IVec S800000 32 := broadcastInDim S800000 ![] bcast_S_S800000 main_c_22
  let main_v59 : IVec S800000 1 := cmpi .slt main_arg1 main_v58
  let main_c_23 : IVec S_ 1 := constantI S_ 1 1#1
  let main_v60 : IVec S_ 1 := (fun x v => Host.reduce IntOp.andi x v reducesTo_S800000_S_d0 h_S_) main_v59 main_c_23
  let main_v61 : IVec S_ 1 := andi main_v57 main_v60
  main_v61

def fn_part2 {F : FTy → Type} [FloatOps F] (main_arg1 : IVec S800000 32) (main_arg9 : FVec F S128x1 .f32) (main_arg10 : FVec F S1 .f32) (main_arg11 : FVec F S128x1 .f32) (main_arg12 : FVec F S1 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S128x1 .f32 := Host.absf main_arg11
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_arg1 main_v48 main_v49 main_v50

def fn_part1 {F : FTy → Type} [FloatOps F] (main_arg1 : IVec S800000 32) (main_arg6 : FVec F S128 .f32) (main_arg7 : FVec F S128x128 .f32) (main_arg8 : FVec F S128 .f32) (main_arg9 : FVec F S128x1 .f32) (main_arg10 : FVec F S1 .f32) (main_arg11 : FVec F S128x1 .f32) (main_arg12 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg9 main_arg10 main_arg11 main_arg12 main_v33

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x1 .f32) (main_arg10 : FVec F S1 .f32) (main_arg11 : FVec F S128x1 .f32) (main_arg12 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg6 main_arg7 main_arg8 main_arg9 main_arg10 main_arg11 main_arg12 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x1 : Shape := ⟨2, ![1, 1]⟩
abbrev S800000x128 : Shape := ⟨2, ![800000, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 119
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S128x1, .f32⟩
  | .hbm, ⟨12, _⟩ => ⟨S1, .f32⟩
  | .hbm, ⟨13, _⟩ => ⟨S_, .f32⟩
  | .hbm, ⟨14, _⟩ => ⟨S800000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S50000x128, .f32⟩
  | .hbm, ⟨28, _⟩ => ⟨S50000x128, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S1, .i32⟩
  | .hbm, ⟨38, _⟩ => ⟨S_, .i32⟩
  | .hbm, ⟨39, _⟩ => ⟨S800000x1, .i32⟩
  | .hbm, ⟨40, _⟩ => ⟨S800000x1, .i1⟩
  | .hbm, ⟨41, _⟩ => ⟨S1x1, .i32⟩
  | .hbm, ⟨42, _⟩ => ⟨S800000x1, .i32⟩
  | .hbm, ⟨43, _⟩ => ⟨S800000x1, .i1⟩
  | .hbm, ⟨44, _⟩ => ⟨S800000x1, .i1⟩
  | .hbm, ⟨45, _⟩ => ⟨S_, .i1⟩
  | .hbm, ⟨46, _⟩ => ⟨S800000, .i1⟩
  | .hbm, ⟨47, _⟩ => ⟨S800000x128, .f32⟩
  | .hbm, ⟨48, _⟩ => ⟨S800000x128, .i1⟩
  | .hbm, ⟨49, _⟩ => ⟨S_, .f32⟩
  | .hbm, ⟨50, _⟩ => ⟨S800000x128, .f32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S1x128, .f32⟩
  | .hbm, ⟨57, _⟩ => ⟨S50000x128, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S1, .i32⟩
  | .hbm, ⟨67, _⟩ => ⟨S_, .i32⟩
  | .hbm, ⟨68, _⟩ => ⟨S800000x1, .i32⟩
  | .hbm, ⟨69, _⟩ => ⟨S800000x1, .i1⟩
  | .hbm, ⟨70, _⟩ => ⟨S1x1, .i32⟩
  | .hbm, ⟨71, _⟩ => ⟨S800000x1, .i32⟩
  | .hbm, ⟨72, _⟩ => ⟨S800000x1, .i1⟩
  | .hbm, ⟨73, _⟩ => ⟨S800000x1, .i1⟩
  | .hbm, ⟨74, _⟩ => ⟨S_, .i1⟩
  | .hbm, ⟨75, _⟩ => ⟨S800000, .i1⟩
  | .hbm, ⟨76, _⟩ => ⟨S800000x128, .f32⟩
  | .hbm, ⟨77, _⟩ => ⟨S800000x128, .i1⟩
  | .hbm, ⟨78, _⟩ => ⟨S_, .f32⟩
  | .hbm, ⟨79, _⟩ => ⟨S800000x128, .f32⟩
  | .hbm, ⟨80, _⟩ => ⟨S800000x128, .f32⟩
  | .hbm, ⟨81, _⟩ => ⟨S_, .f32⟩
  | .hbm, ⟨82, _⟩ => ⟨S50000x128, .f32⟩
  | .hbm, ⟨83, _⟩ => ⟨S800000x1, .i32⟩
  | .hbm, ⟨84, _⟩ => ⟨S50000x128, .f32⟩
  | .hbm, ⟨85, _⟩ => ⟨S1x128, .f32⟩
  | .hbm, ⟨86, _⟩ => ⟨S50000x128, .f32⟩
  | .hbm, ⟨87, _⟩ => ⟨S_, .i32⟩
  | .hbm, ⟨88, _⟩ => ⟨S800000, .i32⟩
  | .hbm, ⟨89, _⟩ => ⟨S800000, .i1⟩
  | .hbm, ⟨90, _⟩ => ⟨S_, .i32⟩
  | .hbm, ⟨91, _⟩ => ⟨S800000, .i32⟩
  | .hbm, ⟨92, _⟩ => ⟨S800000, .i32⟩
  | .hbm, ⟨93, _⟩ => ⟨S800000, .i32⟩
  | .hbm, ⟨94, _⟩ => ⟨S800000x1, .i32⟩
  | .hbm, ⟨95, _⟩ => ⟨S1, .i32⟩
  | .hbm, ⟨96, _⟩ => ⟨S_, .i32⟩
  | .hbm, ⟨97, _⟩ => ⟨S800000x1, .i32⟩
  | .hbm, ⟨98, _⟩ => ⟨S800000x1, .i1⟩
  | .hbm, ⟨99, _⟩ => ⟨S1x1, .i32⟩
  | .hbm, ⟨100, _⟩ => ⟨S800000x1, .i32⟩
  | .hbm, ⟨101, _⟩ => ⟨S800000x1, .i1⟩
  | .hbm, ⟨102, _⟩ => ⟨S800000x1, .i1⟩
  | .hbm, ⟨103, _⟩ => ⟨S_, .i1⟩
  | .hbm, ⟨104, _⟩ => ⟨S800000, .i1⟩
  | .hbm, ⟨105, _⟩ => ⟨S800000x128, .f32⟩
  | .hbm, ⟨106, _⟩ => ⟨S800000x128, .i1⟩
  | .hbm, ⟨107, _⟩ => ⟨S_, .f32⟩
  | .hbm, ⟨108, _⟩ => ⟨S800000x128, .f32⟩
  | .hbm, ⟨109, _⟩ => ⟨S800000x128, .f32⟩
  | .hbm, ⟨110, _⟩ => ⟨S_, .f32⟩
  | .hbm, ⟨111, _⟩ => ⟨S50000x128, .f32⟩
  | .hbm, ⟨112, _⟩ => ⟨S800000x1, .i32⟩
  | .hbm, ⟨113, _⟩ => ⟨S50000x128, .f32⟩
  | .hbm, ⟨114, _⟩ => ⟨S1x128, .f32⟩
  | .hbm, ⟨115, _⟩ => ⟨S1x1, .f32⟩
  | .hbm, ⟨116, _⟩ => ⟨S1x1, .f32⟩
  | .hbm, ⟨117, _⟩ => ⟨S50000x1, .f32⟩
  | .hbm, ⟨118, _⟩ => ⟨S1x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x1, .f32⟩
  | .local _ .vmem, ⟨5, _⟩ => ⟨S5000x1, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S5000x1, .f32⟩
  | .local _ .vmem, ⟨13, _⟩ => ⟨S5000x1, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S1x128, .f32⟩
  | .local _ .vmem, ⟨20, _⟩ => ⟨S128x1, .f32⟩
  | .local _ .vmem, ⟨21, _⟩ => ⟨S1x1, .f32⟩
  | .local _ .vmem, ⟨22, _⟩ => ⟨S128x1, .f32⟩
  | .local _ .vmem, ⟨23, _⟩ => ⟨S1x1, .f32⟩
  | .local _ .vmem, ⟨24, _⟩ => ⟨S5000x1, .f32⟩
  | .local _ .vmem, ⟨25, _⟩ => ⟨S5000x1, .f32⟩
  | .local _ .vmem, ⟨26, _⟩ => ⟨S1x1, .f32⟩
  | .local _ .vmem, ⟨27, _⟩ => ⟨S1x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v4 : Ref sig .tc := ⟨.hbm, 22, rfl⟩
abbrev main_cst_2 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v10 : Ref sig .tc := ⟨.hbm, 51, rfl⟩
abbrev main_cst_3 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_call2_c : Ref sig .tc := ⟨.hbm, 58, rfl⟩
abbrev main_call2_v0 : Ref sig .tc := ⟨.hbm, 59, rfl⟩
abbrev main_call2_v1 : Ref sig .tc := ⟨.hbm, 60, rfl⟩
abbrev main_call2_c_0 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_c_1 : Ref sig .tc := ⟨.hbm, 66, rfl⟩
abbrev main_call2_c_2 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_c_3 : Ref sig .tc := ⟨.hbm, 74, rfl⟩
abbrev main_call2_v12 : Ref sig .tc := ⟨.hbm, 75, rfl⟩
abbrev main_call2_v13 : Ref sig .tc := ⟨.hbm, 76, rfl⟩
abbrev main_call2_v14 : Ref sig .tc := ⟨.hbm, 77, rfl⟩
abbrev main_call2_cst : Ref sig .tc := ⟨.hbm, 78, rfl⟩
abbrev main_call2_v15 : Ref sig .tc := ⟨.hbm, 79, rfl⟩
abbrev main_v16 : Ref sig .tc := ⟨.hbm, 80, rfl⟩
abbrev main_cst_4 : Ref sig .tc := ⟨.hbm, 81, rfl⟩
abbrev main_v17 : Ref sig .tc := ⟨.hbm, 82, rfl⟩
abbrev main_v18 : Ref sig .tc := ⟨.hbm, 83, rfl⟩
abbrev main_v19 : Ref sig .tc := ⟨.hbm, 84, rfl⟩
abbrev main_v20 : Ref sig .tc := ⟨.hbm, 85, rfl⟩
abbrev main_v21 : Ref sig .tc := ⟨.hbm, 86, rfl⟩
abbrev main_call3_c : Ref sig .tc := ⟨.hbm, 87, rfl⟩
abbrev main_call3_v0 : Ref sig .tc := ⟨.hbm, 88, rfl⟩
abbrev main_call3_v1 : Ref sig .tc := ⟨.hbm, 89, rfl⟩
abbrev main_call3_c_0 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_v5 : Ref sig .tc := ⟨.hbm, 94, rfl⟩
abbrev main_call3_c_1 : Ref sig .tc := ⟨.hbm, 95, rfl⟩
abbrev main_call3_c_2 : Ref sig .tc := ⟨.hbm, 96, rfl⟩
abbrev main_call3_v6 : Ref sig .tc := ⟨.hbm, 97, rfl⟩
abbrev main_call3_v7 : Ref sig .tc := ⟨.hbm, 98, rfl⟩
abbrev main_call3_v8 : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_call3_c_3 : Ref sig .tc := ⟨.hbm, 103, rfl⟩
abbrev main_call3_v12 : Ref sig .tc := ⟨.hbm, 104, rfl⟩
abbrev main_call3_v13 : Ref sig .tc := ⟨.hbm, 105, rfl⟩
abbrev main_call3_v14 : Ref sig .tc := ⟨.hbm, 106, rfl⟩
abbrev main_call3_cst : Ref sig .tc := ⟨.hbm, 107, rfl⟩
abbrev main_call3_v15 : Ref sig .tc := ⟨.hbm, 108, rfl⟩
abbrev main_v22 : Ref sig .tc := ⟨.hbm, 109, rfl⟩
abbrev main_cst_5 : Ref sig .tc := ⟨.hbm, 110, rfl⟩
abbrev main_v23 : Ref sig .tc := ⟨.hbm, 111, rfl⟩
abbrev main_v24 : Ref sig .tc := ⟨.hbm, 112, rfl⟩
abbrev main_v25 : Ref sig .tc := ⟨.hbm, 113, rfl⟩
abbrev main_v26 : Ref sig .tc := ⟨.hbm, 114, rfl⟩
abbrev main_v27 : Ref sig .tc := ⟨.hbm, 115, rfl⟩
abbrev main_v28 : Ref sig .tc := ⟨.hbm, 116, rfl⟩
abbrev main_v29_0 : Ref sig .tc := ⟨.hbm, 117, rfl⟩
abbrev main_v29_1 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg7_1 : Ref sig .tc := ⟨.vmem, 25, rfl⟩
abbrev cc2_stg8_0 : Ref sig .tc := ⟨.vmem, 26, rfl⟩
abbrev cc2_scratch0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem7_1 : DmaSem sig := 25
abbrev cc2_sem8_0 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v25 : BitVec 1 := Scalar.cmpi .eq arg0 c9_i32
  let v26 : BitVec 32 := Scalar.extui v25
  let c0_i32_18 : BitVec 32 := 0#32
  let v27 : BitVec 1 := Scalar.cmpi .ne v26 c0_i32_18
  v27

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  shapeCasts_S1_S1x1 : S1.ShapeCasts S1x1
  reduces_S5000x128_S128 : S5000x128.Reduces [0] S128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  dot_S1x128_S128x1_S1x1_1_0_0_1_n_n_wf : DotDims.WF S1x128 S128x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S50000x1.size a
  hwx0_3 : ∀ i : grid0.Coords, EltTy.bits .f32 = 32 ∨ (Rect.block (s := S50000x1) S5000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S50000x1.size a
  hwx1_3 : ∀ i : grid1.Coords, EltTy.bits .f32 = 32 ∨ (Rect.block (s := S50000x1) S5000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x1.size a ≤ S128x1.size a
  hwx2_3 : ∀ i : grid2.Coords, EltTy.bits .f32 = 32 ∨ (Rect.block (s := S128x1) S128x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x1.size a ≤ S128x1.size a
  hwx2_5 : ∀ i : grid2.Coords, EltTy.bits .f32 = 32 ∨ (Rect.block (s := S128x1) S128x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x1.size a ≤ S50000x1.size a
  hwx2_7 : ∀ i : grid2.Coords, EltTy.bits .f32 = 32 ∨ (Rect.block (s := S50000x1) S5000x1.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x1.size a ≤ S1x1.size a
  hwx2_8 : ∀ i : grid2.Coords, EltTy.bits .f32 = 32 ∨ (Rect.block (s := S1x1) S1x1.size (cc2_transform_8 i) (hinb2_8 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf
def dot_S1x128_S128x1_S1x1_1_0_0_1_n_n : DotDims S1x128 S128x1 S1x1 where
  lhsContracting := [1]
  rhsContracting := [0]
  lhsNonContracting := [0]
  rhsNonContracting := [1]
  lhsBatch := []
  rhsBatch := []
  wf := dot_S1x128_S128x1_S1x1_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v19) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v21) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v25) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v26) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v27) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S128x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v28) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v29_0) S5000x1.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v29_1) S1x1.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev idle2 : Fin 9 → grid2.Coords → Bool := fun | 0 => fun _ => false | 1 => fun _ => false | 2 => fun _ => false | 3 => fun _ => false | 4 => fun _ => false | 5 => fun _ => false | 6 => fun _ => false | 7 => fun _ => false | 8 => fun i => !(k2_cond2 i == 1#1) | ⟨_ + 9, h⟩ => absurd h (Nat.not_lt.2 (Nat.le_add_left _ _))

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S1x1 : Shape := ⟨2, ![1, 1]⟩

abbrev nBuf : Space → Nat
  | .hbm => 103
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S128x1, .f32⟩
  | .hbm, ⟨12, _⟩ => ⟨S1, .f32⟩
  | .hbm, ⟨13, _⟩ => ⟨S_, .f32⟩
  | .hbm, ⟨14, _⟩ => ⟨S800000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S50000x128, .f32⟩
  | .hbm, ⟨28, _⟩ => ⟨S50000x128, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x128, .f32⟩
  | .hbm, ⟨38, _⟩ => ⟨S_, .f32⟩
  | .hbm, ⟨39, _⟩ => ⟨S50000x128, .f32⟩
  | .hbm, ⟨40, _⟩ => ⟨S800000x1, .i32⟩
  | .hbm, ⟨41, _⟩ => ⟨S50000x128, .f32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S50000x128, .f32⟩
  | .hbm, ⟨50, _⟩ => ⟨S50000x128, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S800000x128, .f32⟩
  | .hbm, ⟨82, _⟩ => ⟨S_, .f32⟩
  | .hbm, ⟨83, _⟩ => ⟨S50000x128, .f32⟩
  | .hbm, ⟨84, _⟩ => ⟨S800000x1, .i32⟩
  | .hbm, ⟨85, _⟩ => ⟨S50000x128, .f32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S_, .f32⟩
  | .hbm, ⟨91, _⟩ => ⟨S128, .f32⟩
  | .hbm, ⟨92, _⟩ => ⟨S1x128, .f32⟩
  | .hbm, ⟨93, _⟩ => ⟨S_, .f32⟩
  | .hbm, ⟨94, _⟩ => ⟨S1x128, .f32⟩
  | .hbm, ⟨95, _⟩ => ⟨S1x128, .f32⟩
  | .hbm, ⟨96, _⟩ => ⟨S50000x1, .f32⟩
  | .hbm, ⟨97, _⟩ => ⟨S1x1, .f32⟩
  | .hbm, ⟨98, _⟩ => ⟨S50000x1, .f32⟩
  | .hbm, ⟨99, _⟩ => ⟨S50000x1, .f32⟩
  | .hbm, ⟨100, _⟩ => ⟨S1x1, .f32⟩
  | .hbm, ⟨101, _⟩ => ⟨S1x1, .f32⟩
  | .hbm, ⟨102, _⟩ => ⟨S1x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v4 : Ref sig .tc := ⟨.hbm, 22, rfl⟩
abbrev main_cst_2 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_c : Ref sig .tc := ⟨.hbm, 29, rfl⟩
abbrev main_v10 : Ref sig .tc := ⟨.hbm, 30, rfl⟩
abbrev main_v11 : Ref sig .tc := ⟨.hbm, 31, rfl⟩
abbrev main_c_3 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_4 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call1_cst : Ref sig .tc := ⟨.hbm, 46, rfl⟩
abbrev main_call1_v0 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_5 : Ref sig .tc := ⟨.hbm, 51, rfl⟩
abbrev main_v27 : Ref sig .tc := ⟨.hbm, 52, rfl⟩
abbrev main_v28 : Ref sig .tc := ⟨.hbm, 53, rfl⟩
abbrev main_c_6 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_7 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_call2_cst : Ref sig .tc := ⟨.hbm, 68, rfl⟩
abbrev main_call2_v0 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_c_8 : Ref sig .tc := ⟨.hbm, 73, rfl⟩
abbrev main_v44 : Ref sig .tc := ⟨.hbm, 74, rfl⟩
abbrev main_v45 : Ref sig .tc := ⟨.hbm, 75, rfl⟩
abbrev main_c_9 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_10 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_11 : Ref sig .tc := ⟨.hbm, 90, rfl⟩
abbrev main_v58 : Ref sig .tc := ⟨.hbm, 91, rfl⟩
abbrev main_v59 : Ref sig .tc := ⟨.hbm, 92, rfl⟩
abbrev main_cst_12 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S1x128 : S_.BroadcastsInDim S1x128 (![] : Fin 0 → Fin S1x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x1_S50000x1_1_0_0_1_n_n_wf : DotDims.WF S50000x128 S128x1 S50000x1 [1] [0] [0] [1] [] []
  dot_S1x128_S128x1_S1x1_1_0_0_1_n_n_wf : DotDims.WF S1x128 S128x1 S1x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def dot_S1x128_S128x1_S1x1_1_0_0_1_n_n : DotDims S1x128 S128x1 S1x1 where
  lhsContracting := [1]
  rhsContracting := [0]
  lhsNonContracting := [0]
  rhsNonContracting := [1]
  lhsBatch := []
  rhsBatch := []
  wf := dot_S1x128_S128x1_S1x1_1_0_0_1_n_n_wf

class Facts : Prop extends Facts₀ where

variable [Facts]
-- ==== Proof.KernelIdeal.Layer0.lean ====
import proofs.«421690_j88553635709104_2_alg».proof.Proof.Gen.KernelIdeal.Launch
import proofs.«421690_j88553635709104_2_alg».proof.Proof.Gen.KernelIdeal.Skeleton
import proofs.«421690_j88553635709104_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  Pallas call 0 of the program: one graph-convolution layer's dense half on a block of 5000 nodes.
  At grid point `t` the body reads the block of aggregated features (5000 × 128), the whole weight
  matrix (128 × 128), the bias row (1 × 128) and the block's inverse out-degrees (5000 × 1), and stores
  `max(x · W + b, 0) · d` (the degree broadcast along the feature axis) over the whole output block.
  Everything is stated at a parameter `V`, the buffer contents when the call is entered: what each
  window's block is, what the body leaves in the output's staging buffer, the body's Hoare triple,
  the pipeline's proof data and the per-point obligation.
-/

set_option maxRecDepth 16384

noncomputable section

namespace Cert.KernelIdeal.Layer0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the call finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether it was fetched there or
    kept from an earlier point with the same block index (one statement per input window: the block's
    index type is literal only at a literal window). -/
theorem found_of_0 {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem found_of_1 {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem found_of_2 {c : Dev nD} (dat : Dat τ (Elt F) Unit ℕ (UR sig nD τ) ℕ cfg0 c) (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem found_of_3 {c : Dev nD} (dat : Dat τ (Elt F) Unit ℕ (UR sig nD τ) ℕ cfg0 c) (hA : dat.A 3 = V c (Pipeline.arrRef spec0 3))
    (hafter : ∀ t, dat.after 3 t = blockAt V c 3 t) (t : Fin cfg0.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- The whole 5000 × 128 block as one rectangle. -/
abbrev wholeOut : Rect S5000x128 := Rect.unit (s := S5000x128) ![0, 0] S5000x128.size inb_S5000x128_S5000x128_0_0

/-- What the body leaves in the output's staging buffer: its one store, of the layer's value on the
    four inputs read whole. -/
def outBlock (x : Vec F S5000x128 .f32) (w : Vec F S128x128 .f32) (b : Vec F S1x128 .f32) (d : Vec F S5000x1 .f32) : Vec F S5000x128 .f32 :=
  View.canon [⟨wholeOut, k0_pay1 (View.ld x (Rect.unit (s := S5000x128) ![0, 0] S5000x128.size inb_S5000x128_S5000x128_0_0))
    (View.ld w (Rect.unit (s := S128x128) ![0, 0] S128x128.size inb_S128x128_S128x128_0_0))
    (View.ld b (Rect.unit (s := S1x128) ![0, 0] S1x128.size inb_S1x128_S1x128_0_0))
    (View.ld d (Rect.unit (s := S5000x1) ![0, 0] S5000x1.size inb_S5000x1_S5000x1_0_0))⟩]

/-- The one store covers the block. -/
theorem out_cover (p : Vec F S5000x128 .f32) (y : S5000x128.Idx) :
    ∃ pc ∈ ([⟨wholeOut, p⟩] : List (View.Piece (Elt F) S5000x128 .f32)), y ∈ pc.1.set :=
  View.cover_of_tiled [⟨wholeOut, p⟩] S5000x128.size (by rfl) y

set_option maxHeartbeats 1000000 in
/-- The body on whole staging buffers, the inputs at known contents and the output at anything, runs
    to its end with the inputs untouched and the output at `outBlock` of them. -/
theorem body_triple (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S5000x1 .f32) (harg4 : arg4.IsWhole)
    (arg5 : Memref sig .tc .vmem S5000x128 .f32) (harg5 : arg5.IsWhole)
    (x : Vec F S5000x128 .f32) (w : Vec F S128x128 .f32) (b : Vec F S1x128 .f32) (d : Vec F S5000x1 .f32) (K : PUnit → sProp 𝕄) :
    iprop(owns (c : Thread nD τ) arg1 fullShare x ∗ owns (c : Thread nD τ) arg2 fullShare w ∗ owns (c : Thread nD τ) arg3 fullShare b
        ∗ owns (c : Thread nD τ) arg4 fullShare d ∗ (∃ o, owns (c : Thread nD τ) arg5 fullShare o)
        ∗ (iprop(owns (c : Thread nD τ) arg1 fullShare x ∗ owns (c : Thread nD τ) arg2 fullShare w ∗ owns (c : Thread nD τ) arg3 fullShare b
            ∗ owns (c : Thread nD τ) arg4 fullShare d ∗ owns (c : Thread nD τ) arg5 fullShare (outBlock x w b d)) -∗ K ⟨⟩))
      ⊢ wp frame (wpE (defs₀ (F := F)) Variants.none c none) E (cc0__linear_relu_deg_kernel i arg1 harg1 arg2 harg2 arg3 harg3 arg4 harg4 arg5 harg5) K := by
  simp only [cc0__linear_relu_deg_kernel_eq_skeleton]; unfold cc0__linear_relu_deg_kernel_skel
  unfold owns
  iintro ⟨⟨%f1, %hf1, H1⟩, ⟨%f2, %hf2, H2⟩, ⟨%f3, %hf3, H3⟩, ⟨%f4, %hf4, H4⟩, ⟨%o, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (out_cover _)

/-- The proof data of the pipeline on core `c`: the arrays as found; after the body each input's
    buffer still at its block and the output's at `outBlock` of the four blocks; the invariant is the
    scoped rest and the generator register, untouched; nothing owed. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => outBlock (blockAt V c 0 t) (blockAt V c 1 t) (blockAt V c 2 t) (blockAt V c 3 t)
  Φ _ := Pipeline.ΦA spec0 c
  q _ := fullShare
  owed _ := 0

theorem dat_A (c : Dev nD) (w : Fin cfg0.W) : (dat V c).A w = V c (Pipeline.arrRef spec0 w) := by
  dsimp only [dat]

theorem after_0 (c : Dev nD) (t : Fin cfg0.N) : (dat V c).after 0 t = blockAt V c 0 t := by dsimp only [dat]
theorem after_1 (c : Dev nD) (t : Fin cfg0.N) : (dat V c).after 1 t = blockAt V c 1 t := by dsimp only [dat]
theorem after_2 (c : Dev nD) (t : Fin cfg0.N) : (dat V c).after 2 t = blockAt V c 2 t := by dsimp only [dat]
theorem after_3 (c : Dev nD) (t : Fin cfg0.N) : (dat V c).after 3 t = blockAt V c 3 t := by dsimp only [dat]
theorem after_4 (c : Dev nD) (t : Fin cfg0.N) :
    (dat V c).after 4 t = outBlock (blockAt V c 0 t) (blockAt V c 1 t) (blockAt V c 2 t) (blockAt V c 3 t) := by dsimp only [dat]

theorem found_0 (c : Dev nD) (t : Fin cfg0.N) (d) : (dat V c).before 0 t d = blockAt V c 0 t :=
  found_of_0 V (dat V c) (dat_A V c 0) (after_0 V c) t d
theorem found_1 (c : Dev nD) (t : Fin cfg0.N) (d) : (dat V c).before 1 t d = blockAt V c 1 t :=
  found_of_1 V (dat V c) (dat_A V c 1) (after_1 V c) t d
theorem found_2 (c : Dev nD) (t : Fin cfg0.N) (d) : (dat V c).before 2 t d = blockAt V c 2 t :=
  found_of_2 V (dat V c) (dat_A V c 2) (after_2 V c) t d
theorem found_3 (c : Dev nD) (t : Fin cfg0.N) (d) : (dat V c).before 3 t d = blockAt V c 3 t :=
  found_of_3 V (dat V c) (dat_A V c 3) (after_3 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

/-- The body at any point: the inputs' buffers hold their blocks, so the triple applies; the invariant
    and the core's dues pass through unread. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [found_0, found_1, found_2, found_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (body_triple c Set.univ _ _ _ _ _ _ _ _ _ _ _ (blockAt V c 0 t) (blockAt V c 1 t) (blockAt V c 2 t) (blockAt V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's per-point obligation. -/
theorem body_obligation (c : Dev nD) : BodyObligation (dat (F := F) V c) (defs₀ (F := F)) Variants.none () Set.univ := fun t => by
  rw [bigSep_W0, bigSep_W0]
  exact body_at V c t

end Cert.KernelIdeal.Layer0

end
-- ==== Proof.KernelIdeal.Head.lean ====
import proofs.«421690_j88553635709104_2_alg».proof.Proof.Gen.KernelIdeal.Launch
import proofs.«421690_j88553635709104_2_alg».proof.Proof.Gen.KernelIdeal.Skeleton
import proofs.«421690_j88553635709104_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
  Pallas call 2 of the program: the last layer's linear map fused with the two heads, over ten
  blocks of 5000 nodes taken in order. At grid point `t` the body computes `h = x · W + b` on the
  block, adds `h`'s column sums into a 1 × 128 scratch that it keeps between points (reset to zero
  at the first point), and stores the policy head `h · p + p₀` over the whole 5000 × 1 output
  block; at the last point it also stores the value head, the scratch times 1/50000 times the
  second head's weights plus its bias, into the 1 × 1 output.
-/

set_option maxRecDepth 16384

noncomputable section

namespace Cert.KernelIdeal.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the call finds it. -/
def blockAt (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The scratch after point `n`: the column sums of `h` over the blocks 0 … n, accumulated block by
    block from the reset value. -/
def scratchAt (c : Dev nD) : (n : ℕ) → n < cfg2.N → Vec F S1x128 .f32
  | 0, h => k2_pay3 (blockAt V c 0 ⟨0, h⟩) (blockAt V c 1 ⟨0, h⟩) (blockAt V c 2 ⟨0, h⟩) (k2_pay1 (F := F))
  | n + 1, h => k2_pay3 (blockAt V c 0 ⟨n + 1, h⟩) (blockAt V c 1 ⟨n + 1, h⟩) (blockAt V c 2 ⟨n + 1, h⟩) (scratchAt c n (Nat.lt_of_succ_lt h))

theorem scratchAt_zero (c : Dev nD) (h : 0 < cfg2.N) :
    scratchAt V c 0 h = k2_pay3 (blockAt V c 0 ⟨0, h⟩) (blockAt V c 1 ⟨0, h⟩) (blockAt V c 2 ⟨0, h⟩) (k2_pay1 (F := F)) := rfl

theorem scratchAt_succ (c : Dev nD) (n : ℕ) (h : n + 1 < cfg2.N) :
    scratchAt V c (n + 1) h = k2_pay3 (blockAt V c 0 ⟨n + 1, h⟩) (blockAt V c 1 ⟨n + 1, h⟩) (blockAt V c 2 ⟨n + 1, h⟩) (scratchAt V c n (Nat.lt_of_succ_lt h)) := rfl

/-- An input window's staging buffer holds its block at every point, whether it was fetched there or kept
    from an earlier point with the same block index (one statement per input window: the block's index
    type is literal only at a literal window). -/
theorem found_of_0 {c : Dev nD} (dat : Dat τ (Elt F) Unit ℕ (UR sig nD τ) ℕ cfg2 c) (hA : dat.A 0 = V c (Pipeline.arrRef spec2 0))
    (hafter : ∀ t, dat.after 0 t = blockAt V c 0 t) (t : Fin cfg2.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem found_of_1 {c : Dev nD} (dat : Dat τ (Elt F) Unit ℕ (UR sig nD τ) ℕ cfg2 c) (hA : dat.A 1 = V c (Pipeline.arrRef spec2 1))
    (hafter : ∀ t, dat.after 1 t = blockAt V c 1 t) (t : Fin cfg2.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem found_of_2 {c : Dev nD} (dat : Dat τ (Elt F) Unit ℕ (UR sig nD τ) ℕ cfg2 c) (hA : dat.A 2 = V c (Pipeline.arrRef spec2 2))
    (hafter : ∀ t, dat.after 2 t = blockAt V c 2 t) (t : Fin cfg2.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem found_of_3 {c : Dev nD} (dat : Dat τ (Elt F) Unit ℕ (UR sig nD τ) ℕ cfg2 c) (hA : dat.A 3 = V c (Pipeline.arrRef spec2 3))
    (hafter : ∀ t, dat.after 3 t = blockAt V c 3 t) (t : Fin cfg2.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem found_of_4 {c : Dev nD} (dat : Dat τ (Elt F) Unit ℕ (UR sig nD τ) ℕ cfg2 c) (hA : dat.A 4 = V c (Pipeline.arrRef spec2 4))
    (hafter : ∀ t, dat.after 4 t = blockAt V c 4 t) (t : Fin cfg2.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem found_of_5 {c : Dev nD} (dat : Dat τ (Elt F) Unit ℕ (UR sig nD τ) ℕ cfg2 c) (hA : dat.A 5 = V c (Pipeline.arrRef spec2 5))
    (hafter : ∀ t, dat.after 5 t = blockAt V c 5 t) (t : Fin cfg2.N) (d) : dat.before 5 t d = blockAt V c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
theorem found_of_6 {c : Dev nD} (dat : Dat τ (Elt F) Unit ℕ (UR sig nD τ) ℕ cfg2 c) (hA : dat.A 6 = V c (Pipeline.arrRef spec2 6))
    (hafter : ∀ t, dat.after 6 t = blockAt V c 6 t) (t : Fin cfg2.N) (d) : dat.before 6 t d = blockAt V c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-! ## The invariant -/

/-- The scratch, whole. -/
abbrev scM : Memref sig .tc .vmem S1x128 .f32 := Memref.whole cc2_scratch0

/-- The core's scoped buffers that are neither a staging buffer of this call nor its scratch (the staging
    buffers of the two calls before it), each at some contents, carried unopened. -/
abbrev others (c : Dev nD) : sProp 𝕄 :=
  Pipeline.scopedRestBut (Ix := Unit) (Name := ℕ) (U := UR sig nD τ) (Lvl := ℕ) (Val := Elt F) spec2 c [cc2_scratch0]

/-- The scoped buffers that are no staging buffer of this call, split at the scratch. -/
theorem scopedRest_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f) ∗ others (F := F) c) :=
  Pipeline.scopedRest_split_of_list spec2 c [cc2_scratch0] (by decide) (by decide)

/-- What the launch hands the call: the scratch at some contents, the other scoped buffers, the generator
    register at some state. -/
theorem PhiA_eq (c : Dev nD) :
    (Pipeline.ΦA spec2 c : sProp 𝕄)
      = iprop(((∃ d, owns (c : Thread nD τ) scM fullShare d) ∗ others (F := F) c) ∗ (∃ r, prngReg c r)) := by
  unfold Pipeline.ΦA; rw [scopedRest_split]; simp only [scM, owns_whole]; try rfl

/-- The call's invariant before point `n`: before the first point what the launch hands over; afterwards the
    same with the scratch at `scratchAt` of the point before. -/
def PhiS (c : Dev nD) : (n : ℕ) → n ≤ cfg2.N → sProp 𝕄
  | 0, _ => Pipeline.ΦA spec2 c
  | n + 1, hn => iprop((owns (c : Thread nD τ) scM fullShare (scratchAt V c n hn) ∗ others (F := F) c) ∗ (∃ r, prngReg c r))

theorem PhiS_zero (c : Dev nD) (n : ℕ) (h : n ≤ cfg2.N) (h0 : n = 0) : PhiS V c n h = Pipeline.ΦA spec2 c := by
  subst h0; rfl

theorem PhiS_succ (c : Dev nD) (n : ℕ) (hn : n < cfg2.N) :
    PhiS V c (n + 1) hn = iprop((owns (c : Thread nD τ) scM fullShare (scratchAt V c n hn) ∗ others (F := F) c) ∗ (∃ r, prngReg c r)) := rfl

theorem PhiS_pos (c : Dev nD) (n : ℕ) (h : n ≤ cfg2.N) (h0 : n ≠ 0) :
    PhiS V c n h = iprop((owns (c : Thread nD τ) scM fullShare (scratchAt V c (n - 1) (by omega)) ∗ others (F := F) c) ∗ (∃ r, prngReg c r)) := by
  cases n with
  | zero => exact absurd rfl h0
  | succ n => rfl

/-- The scratch after the first point, -/
theorem scratchAt_first (c : Dev nD) (t : Fin cfg2.N) (h : t.val = 0) :
    scratchAt V c t.val t.isLt = k2_pay3 (blockAt V c 0 t) (blockAt V c 1 t) (blockAt V c 2 t) (k2_pay1 (F := F)) := by
  obtain ⟨n, hn⟩ := t
  cases n with
  | zero => rfl
  | succ n => exact absurd h (Nat.succ_ne_zero n)

/-- and after a later one, over what the point before left. -/
theorem scratchAt_later (c : Dev nD) (t : Fin cfg2.N) (h : t.val ≠ 0) :
    scratchAt V c t.val t.isLt = k2_pay3 (blockAt V c 0 t) (blockAt V c 1 t) (blockAt V c 2 t)
      (scratchAt V c (t.val - 1) (Nat.lt_of_le_of_lt (Nat.sub_le _ _) t.isLt)) := by
  obtain ⟨n, hn⟩ := t
  cases n with
  | zero => exact absurd rfl h
  | succ n => rfl

/-- The proof data of the pipeline on core `c`. -/
def dat (c : Dev nD) : Dat τ (Elt F) Unit ℕ (UR sig nD τ) ℕ cfg2 c where
  A w := V c (Pipeline.arrRef spec2 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => blockAt V c 6 t
    | ⟨7, _⟩ => k2_pay4 (blockAt V c 0 t) (blockAt V c 1 t) (blockAt V c 2 t) (blockAt V c 3 t) (blockAt V c 4 t)
    | ⟨8, _⟩ => k2_pay5 (scratchAt V c t.val t.isLt) (blockAt V c 5 t) (blockAt V c 6 t)
  Φ t := PhiS V c t.val (Nat.le_of_lt_succ t.isLt)
  q _ := fullShare
  owed _ := 0

theorem dat_A (c : Dev nD) (w : Fin cfg2.W) : (dat V c).A w = V c (Pipeline.arrRef spec2 w) := by
  dsimp only [dat]

theorem after_7 (c : Dev nD) (t : Fin cfg2.N) :
    (dat V c).after 7 t = k2_pay4 (blockAt V c 0 t) (blockAt V c 1 t) (blockAt V c 2 t) (blockAt V c 3 t) (blockAt V c 4 t) := by dsimp only [dat]
theorem after_8 (c : Dev nD) (t : Fin cfg2.N) :
    (dat V c).after 8 t = k2_pay5 (scratchAt V c t.val t.isLt) (blockAt V c 5 t) (blockAt V c 6 t) := by dsimp only [dat]

/-! ## The body's conditions -/

/-- The condition of the body's first conditional (the reset of the scratch), from the grid coordinates. -/
abbrev cond0 (i : grid2.Coords) : Prop := (Scalar.cmpi .ne (Scalar.extui (Scalar.cmpi .eq (BitVec.ofNat 32 (i 0).val) 0#32)) 0#32) = 1#1
/-- The condition of the second (the value head's store). -/
abbrev cond1 (i : grid2.Coords) : Prop := k2_cond2 i = 1#1

/-- The first holds at the first point only, -/
theorem hcond0 : ∀ t : Fin cfg2.N, cond0 (grid2.coords t) ↔ t.val = 0 :=
  (by decide +kernel : ∀ t : Fin grid2.N, cond0 (grid2.coords t) ↔ t.val = 0)
/-- the second at the last point only. -/
theorem hcond1 : ∀ t : Fin cfg2.N, cond1 (grid2.coords t) ↔ t.val = 9 :=
  (by decide +kernel : ∀ t : Fin grid2.N, cond1 (grid2.coords t) ↔ t.val = 9)

/-- Where the second condition fails the value output's window is idle and is not written back; where it
    holds the window is live. -/
theorem idle_8 : ∀ t : Fin cfg2.N, ¬cond1 (grid2.coords t) → cfg2.idle 8 (grid2.coords t) = true := by decide +kernel
theorem noFlush_8 : ∀ t : Fin cfg2.N, ¬cond1 (grid2.coords t) → (cfg2.win 8).flush t = false := by decide +kernel
theorem live_8 : ∀ t : Fin cfg2.N, cond1 (grid2.coords t) → cfg2.idle 8 (grid2.coords t) = false := by decide +kernel

/-! ## The body on whole staging buffers, case by case -/

/-- The offsets of a whole-block rectangle are zero. -/
theorem zero_off : (![0, 0] : Fin 2 → Nat) = fun _ => 0 := funext fun a => by fin_cases a <;> rfl

/-- A store of the whole block, last, reads back as its payload whatever was stored before it. -/
theorem read_writes_whole {sp : Space} {S : Shape} {e : EltTy} (v : View sig .tc sp S e) (f : v.ty.Contents (Elt F))
    {off : Fin S.rank → Nat} (h : off = fun _ => 0) (inb : ∀ a, off a + S.size a ≤ S.size a) (p : S.Idx → Elt F e)
    (L : List (View.Piece (Elt F) S e)) :
    v.read (Elt F) (v.writes (Elt F) f (⟨Rect.unit off S.size inb, p⟩ :: L)) = p := by
  rw [View.read_writes_eq_canon _ _ _ (fun y => ⟨_, .head _, View.mem_set_unit_zero h inb y⟩), View.canon_cons_unit_zero h]

/-- The seven inputs' staging buffers at given contents. -/
def insAt (c : Dev nD) (arg1 : Memref sig .tc .vmem S5000x128 .f32) (arg2 : Memref sig .tc .vmem S128x128 .f32) (arg3 : Memref sig .tc .vmem S1x128 .f32)
    (arg4 : Memref sig .tc .vmem S128x1 .f32) (arg5 : Memref sig .tc .vmem S1x1 .f32) (arg6 : Memref sig .tc .vmem S128x1 .f32) (arg7 : Memref sig .tc .vmem S1x1 .f32)
    (x : Vec F S5000x128 .f32) (w : Vec F S128x128 .f32) (b : Vec F S1x128 .f32) (pw : Vec F S128x1 .f32) (pb : Vec F S1x1 .f32)
    (vw : Vec F S128x1 .f32) (vb : Vec F S1x1 .f32) : sProp 𝕄 :=
  iprop(owns (c : Thread nD τ) arg1 fullShare x ∗ owns (c : Thread nD τ) arg2 fullShare w ∗ owns (c : Thread nD τ) arg3 fullShare b
    ∗ owns (c : Thread nD τ) arg4 fullShare pw ∗ owns (c : Thread nD τ) arg5 fullShare pb ∗ owns (c : Thread nD τ) arg6 fullShare vw
    ∗ owns (c : Thread nD τ) arg7 fullShare vb)

set_option maxHeartbeats 1000000 in
/-- At the first point: the scratch, at anything, is reset and then takes the block's column sums; the policy
    block is stored; the value output's buffer is handed back as found. -/
theorem body_first (c : Dev nD) (E : Set ℕ) (i : grid2.Coords) (hc0 : cond0 i) (hc1 : ¬cond1 i)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x1 .f32) (harg4 : arg4.IsWhole)
    (arg5 : Memref sig .tc .vmem S1x1 .f32) (harg5 : arg5.IsWhole) (arg6 : Memref sig .tc .vmem S128x1 .f32) (harg6 : arg6.IsWhole)
    (arg7 : Memref sig .tc .vmem S1x1 .f32) (harg7 : arg7.IsWhole) (arg8 : Memref sig .tc .vmem S5000x1 .f32) (harg8 : arg8.IsWhole)
    (arg9 : Memref sig .tc .vmem S1x1 .f32) (harg9 : arg9.IsWhole) (arg10 : Memref sig .tc .vmem S1x128 .f32) (harg10 : arg10.IsWhole)
    (x : Vec F S5000x128 .f32) (w : Vec F S128x128 .f32) (b : Vec F S1x128 .f32) (pw : Vec F S128x1 .f32) (pb : Vec F S1x1 .f32)
    (vw : Vec F S128x1 .f32) (vb : Vec F S1x1 .f32) (o9 : Vec F S1x1 .f32) (K : PUnit → sProp 𝕄) :
    iprop(insAt c arg1 arg2 arg3 arg4 arg5 arg6 arg7 x w b pw pb vw vb ∗ (∃ o, owns (c : Thread nD τ) arg8 fullShare o) ∗ owns (c : Thread nD τ) arg9 fullShare o9
        ∗ (∃ s, owns (c : Thread nD τ) arg10 fullShare s)
        ∗ (iprop(insAt c arg1 arg2 arg3 arg4 arg5 arg6 arg7 x w b pw pb vw vb ∗ owns (c : Thread nD τ) arg8 fullShare (k2_pay4 x w b pw pb)
            ∗ owns (c : Thread nD τ) arg9 fullShare o9 ∗ owns (c : Thread nD τ) arg10 fullShare (k2_pay3 x w b (k2_pay1 (F := F)))) -∗ K ⟨⟩))
      ⊢ wp frame (wpE (defs₀ (F := F)) Variants.none c none) E (cc2__head_kernel i arg1 harg1 arg2 harg2 arg3 harg3 arg4 harg4 arg5 harg5 arg6 harg6 arg7 harg7 arg8 harg8 arg9 harg9 arg10 harg10) K := by
  simp only [cc2__head_kernel_eq_skeleton]; unfold cc2__head_kernel_skel
  unfold insAt owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%o8, %f8, -, H8⟩, ⟨%f9, %hf9, H9⟩, ⟨%s10, %f10, -, H10⟩, Hk⟩
  subst hf1; subst hf2; subst hf3; subst hf4; subst hf5; subst hf6; subst hf7; subst hf9
  sl_exec (disch := first | exact hc0 | exact hc1)
  sl_step
  iapply Hk
  isplitl [H1 H2 H3 H4 H5 H6 H7]
  · isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    iexists f7; isplitr; · ipureintro; rfl
    iexact H7
  isplitl [H8]
  · iexists _; isplitr
    swap; · iexact H8
    ipureintro
    refine (read_writes_whole (S := S5000x1) _ _ zero_off _ _ _).trans ?_
    simp only [View.readCov_unit_zero (S := S1x128) _ zero_off, View.readAt_eq_ld, View.ld_unit_zero (S := S5000x128) zero_off,
      View.ld_unit_zero (S := S128x128) zero_off, View.ld_unit_zero (S := S1x128) zero_off, View.ld_unit_zero (S := S128x1) zero_off,
      View.ld_unit_zero (S := S1x1) zero_off]
  isplitl [H9]
  · iexists f9; isplitr; · ipureintro; rfl
    iexact H9
  iexists _; isplitr
  swap; · iexact H10
  ipureintro
  refine (read_writes_whole (S := S1x128) _ _ zero_off _ _ _).trans ?_
  sl_unfold_run_names
  simp only [View.readCov_unit_zero (S := S1x128) _ zero_off, View.readAt_eq_ld, View.ld_unit_zero (S := S5000x128) zero_off,
    View.ld_unit_zero (S := S128x128) zero_off, View.ld_unit_zero (S := S1x128) zero_off, View.ld_unit_zero (S := S128x1) zero_off,
    View.ld_unit_zero (S := S1x1) zero_off]

set_option maxHeartbeats 1000000 in
/-- At a point that is neither the first nor the last: the block's column sums are added into the scratch,
    the policy block is stored, the value output's buffer is handed back as found. -/
theorem body_mid (c : Dev nD) (E : Set ℕ) (i : grid2.Coords) (hc0 : ¬cond0 i) (hc1 : ¬cond1 i)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x1 .f32) (harg4 : arg4.IsWhole)
    (arg5 : Memref sig .tc .vmem S1x1 .f32) (harg5 : arg5.IsWhole) (arg6 : Memref sig .tc .vmem S128x1 .f32) (harg6 : arg6.IsWhole)
    (arg7 : Memref sig .tc .vmem S1x1 .f32) (harg7 : arg7.IsWhole) (arg8 : Memref sig .tc .vmem S5000x1 .f32) (harg8 : arg8.IsWhole)
    (arg9 : Memref sig .tc .vmem S1x1 .f32) (harg9 : arg9.IsWhole) (arg10 : Memref sig .tc .vmem S1x128 .f32) (harg10 : arg10.IsWhole)
    (x : Vec F S5000x128 .f32) (w : Vec F S128x128 .f32) (b : Vec F S1x128 .f32) (pw : Vec F S128x1 .f32) (pb : Vec F S1x1 .f32)
    (vw : Vec F S128x1 .f32) (vb : Vec F S1x1 .f32) (o9 : Vec F S1x1 .f32) (s : Vec F S1x128 .f32) (K : PUnit → sProp 𝕄) :
    iprop(insAt c arg1 arg2 arg3 arg4 arg5 arg6 arg7 x w b pw pb vw vb ∗ (∃ o, owns (c : Thread nD τ) arg8 fullShare o) ∗ owns (c : Thread nD τ) arg9 fullShare o9
        ∗ owns (c : Thread nD τ) arg10 fullShare s
        ∗ (iprop(insAt c arg1 arg2 arg3 arg4 arg5 arg6 arg7 x w b pw pb vw vb ∗ owns (c : Thread nD τ) arg8 fullShare (k2_pay4 x w b pw pb)
            ∗ owns (c : Thread nD τ) arg9 fullShare o9 ∗ owns (c : Thread nD τ) arg10 fullShare (k2_pay3 x w b s)) -∗ K ⟨⟩))
      ⊢ wp frame (wpE (defs₀ (F := F)) Variants.none c none) E (cc2__head_kernel i arg1 harg1 arg2 harg2 arg3 harg3 arg4 harg4 arg5 harg5 arg6 harg6 arg7 harg7 arg8 harg8 arg9 harg9 arg10 harg10) K := by
  simp only [cc2__head_kernel_eq_skeleton]; unfold cc2__head_kernel_skel
  unfold insAt owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%o8, %f8, -, H8⟩, ⟨%f9, %hf9, H9⟩, ⟨%f10, %hf10, H10⟩, Hk⟩
  subst hf1; subst hf2; subst hf3; subst hf4; subst hf5; subst hf6; subst hf7; subst hf9; subst hf10
  sl_exec (disch := first | exact hc0 | exact hc1)
  sl_step
  iapply Hk
  isplitl [H1 H2 H3 H4 H5 H6 H7]
  · isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    iexists f7; isplitr; · ipureintro; rfl
    iexact H7
  isplitl [H8]
  · iexists _; isplitr
    swap; · iexact H8
    ipureintro
    refine (read_writes_whole (S := S5000x1) _ _ zero_off _ _ _).trans ?_
    simp only [View.readCov_unit_zero (S := S1x128) _ zero_off, View.readAt_eq_ld, View.ld_unit_zero (S := S5000x128) zero_off,
      View.ld_unit_zero (S := S128x128) zero_off, View.ld_unit_zero (S := S1x128) zero_off, View.ld_unit_zero (S := S128x1) zero_off,
      View.ld_unit_zero (S := S1x1) zero_off]
  isplitl [H9]
  · iexists f9; isplitr; · ipureintro; rfl
    iexact H9
  iexists _; isplitr
  swap; · iexact H10
  ipureintro
  refine (read_writes_whole (S := S1x128) _ _ zero_off _ _ _).trans ?_
  simp only [View.readCov_unit_zero (S := S1x128) _ zero_off, View.readAt_eq_ld, View.ld_unit_zero (S := S5000x128) zero_off,
    View.ld_unit_zero (S := S128x128) zero_off, View.ld_unit_zero (S := S1x128) zero_off, View.ld_unit_zero (S := S128x1) zero_off,
    View.ld_unit_zero (S := S1x1) zero_off]

set_option maxHeartbeats 1000000 in
/-- At the last point: the block's column sums are added into the scratch, the policy block is stored, and
    the value head of the scratch as just left is stored over the value output's buffer, which held anything. -/
theorem body_last (c : Dev nD) (E : Set ℕ) (i : grid2.Coords) (hc0 : ¬cond0 i) (hc1 : cond1 i)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x1 .f32) (harg4 : arg4.IsWhole)
    (arg5 : Memref sig .tc .vmem S1x1 .f32) (harg5 : arg5.IsWhole) (arg6 : Memref sig .tc .vmem S128x1 .f32) (harg6 : arg6.IsWhole)
    (arg7 : Memref sig .tc .vmem S1x1 .f32) (harg7 : arg7.IsWhole) (arg8 : Memref sig .tc .vmem S5000x1 .f32) (harg8 : arg8.IsWhole)
    (arg9 : Memref sig .tc .vmem S1x1 .f32) (harg9 : arg9.IsWhole) (arg10 : Memref sig .tc .vmem S1x128 .f32) (harg10 : arg10.IsWhole)
    (x : Vec F S5000x128 .f32) (w : Vec F S128x128 .f32) (b : Vec F S1x128 .f32) (pw : Vec F S128x1 .f32) (pb : Vec F S1x1 .f32)
    (vw : Vec F S128x1 .f32) (vb : Vec F S1x1 .f32) (s : Vec F S1x128 .f32) (K : PUnit → sProp 𝕄) :
    iprop(insAt c arg1 arg2 arg3 arg4 arg5 arg6 arg7 x w b pw pb vw vb ∗ (∃ o, owns (c : Thread nD τ) arg8 fullShare o) ∗ (∃ o, owns (c : Thread nD τ) arg9 fullShare o)
        ∗ owns (c : Thread nD τ) arg10 fullShare s
        ∗ (iprop(insAt c arg1 arg2 arg3 arg4 arg5 arg6 arg7 x w b pw pb vw vb ∗ owns (c : Thread nD τ) arg8 fullShare (k2_pay4 x w b pw pb)
            ∗ owns (c : Thread nD τ) arg9 fullShare (k2_pay5 (k2_pay3 x w b s) vw vb) ∗ owns (c : Thread nD τ) arg10 fullShare (k2_pay3 x w b s)) -∗ K ⟨⟩))
      ⊢ wp frame (wpE (defs₀ (F := F)) Variants.none c none) E (cc2__head_kernel i arg1 harg1 arg2 harg2 arg3 harg3 arg4 harg4 arg5 harg5 arg6 harg6 arg7 harg7 arg8 harg8 arg9 harg9 arg10 harg10) K := by
  simp only [cc2__head_kernel_eq_skeleton]; unfold cc2__head_kernel_skel
  unfold insAt owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%o8, %f8, -, H8⟩, ⟨%o9, %f9, -, H9⟩, ⟨%f10, %hf10, H10⟩, Hk⟩
  subst hf1; subst hf2; subst hf3; subst hf4; subst hf5; subst hf6; subst hf7; subst hf10
  sl_exec (disch := first | exact hc0 | exact hc1)
  sl_step
  iapply Hk
  isplitl [H1 H2 H3 H4 H5 H6 H7]
  · isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    iexists f7; isplitr; · ipureintro; rfl
    iexact H7
  isplitl [H8]
  · iexists _; isplitr
    swap; · iexact H8
    ipureintro
    refine (read_writes_whole (S := S5000x1) _ _ zero_off _ _ _).trans ?_
    simp only [View.readCov_unit_zero (S := S1x128) _ zero_off, View.readAt_eq_ld, View.ld_unit_zero (S := S5000x128) zero_off,
      View.ld_unit_zero (S := S128x128) zero_off, View.ld_unit_zero (S := S1x128) zero_off, View.ld_unit_zero (S := S128x1) zero_off,
      View.ld_unit_zero (S := S1x1) zero_off]
  isplitl [H9]
  · iexists _; isplitr
    swap; · iexact H9
    ipureintro
    refine (read_writes_whole (S := S1x1) _ _ zero_off _ _ _).trans ?_
    sl_unfold_run_names
    simp only [View.readCov_unit_zero (S := S1x128) _ zero_off, View.readAt_eq_ld, View.ld_unit_zero (S := S5000x128) zero_off,
      View.ld_unit_zero (S := S128x128) zero_off, View.ld_unit_zero (S := S1x128) zero_off, View.ld_unit_zero (S := S128x1) zero_off,
      View.ld_unit_zero (S := S1x1) zero_off]
  iexists _; isplitr
  swap; · iexact H10
  ipureintro
  refine (read_writes_whole (S := S1x128) _ _ zero_off _ _ _).trans ?_
  simp only [View.readCov_unit_zero (S := S1x128) _ zero_off, View.readAt_eq_ld, View.ld_unit_zero (S := S5000x128) zero_off,
    View.ld_unit_zero (S := S128x128) zero_off, View.ld_unit_zero (S := S1x128) zero_off, View.ld_unit_zero (S := S128x1) zero_off,
    View.ld_unit_zero (S := S1x1) zero_off]

theorem after_0 (c : Dev nD) (t : Fin cfg2.N) : (dat V c).after 0 t = blockAt V c 0 t := by dsimp only [dat]
theorem after_1 (c : Dev nD) (t : Fin cfg2.N) : (dat V c).after 1 t = blockAt V c 1 t := by dsimp only [dat]
theorem after_2 (c : Dev nD) (t : Fin cfg2.N) : (dat V c).after 2 t = blockAt V c 2 t := by dsimp only [dat]
theorem after_3 (c : Dev nD) (t : Fin cfg2.N) : (dat V c).after 3 t = blockAt V c 3 t := by dsimp only [dat]
theorem after_4 (c : Dev nD) (t : Fin cfg2.N) : (dat V c).after 4 t = blockAt V c 4 t := by dsimp only [dat]
theorem after_5 (c : Dev nD) (t : Fin cfg2.N) : (dat V c).after 5 t = blockAt V c 5 t := by dsimp only [dat]
theorem after_6 (c : Dev nD) (t : Fin cfg2.N) : (dat V c).after 6 t = blockAt V c 6 t := by dsimp only [dat]

theorem found_0 (c : Dev nD) (t : Fin cfg2.N) (d) : (dat V c).before 0 t d = blockAt V c 0 t :=
  found_of_0 V (dat V c) (dat_A V c 0) (after_0 V c) t d
theorem found_1 (c : Dev nD) (t : Fin cfg2.N) (d) : (dat V c).before 1 t d = blockAt V c 1 t :=
  found_of_1 V (dat V c) (dat_A V c 1) (after_1 V c) t d
theorem found_2 (c : Dev nD) (t : Fin cfg2.N) (d) : (dat V c).before 2 t d = blockAt V c 2 t :=
  found_of_2 V (dat V c) (dat_A V c 2) (after_2 V c) t d
theorem found_3 (c : Dev nD) (t : Fin cfg2.N) (d) : (dat V c).before 3 t d = blockAt V c 3 t :=
  found_of_3 V (dat V c) (dat_A V c 3) (after_3 V c) t d
theorem found_4 (c : Dev nD) (t : Fin cfg2.N) (d) : (dat V c).before 4 t d = blockAt V c 4 t :=
  found_of_4 V (dat V c) (dat_A V c 4) (after_4 V c) t d
theorem found_5 (c : Dev nD) (t : Fin cfg2.N) (d) : (dat V c).before 5 t d = blockAt V c 5 t :=
  found_of_5 V (dat V c) (dat_A V c 5) (after_5 V c) t d
theorem found_6 (c : Dev nD) (t : Fin cfg2.N) (d) : (dat V c).before 6 t d = blockAt V c 6 t :=
  found_of_6 V (dat V c) (dat_A V c 6) (after_6 V c) t d

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d))
    ∗ (∃ d, owns (c : Thread nD τ) (st2_8 t) fullShare ((dat V c).before 8 t d)))

/-- and what it returns: every buffer at what the proof data says, the value output's at what it held
    where the point neither stores into it nor writes it back. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t)
    ∗ owns (c : Thread nD τ) (st2_7 t) fullShare ((dat V c).after 7 t)
    ∗ (dat V c).leavesExact 8 t)

set_option maxHeartbeats 2000000 in
/-- The body at any point. The inputs' buffers hold their blocks; the point's position decides which of the
    three cases runs; the invariant hands the body the scratch (at anything before the first point, at what
    the point before left afterwards) and takes it back at this point's contents; the other scoped buffers,
    the generator register and the core's dues pass through unread. -/
theorem body_at (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [found_0, found_1, found_2, found_3, found_4, found_5, found_6]
  rw [show (dat V c).owesAt () t.succ = (dat V c).owesAt () t.castSucc from rfl,
    show (dat V c).Φ t.succ = PhiS V c (t.val + 1) t.isLt from rfl, PhiS_succ,
    show (dat V c).Φ t.castSucc = PhiS V c t.val (Nat.le_of_lt t.isLt) from rfl,
    after_0, after_1, after_2, after_3, after_4, after_5, after_6, after_7]
  have hN : t.val < 10 := lt_of_lt_of_eq t.isLt N_2
  by_cases h0 : t.val = 0
  · have hc0 : cond0 (grid2.coords t) := (hcond0 t).mpr h0
    have hc1 : ¬cond1 (grid2.coords t) := fun h => by have := (hcond1 t).mp h; omega
    rw [Dat.leavesExact_idle (dat V c) 8 t (idle_8 t hc1) (noFlush_8 t hc1), PhiS_zero V c _ _ h0, PhiA_eq,
      scratchAt_first V c t h0]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_first c Set.univ (grid2.coords t) hc0 hc1 _ _ _ _ _ _ _ _ _ _ _ _ _ _ _ _ _ _ _ _
      (blockAt V c 0 t) (blockAt V c 1 t) (blockAt V c 2 t) (blockAt V c 3 t) (blockAt V c 4 t) (blockAt V c 5 t) (blockAt V c 6 t) ((dat V c).before 8 t d8) _)
    unfold insAt
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexists _; iexact H7
    isplitl [H8]; · iexact H8
    isplitl [HS]; · iexact HS
    iintro ⟨⟨H0, H1, H2, H3, H4, H5, H6⟩, H7, H8, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · by_cases h9 : t.val = 9
    · have hc0 : ¬cond0 (grid2.coords t) := fun h => h0 ((hcond0 t).mp h)
      have hc1 : cond1 (grid2.coords t) := (hcond1 t).mpr h9
      rw [show (dat V c).leavesExact 8 t = owns (c : Thread nD τ) (st2_8 t) fullShare ((dat V c).after 8 t) from by
          unfold Dat.leavesExact; rw [live_8 t hc1],
        after_8, PhiS_pos V c _ _ h0, scratchAt_later V c t h0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (body_last c Set.univ (grid2.coords t) hc0 hc1 _ _ _ _ _ _ _ _ _ _ _ _ _ _ _ _ _ _ _ _
        (blockAt V c 0 t) (blockAt V c 1 t) (blockAt V c 2 t) (blockAt V c 3 t) (blockAt V c 4 t) (blockAt V c 5 t) (blockAt V c 6 t) (scratchAt V c (t.val - 1) (Nat.lt_of_le_of_lt (Nat.sub_le _ _) t.isLt)) _)
      unfold insAt
      isplitl [H0 H1 H2 H3 H4 H5 H6]
      · isplitl [H0]; · iexact H0
        isplitl [H1]; · iexact H1
        isplitl [H2]; · iexact H2
        isplitl [H3]; · iexact H3
        isplitl [H4]; · iexact H4
        isplitl [H5]; · iexact H5
        iexact H6
      isplitl [H7]; · iexists _; iexact H7
      isplitl [H8]; · iexists _; iexact H8
      isplitl [HS]; · iexact HS
      iintro ⟨⟨H0, H1, H2, H3, H4, H5, H6⟩, H7, H8, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc0 : ¬cond0 (grid2.coords t) := fun h => h0 ((hcond0 t).mp h)
      have hc1 : ¬cond1 (grid2.coords t) := fun h => h9 ((hcond1 t).mp h)
      rw [Dat.leavesExact_idle (dat V c) 8 t (idle_8 t hc1) (noFlush_8 t hc1), PhiS_pos V c _ _ h0,
        scratchAt_later V c t h0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (body_mid c Set.univ (grid2.coords t) hc0 hc1 _ _ _ _ _ _ _ _ _ _ _ _ _ _ _ _ _ _ _ _
        (blockAt V c 0 t) (blockAt V c 1 t) (blockAt V c 2 t) (blockAt V c 3 t) (blockAt V c 4 t) (blockAt V c 5 t) (blockAt V c 6 t) ((dat V c).before 8 t d8) (scratchAt V c (t.val - 1) (Nat.lt_of_le_of_lt (Nat.sub_le _ _) t.isLt)) _)
      unfold insAt
      isplitl [H0 H1 H2 H3 H4 H5 H6]
      · isplitl [H0]; · iexact H0
        isplitl [H1]; · iexact H1
        isplitl [H2]; · iexact H2
        isplitl [H3]; · iexact H3
        isplitl [H4]; · iexact H4
        isplitl [H5]; · iexact H5
        iexact H6
      isplitl [H7]; · iexists _; iexact H7
      isplitl [H8]; · iexact H8
      isplitl [HS]; · iexact HS
      iintro ⟨⟨H0, H1, H2, H3, H4, H5, H6⟩, H7, H8, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The pipeline's per-point obligation. -/
theorem body_obligation (c : Dev nD) : BodyObligation (dat (F := F) V c) (defs₀ (F := F)) Variants.none () Set.univ := fun t => by
  rw [bigSep_W2, bigSep_W2]
  exact body_at V c t

/-- What the launch hands the call is the invariant before the first point. -/
theorem phi_in (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After the last point the invariant gives the same back, the scratch's contents forgotten. -/
theorem phi_out (c : Dev nD) : (dat V c).Φ (Fin.last cfg2.N) ⊢ Pipeline.ΦA spec2 c := by
  rw [show (dat V c).Φ (Fin.last cfg2.N) = PhiS V c (Fin.last cfg2.N).val (Nat.le_of_lt_succ (Fin.last cfg2.N).isLt) from rfl,
    PhiS_pos V c _ _ (by rw [Fin.val_last]; have : cfg2.N = 10 := N_2; omega), PhiA_eq]
  iintro ⟨⟨HS, HR⟩, Hg⟩
  isplitl [HS HR]
  · isplitl [HS]
    · iexists _; iexact HS
    iexact HR
  iexact Hg

end Cert.KernelIdeal.Head

end
-- ==== Proof.KernelIdeal.Run.lean ====
import proofs.«421690_j88553635709104_2_alg».proof.Proof.Gen.KernelIdeal.Regions
import proofs.«421690_j88553635709104_2_alg».proof.Proof.KernelIdeal.Layer0
import proofs.«421690_j88553635709104_2_alg».proof.Proof.KernelIdeal.Layer1
import proofs.«421690_j88553635709104_2_alg».proof.Proof.KernelIdeal.Head
import Idealize.ShloMosaic.Lib.Pipeline.FrameBody
import Idealize.ShloMosaic.Lib.Pipeline.RegionsLoop
import Idealize.ShloMosaic.Lib.Pipeline.FrameSuffix
import Idealize.ShloMosaic.Lib.Tactic

/-!
  The run of the whole program on a core. @main is twelve items in order: five stretches of host
  operations, the first layer's kernel, two stretches, the second layer's kernel, two stretches, and
  the kernel of the last layer with the two heads.

  `W j` names what the core's unscoped buffers hold after item `j` (`W0`: at launch). A host stretch
  rewrites exactly the buffers its operations write; a kernel leaves each of its arrays at what its
  write-backs fold to (an input array: as found) and every other buffer as found. Along the items the
  core holds every unscoped buffer whole at the current `W j`, beside its generator register at some
  state and the fact that it owes nothing. Each kernel is entered by splitting its arrays off the
  buffers and left by putting them back; the launch theorem for a list of such items then says every
  weakly fair execution terminates with every unscoped buffer at `W12`.
-/

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers after each item -/

/-- At launch: the memory the run starts from. -/
abbrev W0 : Dev nD → Valuation τ sig (Elt F) := fun c b => (s₀ m ρ).mem (c, b)
/-- After the five stretches before the first kernel. -/
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
/-- `W5` at the TensorCore's references: what the first kernel finds. -/
abbrev V5 : (c : Dev nD) → (b : Ref sig .tc) → Buf (Elt F) ((c : Thread nD τ).loc b) := fun c b => W5 m ρ c b
/-- After the first kernel: its five arrays at the fold of its write-backs, the rest as in `W5`. -/
def W6 (c : Dev nD) : Valuation τ sig (Elt F) :=
  Pipeline.withArrays spec0 c (W5 m ρ c) fun w => (Layer0.dat (V5 m ρ) c).arrAt w cfg0.N
abbrev W7 : Dev nD → Valuation τ sig (Elt F) := fun c => StableHlo.after hostOps1 (W6 m ρ c)
abbrev W8 : Dev nD → Valuation τ sig (Elt F) := fun c => StableHlo.after hostOps1_1 (W7 m ρ c)
/-- `W8` at the TensorCore's references: what the second kernel finds. -/
abbrev V8 : (c : Dev nD) → (b : Ref sig .tc) → Buf (Elt F) ((c : Thread nD τ).loc b) := fun c b => W8 m ρ c b
/-- After the second kernel. -/
def W9 (c : Dev nD) : Valuation τ sig (Elt F) :=
  Pipeline.withArrays spec1 c (W8 m ρ c) fun w => (Layer1.dat (V8 m ρ) c).arrAt w cfg1.N
abbrev W10 : Dev nD → Valuation τ sig (Elt F) := fun c => StableHlo.after hostOps2 (W9 m ρ c)
abbrev W11 : Dev nD → Valuation τ sig (Elt F) := fun c => StableHlo.after hostOps2_1 (W10 m ρ c)
/-- `W11` at the TensorCore's references: what the last kernel finds. -/
abbrev V11 : (c : Dev nD) → (b : Ref sig .tc) → Buf (Elt F) ((c : Thread nD τ).loc b) := fun c b => W11 m ρ c b
/-- After the last kernel: the end of the run. -/
def W12 (c : Dev nD) : Valuation τ sig (Elt F) :=
  Pipeline.withArrays spec2 c (W11 m ρ c) fun w => (Head.dat (V11 m ρ) c).arrAt w cfg2.N

/-! ### A kernel's exit against its entry -/

theorem W6_at (c : Dev nD) (w : Fin cfg0.W) :
    W6 m ρ c (Proc.devRef .tc (Pipeline.arrRef spec0 w)) = (Layer0.dat (V5 m ρ) c).arrAt w cfg0.N := by
  unfold W6; exact Pipeline.withArrays_arr spec0 launch0.win.arr_inj c _ _ w
theorem W6_off (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
theorem W9_at (c : Dev nD) (w : Fin cfg1.W) :
    W9 m ρ c (Proc.devRef .tc (Pipeline.arrRef spec1 w)) = (Layer1.dat (V8 m ρ) c).arrAt w cfg1.N := by
  unfold W9; exact Pipeline.withArrays_arr spec1 launch1.win.arr_inj c _ _ w
theorem W9_off (c : Dev nD) (b : Ref sig .tc) (hb : ∀ w, Pipeline.arrRef spec1 w ≠ b) :
    W9 m ρ c (Proc.devRef .tc b) = W8 m ρ c (Proc.devRef .tc b) := by
  unfold W9; exact Pipeline.withArrays_of_ne spec1 c _ _ b hb
theorem W12_at (c : Dev nD) (w : Fin cfg2.W) :
    W12 m ρ c (Proc.devRef .tc (Pipeline.arrRef spec2 w)) = (Head.dat (V11 m ρ) c).arrAt w cfg2.N := by
  unfold W12; exact Pipeline.withArrays_arr spec2 launch2.win.arr_inj c _ _ w
theorem W12_off (c : Dev nD) (b : Ref sig .tc) (hb : ∀ w, Pipeline.arrRef spec2 w ≠ b) :
    W12 m ρ c (Proc.devRef .tc b) = W11 m ρ c (Proc.devRef .tc b) := by
  unfold W12; exact Pipeline.withArrays_of_ne spec2 c _ _ b hb

/-- Of the first kernel's arrays only `main_v15` is an output. -/
theorem inputs0 : ∀ w : Fin cfg0.W, Pipeline.arrRef spec0 w ≠ main_v15 → (cfg0.win w).isOut = false := by decide
/-- Of the second kernel's arrays only `main_v21` is an output. -/
theorem inputs1 : ∀ w : Fin cfg1.W, Pipeline.arrRef spec1 w ≠ main_v21 → (cfg1.win w).isOut = false := by decide
/-- Of the last kernel's arrays only `main_v29_0` and `main_v29_1` are outputs. -/
theorem inputs2 : ∀ w : Fin cfg2.W, Pipeline.arrRef spec2 w ≠ main_v29_0 → Pipeline.arrRef spec2 w ≠ main_v29_1 →
    (cfg2.win w).isOut = false := by decide

/-- The first kernel changes no buffer but its output: an input array is written back as found, any
    other buffer is not touched. -/
theorem W6_keep (c : Dev nD) (b : Ref sig .tc) (hb : b ≠ main_v15) :
    W6 m ρ c (Proc.devRef .tc b) = W5 m ρ c (Proc.devRef .tc b) := by
  by_cases h : ∃ w, Pipeline.arrRef spec0 w = b
  · obtain ⟨w, rfl⟩ := h
    exact (W6_at m ρ c w).trans (((Layer0.dat (V5 m ρ) c).arrAt_in w (inputs0 w hb) _).trans (Layer0.dat_A (V5 m ρ) c w))
  · exact W6_off m ρ c b fun w e => h ⟨w, e⟩
/-- The second kernel changes no buffer but its output. -/
theorem W9_keep (c : Dev nD) (b : Ref sig .tc) (hb : b ≠ main_v21) :
    W9 m ρ c (Proc.devRef .tc b) = W8 m ρ c (Proc.devRef .tc b) := by
  by_cases h : ∃ w, Pipeline.arrRef spec1 w = b
  · obtain ⟨w, rfl⟩ := h
    exact (W9_at m ρ c w).trans (((Layer1.dat (V8 m ρ) c).arrAt_in w (inputs1 w hb) _).trans (Layer1.dat_A (V8 m ρ) c w))
  · exact W9_off m ρ c b fun w e => h ⟨w, e⟩
/-- The last kernel changes no buffer but its two outputs. -/
theorem W12_keep (c : Dev nD) (b : Ref sig .tc) (hb : b ≠ main_v29_0) (hb' : b ≠ main_v29_1) :
    W12 m ρ c (Proc.devRef .tc b) = W11 m ρ c (Proc.devRef .tc b) := by
  by_cases h : ∃ w, Pipeline.arrRef spec2 w = b
  · obtain ⟨w, rfl⟩ := h
    exact (W12_at m ρ c w).trans (((Head.dat (V11 m ρ) c).arrAt_in w (inputs2 w hb hb') _).trans (Head.dat_A (V11 m ρ) c w))
  · exact W12_off m ρ c b fun w e => h ⟨w, e⟩

/-- The kernels' outputs at their exits. -/
theorem W6_out (c : Dev nD) : W6 m ρ c (Proc.devRef .tc main_v15) = (Layer0.dat (V5 m ρ) c).arrAt 4 cfg0.N := W6_at m ρ c 4
theorem W9_out (c : Dev nD) : W9 m ρ c (Proc.devRef .tc main_v21) = (Layer1.dat (V8 m ρ) c).arrAt 4 cfg1.N := W9_at m ρ c 4
theorem W12_policy (c : Dev nD) : W12 m ρ c (Proc.devRef .tc main_v29_0) = (Head.dat (V11 m ρ) c).arrAt 7 cfg2.N := W12_at m ρ c 7
theorem W12_value (c : Dev nD) : W12 m ρ c (Proc.devRef .tc main_v29_1) = (Head.dat (V11 m ρ) c).arrAt 8 cfg2.N := W12_at m ρ c 8

/-! ### A buffer no item writes ends as launched -/

/-- Every reference some host operation writes or some kernel has as an output. -/
abbrev written : List (Ref sig .tc) :=
  hostOps0_W ++ (hostOps0_1_W ++ (hostOps0_2_W ++ (hostOps0_3_W ++ (hostOps0_4_W ++ (hostOps1_W ++ (hostOps1_1_W
    ++ (hostOps2_W ++ (hostOps2_1_W ++ [main_v15, main_v21, main_v29_0, main_v29_1]))))))))

/-- A reference outside `written` holds at the end what it held at launch: walk back through the twelve
    items, a stretch by its write list, a kernel by `WJ_keep`. -/
theorem W12_unwritten (c : Dev nD) (b : Ref sig .tc) (h : b ∉ written) :
    W12 m ρ c (Proc.devRef .tc b) = m ((c : Thread nD τ).loc b) := by
  simp only [written, List.mem_append, not_or] at h
  obtain ⟨h0, h1, h2, h3, h4, h5, h6, h7, h8, hk⟩ := h
  simp only [List.mem_cons, List.mem_nil_iff, or_false, not_or] at hk
  obtain ⟨k0, k1, k2, k3⟩ := hk
  calc W12 m ρ c (Proc.devRef .tc b)
    _ = W11 m ρ c (Proc.devRef .tc b) := W12_keep m ρ c b k2 k3
    _ = W10 m ρ c (Proc.devRef .tc b) := StableHlo.after_of_writes_sub hostOps2_1 _ hostOps2_1_writes h8
    _ = W9 m ρ c (Proc.devRef .tc b) := StableHlo.after_of_writes_sub hostOps2 _ hostOps2_writes h7
    _ = W8 m ρ c (Proc.devRef .tc b) := W9_keep m ρ c b k1
    _ = W7 m ρ c (Proc.devRef .tc b) := StableHlo.after_of_writes_sub hostOps1_1 _ hostOps1_1_writes h6
    _ = W6 m ρ c (Proc.devRef .tc b) := StableHlo.after_of_writes_sub hostOps1 _ hostOps1_writes h5
    _ = W5 m ρ c (Proc.devRef .tc b) := W6_keep m ρ c b k0
    _ = W4 m ρ c (Proc.devRef .tc b) := StableHlo.after_of_writes_sub hostOps0_4 _ hostOps0_4_writes h4
    _ = W3 m ρ c (Proc.devRef .tc b) := StableHlo.after_of_writes_sub hostOps0_3 _ hostOps0_3_writes h3
    _ = W2 m ρ c (Proc.devRef .tc b) := StableHlo.after_of_writes_sub hostOps0_2 _ hostOps0_2_writes h2
    _ = W1 m ρ c (Proc.devRef .tc b) := StableHlo.after_of_writes_sub hostOps0_1 _ hostOps0_1_writes h1
    _ = W0 m ρ c (Proc.devRef .tc b) := StableHlo.after_of_writes_sub hostOps0 _ hostOps0_writes h0
    _ = m ((c : Thread nD τ).loc b) := rfl

theorem W12_main_arg0 (c : Dev nD) : W12 m ρ c (Proc.devRef .tc main_arg0) = m ((c : Thread nD τ).loc main_arg0) := W12_unwritten m ρ c _ (by decide)
theorem W12_main_arg1 (c : Dev nD) : W12 m ρ c (Proc.devRef .tc main_arg1) = m ((c : Thread nD τ).loc main_arg1) := W12_unwritten m ρ c _ (by decide)
theorem W12_main_arg2 (c : Dev nD) : W12 m ρ c (Proc.devRef .tc main_arg2) = m ((c : Thread nD τ).loc main_arg2) := W12_unwritten m ρ c _ (by decide)
theorem W12_main_arg3 (c : Dev nD) : W12 m ρ c (Proc.devRef .tc main_arg3) = m ((c : Thread nD τ).loc main_arg3) := W12_unwritten m ρ c _ (by decide)
theorem W12_main_arg4 (c : Dev nD) : W12 m ρ c (Proc.devRef .tc main_arg4) = m ((c : Thread nD τ).loc main_arg4) := W12_unwritten m ρ c _ (by decide)
theorem W12_main_arg5 (c : Dev nD) : W12 m ρ c (Proc.devRef .tc main_arg5) = m ((c : Thread nD τ).loc main_arg5) := W12_unwritten m ρ c _ (by decide)
theorem W12_main_arg6 (c : Dev nD) : W12 m ρ c (Proc.devRef .tc main_arg6) = m ((c : Thread nD τ).loc main_arg6) := W12_unwritten m ρ c _ (by decide)
theorem W12_main_arg7 (c : Dev nD) : W12 m ρ c (Proc.devRef .tc main_arg7) = m ((c : Thread nD τ).loc main_arg7) := W12_unwritten m ρ c _ (by decide)
theorem W12_main_arg8 (c : Dev nD) : W12 m ρ c (Proc.devRef .tc main_arg8) = m ((c : Thread nD τ).loc main_arg8) := W12_unwritten m ρ c _ (by decide)
theorem W12_main_arg9 (c : Dev nD) : W12 m ρ c (Proc.devRef .tc main_arg9) = m ((c : Thread nD τ).loc main_arg9) := W12_unwritten m ρ c _ (by decide)
theorem W12_main_arg10 (c : Dev nD) : W12 m ρ c (Proc.devRef .tc main_arg10) = m ((c : Thread nD τ).loc main_arg10) := W12_unwritten m ρ c _ (by decide)
theorem W12_main_arg11 (c : Dev nD) : W12 m ρ c (Proc.devRef .tc main_arg11) = m ((c : Thread nD τ).loc main_arg11) := W12_unwritten m ρ c _ (by decide)
theorem W12_main_arg12 (c : Dev nD) : W12 m ρ c (Proc.devRef .tc main_arg12) = m ((c : Thread nD τ).loc main_arg12) := W12_unwritten m ρ c _ (by decide)

/-! ## The kernels' proof data and what the core holds beside its buffers -/

/-- Each kernel's proof data, at the buffer contents the kernel finds: a literal match on the pipeline, so that the
    data of a numbered pipeline reduces to that kernel's. -/
def pdats : (p : Fin 3) → (c : Dev nD) → Dat τ (Elt F) Unit ℕ (UR sig nD τ) ℕ (Pipeline.pin (pcfgs (F := F)) adm p) c
  | ⟨0, _⟩ => fun c => Layer0.dat (V5 m ρ) c
  | ⟨1, _⟩ => fun c => Layer1.dat (V8 m ρ) c
  | ⟨2, _⟩ => fun c => Head.dat (V11 m ρ) c

abbrev 𝒱 : Variants := Variants.none
/-- No core waits on another: no level is assigned. -/
abbrev Lv : GSem nD τ sig → Finset Unit := fun _ => ∅
abbrev lv : GSem nD τ sig → Unit → ℕ := fun _ _ => 0
/-- Beside its buffers the core holds, through every item, its generator register at some state and the fact that
    it owes nothing. -/
abbrev Side (c : Dev nD) : sProp 𝕄 :=
  iprop((∃ r, prngReg c r) ∗ ∃ T, owes (c : Thread nD τ) (0 : CellTallies nD τ sig Unit) T)

/-- A stretch of host operations as an item: from every unscoped buffer at `W` to the same at `W` rewritten by the
    operations in order, `Side` untouched. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱 Lv lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Side

/-- An unscoped TensorCore reference is one of the buffers the core holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The kernels as items -/

-- a library lemma stated over a pinned configuration meets the printed one only when unification may unfold plain
-- definitions in a metavariable's type
set_option backward.isDefEq.respectTransparency.types false in
/-- Kernel 0 as an item: entered with every unscoped buffer at `W5`, left with them at `W6`. -/
def reg0 : Pipeline.RegionSeg (pcfgs (F := F)) adm (pdats m ρ) () defs₀ 𝒱 Lv lv 0 where
  win := launch0.win.to₀
  block_pos := launch0.block_pos
  stage_whole := launch0.stage_whole
  K := PEmpty
  osem k := k.elim
  ho := Pipeline.OwnSemFacts.none _
  hbody c := (Layer0.body_obligation (V5 m ρ) c).loose
  hwaits := Pipeline.hwaits_of_owed_zero _ _ _ _ Lv lv 0 fun _ _ => rfl
  pre c := iprop(StableHlo.held (c : Thread nD τ) (Pipeline.ucRefs τ sig) (W5 m ρ c) ∗ Side c)
  post c := iprop(StableHlo.held (c : Thread nD τ) (Pipeline.ucRefs τ sig) (W6 m ρ c) ∗ Side c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    -- the buffers split into the kernel's arrays, each at what the proof data enters with, and the rest
    have cut := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at cut
    rw [Pipeline.ownSems0_none]
    iintro ⟨⟨Hbufs, Hgen, Howe⟩, -, -⟩
    ihave Hcut := cut $$ Hbufs
    icases Hcut with ⟨Harr, Hoff⟩
    imodintro
    isplitl [Harr]; · iexact Harr
    isplitr
    · -- no prefetched table
      unfold Pipeline.prefHeld; rw [show (Finset.univ : Finset (Fin 0)) = ∅ from rfl, BI.bigSep_empty]; iempintro
    isplitl [Howe]
    · -- nothing owed is within any tallies
      unfold Pipeline.Dat.owesAt Pipeline.owesWithin
      icases Howe with ⟨%T, Howe⟩; iexists T
      isplitr; · ipureintro; exact fun _ _ => Or.inl trivial
      iexact Howe
    isplitl [Hgen]; · iexact Hgen
    iexact Hoff
  hin c := by
    rw [show (pdats m ρ 0 c).Φ 0 = Pipeline.ΦA spec0 c from rfl]
    unfold Pipeline.ΦA
    iintro ⟨Hgen, -, Hscoped⟩
    isplitl [Hscoped]; · iexact Hscoped
    iexact Hgen
  hout c := by
    rw [Pipeline.ownSems0_none]
    rw [show (pdats m ρ 0 c).Φ (Fin.last _) = Pipeline.ΦA spec0 c from rfl]
    unfold Pipeline.ΦA
    iintro ⟨Hscoped, Hgen⟩
    isplitl [Hgen]; · iexact Hgen
    isplitr; · iempintro
    iexact Hscoped
  hexit c := by
    -- the arrays at the fold of the write-backs and the rest as entered are the buffers at `W6`
    have glue := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (fun b => W6 m ρ c (Proc.devRef .tc b)) ((pdats m ρ 0 c).arrAt · cfg0.N)
      (fun w => (W6_at m ρ c w).symm)
      (fun b hb => W6_off m ρ c b fun w e => hb (Finset.mem_image.mpr ⟨w, Finset.mem_univ _, e⟩))
    rw [Pipeline.unscopedBufs_held] at glue
    iintro ⟨Harr, Howe, Hgen, Hoff⟩
    imodintro
    isplitl [Harr Hoff]
    · iapply glue; isplitl [Harr] <;> iassumption
    isplitl [Hgen]; · iexact Hgen
    unfold Pipeline.Dat.owesAt Pipeline.owesWithin
    icases Howe with ⟨%T, -, Howe⟩; iexists T; iexact Howe

-- a library lemma stated over a pinned configuration meets the printed one only when unification may unfold plain
-- definitions in a metavariable's type
set_option backward.isDefEq.respectTransparency.types false in
/-- Kernel 1 as an item: entered with every unscoped buffer at `W8`, left with them at `W9`. -/
def reg1 : Pipeline.RegionSeg (pcfgs (F := F)) adm (pdats m ρ) () defs₀ 𝒱 Lv lv 1 where
  win := launch1.win.to₀
  block_pos := launch1.block_pos
  stage_whole := launch1.stage_whole
  K := PEmpty
  osem k := k.elim
  ho := Pipeline.OwnSemFacts.none _
  hbody c := (Layer1.body_obligation (V8 m ρ) c).loose
  hwaits := Pipeline.hwaits_of_owed_zero _ _ _ _ Lv lv 1 fun _ _ => rfl
  pre c := iprop(StableHlo.held (c : Thread nD τ) (Pipeline.ucRefs τ sig) (W8 m ρ c) ∗ Side c)
  post c := iprop(StableHlo.held (c : Thread nD τ) (Pipeline.ucRefs τ sig) (W9 m ρ c) ∗ Side c)
  X c := iprop(∃ r, prngReg c r)
  Y c := iprop(∃ r, prngReg c r)
  Z c := Pipeline.unscopedRest (Ix := Unit) (Name := ℕ) (U := UR sig nD τ) (Lvl := ℕ) spec1 c (V8 m ρ c)
  hentry c := by
    -- the buffers split into the kernel's arrays, each at what the proof data enters with, and the rest
    have cut := Pipeline.arrays_of_unscopedBufs (p := 1) (pcfgs (F := F)) adm (pdats m ρ) launch1.win launch1.arr_whole c
      ((pdats m ρ 1 c).share_full fun _ => rfl) (V8 m ρ c) fun _ => rfl
    rw [Pipeline.unscopedBufs_held] at cut
    rw [Pipeline.ownSems0_none]
    iintro ⟨⟨Hbufs, Hgen, Howe⟩, -, -⟩
    ihave Hcut := cut $$ Hbufs
    icases Hcut with ⟨Harr, Hoff⟩
    imodintro
    isplitl [Harr]; · iexact Harr
    isplitr
    · -- no prefetched table
      unfold Pipeline.prefHeld; rw [show (Finset.univ : Finset (Fin 0)) = ∅ from rfl, BI.bigSep_empty]; iempintro
    isplitl [Howe]
    · -- nothing owed is within any tallies
      unfold Pipeline.Dat.owesAt Pipeline.owesWithin
      icases Howe with ⟨%T, Howe⟩; iexists T
      isplitr; · ipureintro; exact fun _ _ => Or.inl trivial
      iexact Howe
    isplitl [Hgen]; · iexact Hgen
    iexact Hoff
  hin c := by
    rw [show (pdats m ρ 1 c).Φ 0 = Pipeline.ΦA spec1 c from rfl]
    unfold Pipeline.ΦA
    iintro ⟨Hgen, -, Hscoped⟩
    isplitl [Hscoped]; · iexact Hscoped
    iexact Hgen
  hout c := by
    rw [Pipeline.ownSems0_none]
    rw [show (pdats m ρ 1 c).Φ (Fin.last _) = Pipeline.ΦA spec1 c from rfl]
    unfold Pipeline.ΦA
    iintro ⟨Hscoped, Hgen⟩
    isplitl [Hgen]; · iexact Hgen
    isplitr; · iempintro
    iexact Hscoped
  hexit c := by
    -- the arrays at the fold of the write-backs and the rest as entered are the buffers at `W9`
    have glue := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V8 m ρ c) (fun b => W9 m ρ c (Proc.devRef .tc b)) ((pdats m ρ 1 c).arrAt · cfg1.N)
      (fun w => (W9_at m ρ c w).symm)
      (fun b hb => W9_off m ρ c b fun w e => hb (Finset.mem_image.mpr ⟨w, Finset.mem_univ _, e⟩))
    rw [Pipeline.unscopedBufs_held] at glue
    iintro ⟨Harr, Howe, Hgen, Hoff⟩
    imodintro
    isplitl [Harr Hoff]
    · iapply glue; isplitl [Harr] <;> iassumption
    isplitl [Hgen]; · iexact Hgen
    unfold Pipeline.Dat.owesAt Pipeline.owesWithin
    icases Howe with ⟨%T, -, Howe⟩; iexists T; iexact Howe

-- a library lemma stated over a pinned configuration meets the printed one only when unification may unfold plain
-- definitions in a metavariable's type
set_option backward.isDefEq.respectTransparency.types false in
/-- Kernel 2 as an item: entered with every unscoped buffer at `W11`, left with them at `W12`. -/
def reg2 : Pipeline.RegionSeg (pcfgs (F := F)) adm (pdats m ρ) () defs₀ 𝒱 Lv lv 2 where
  win := launch2.win.to₀
  block_pos := launch2.block_pos
  stage_whole := launch2.stage_whole
  K := PEmpty
  osem k := k.elim
  ho := Pipeline.OwnSemFacts.none _
  hbody c := (Head.body_obligation (V11 m ρ) c).loose
  hwaits := Pipeline.hwaits_of_owed_zero _ _ _ _ Lv lv 2 fun _ _ => rfl
  pre c := iprop(StableHlo.held (c : Thread nD τ) (Pipeline.ucRefs τ sig) (W11 m ρ c) ∗ Side c)
  post c := iprop(StableHlo.held (c : Thread nD τ) (Pipeline.ucRefs τ sig) (W12 m ρ c) ∗ Side c)
  X c := iprop(∃ r, prngReg c r)
  Y c := iprop(∃ r, prngReg c r)
  Z c := Pipeline.unscopedRest (Ix := Unit) (Name := ℕ) (U := UR sig nD τ) (Lvl := ℕ) spec2 c (V11 m ρ c)
  hentry c := by
    -- the buffers split into the kernel's arrays, each at what the proof data enters with, and the rest
    have cut := Pipeline.arrays_of_unscopedBufs (p := 2) (pcfgs (F := F)) adm (pdats m ρ) launch2.win launch2.arr_whole c
      ((pdats m ρ 2 c).share_full fun _ => rfl) (V11 m ρ c) fun _ => rfl
    rw [Pipeline.unscopedBufs_held] at cut
    rw [Pipeline.ownSems0_none]
    iintro ⟨⟨Hbufs, Hgen, Howe⟩, -, -⟩
    ihave Hcut := cut $$ Hbufs
    icases Hcut with ⟨Harr, Hoff⟩
    imodintro
    isplitl [Harr]; · iexact Harr
    isplitr
    · -- no prefetched table
      unfold Pipeline.prefHeld; rw [show (Finset.univ : Finset (Fin 0)) = ∅ from rfl, BI.bigSep_empty]; iempintro
    isplitl [Howe]
    · -- nothing owed is within any tallies
      unfold Pipeline.Dat.owesAt Pipeline.owesWithin
      icases Howe with ⟨%T, Howe⟩; iexists T
      isplitr; · ipureintro; exact fun _ _ => Or.inl trivial
      iexact Howe
    isplitl [Hgen]; · iexact Hgen
    iexact Hoff
  hin c := by
    refine BIBase.Entails.trans ?_ (Head.phi_in (V11 m ρ) c)
    unfold Pipeline.ΦA
    iintro ⟨Hgen, -, Hscoped⟩
    isplitl [Hscoped]; · iexact Hscoped
    iexact Hgen
  hout c := by
    rw [Pipeline.ownSems0_none]
    refine (Head.phi_out (V11 m ρ) c).trans ?_
    unfold Pipeline.ΦA
    iintro ⟨Hscoped, Hgen⟩
    isplitl [Hgen]; · iexact Hgen
    isplitr; · iempintro
    iexact Hscoped
  hexit c := by
    -- the arrays at the fold of the write-backs and the rest as entered are the buffers at `W12`
    have glue := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V11 m ρ c) (fun b => W12 m ρ c (Proc.devRef .tc b)) ((pdats m ρ 2 c).arrAt · cfg2.N)
      (fun w => (W12_at m ρ c w).symm)
      (fun b hb => W12_off m ρ c b fun w e => hb (Finset.mem_image.mpr ⟨w, Finset.mem_univ _, e⟩))
    rw [Pipeline.unscopedBufs_held] at glue
    iintro ⟨Harr, Howe, Hgen, Hoff⟩
    imodintro
    isplitl [Harr Hoff]
    · iapply glue; isplitl [Harr] <;> iassumption
    isplitl [Hgen]; · iexact Hgen
    unfold Pipeline.Dat.owesAt Pipeline.owesWithin
    icases Howe with ⟨%T, -, Howe⟩; iexists T; iexact Howe

/-! ## @main as its twelve items, and the launch -/

/-- The twelve items in @main's order, each stretch entered at the contents the item before it leaves. -/
abbrev items : List (Pipeline.Seg (pcfgs (F := F)) adm (pdats m ρ) () defs₀ 𝒱 Lv lv) :=
  [ .host (stretch hostOps0 hostOps0_sub hostOps0_fresh (W0 m ρ)),
    .host (stretch hostOps0_1 hostOps0_1_sub hostOps0_1_fresh (W1 m ρ)),
    .host (stretch hostOps0_2 hostOps0_2_sub hostOps0_2_fresh (W2 m ρ)),
    .host (stretch hostOps0_3 hostOps0_3_sub hostOps0_3_fresh (W3 m ρ)),
    .host (stretch hostOps0_4 hostOps0_4_sub hostOps0_4_fresh (W4 m ρ)),
    .region (reg0 m ρ),
    .host (stretch hostOps1 hostOps1_sub hostOps1_fresh (W6 m ρ)),
    .host (stretch hostOps1_1 hostOps1_1_sub hostOps1_1_fresh (W7 m ρ)),
    .region (reg1 m ρ),
    .host (stretch hostOps2 hostOps2_sub hostOps2_fresh (W9 m ρ)),
    .host (stretch hostOps2_1 hostOps2_1_sub hostOps2_1_fresh (W10 m ρ)),
    .region (reg2 m ρ) ]

/-- @main is the items run in order: @main is the chain of its twelve fragments, and so is the items' run. -/
theorem main_items (c : Dev nD) : main (F := F) c = Pipeline.Seg.run (items m ρ) := (main_chain c).trans (by chain_rfl)

/-- The last item's exit regrouped: the buffers and the generator register on one side, nothing owed on the other. -/
theorem regroup (c : Dev nD) :
    iprop(StableHlo.held (c : Thread nD τ) (Pipeline.ucRefs τ sig) (W12 m ρ c) ∗ Side c)
      ⊢ (iprop((StableHlo.held (c : Thread nD τ) (Pipeline.ucRefs τ sig) (W12 m ρ c) ∗ ∃ r, prngReg c r)
          ∗ ∃ T, owes (c : Thread nD τ) (0 : CellTallies nD τ sig Unit) T) : sProp 𝕄) := by
  iintro ⟨Hbufs, Hgen, Howe⟩
  isplitl [Hbufs Hgen]
  · isplitl [Hbufs]; · iexact Hbufs
    iexact Hgen
  iexact Howe

-- the launch theorem's implicit arguments are found by unifying its conclusion with this one, which takes unfolding
-- plain definitions in a metavariable's type
set_option backward.isDefEq.respectTransparency.types false in
/-- From any memory `m` with every counter at zero, every weakly fair execution of @main on the TensorCores
    terminates, and at the end every unscoped buffer of every core holds `W12`. The launch deals each core its
    buffers at `W0`, its generator register and nothing owed; the items chain, each entered at what the one before
    leaves; the last state is read against the final memory buffer by buffer. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱 Lv lv m ρ main (items m ρ)
    (fun c Q => by rw [main_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Side c))
    (Tₙ := fun c => iprop(StableHlo.held (c : Thread nD τ) (Pipeline.ucRefs τ sig) (W12 m ρ c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => regroup m ρ c⟩)
    (hinit := by
      refine Pipeline.initEach Lv lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howe, -, Hgen, -⟩, -⟩
      imodintro
      isplitl [Hbufs]; · iexact Hbufs
      isplitl [Hgen]; · iexists _; iexact Hgen
      iexists ∅; iexact Howe)
    (QY := fun c s => ∀ b ∈ Pipeline.ucRefs τ sig, s.mem (((c : Thread nD τ)).1, b) = W12 m ρ c b)
    (hfin := fun c s' => by
      iintro ⟨⟨Hbufs, -⟩, HSI⟩
      unfold StableHlo.held
      imodintro
      iapply (pointsTo_read_all (Pipeline.ucRefs τ sig) (fun b => (((c : Thread nD τ)).1, b)) (W12 m ρ c) s')
      isplitl [Hbufs] <;> iassumption)
    (hQ := fun s h => h)

end Cert.KernelIdeal.Run

end
-- ==== Proof.Spec.lean ====
import Idealize.ShloMosaic.PureOps.Ideal
import Idealize.ShloMosaic.Lib.ValueIdx

/-!
  What the network computes, as functions of whole arrays over the extended reals, index by index.
  A graph-convolution layer's dense half sends aggregated node features `A` (50000 × 128) to
  `max(A · W + b, 0) · d`: a matrix product with a 128 × 128 weight, a bias row, the ReLU, and a
  per-node scale `d` (the inverse out-degree, one column). The last layer stops at `H = A · W + b`;
  the policy head is `H · p + p₀` (one number per node) and the value head is the mean of `H`'s
  rows, taken as the column sums times 1/50000, times a second 128-vector, plus a bias.
  Both programs are shown to end at these functions of the same arrays.
-/

noncomputable section

open scoped BigOperators

namespace Cert.Spec

open Idealize.ShloMosaic Idealize.ShloMosaic.ValueIdx

/-- Node features: 50000 nodes, 128 features each. -/
abbrev Feat : Shape := ⟨2, ![50000, 128]⟩
/-- A weight matrix between two 128-wide layers. -/
abbrev Wt : Shape := ⟨2, ![128, 128]⟩
/-- A bias as one row. -/
abbrev Row : Shape := ⟨2, ![1, 128]⟩
/-- One number per node, as a column. -/
abbrev Col : Shape := ⟨2, ![50000, 1]⟩
/-- A head's weights: one column of 128. -/
abbrev HeadW : Shape := ⟨2, ![128, 1]⟩
/-- A single number as a 1 × 1 array. -/
abbrev One : Shape := ⟨2, ![1, 1]⟩

/-- `A · W + b`: entry (r, j) is the sum over k of A(r, k) · W(k, j), plus b(j). -/
def affine (A : Feat.Idx → EReal) (W : Wt.Idx → EReal) (b : Row.Idx → EReal) : Feat.Idx → EReal :=
  fun i => (∑ k : Fin 128, A (ix2 (i 0) k) * W (ix2 k (i 1))) + b (ix2 (0 : Fin 1) (i 1))

/-- A layer with its activation and the per-node scale: `max(A · W + b, 0) · d`. -/
def layer (A : Feat.Idx → EReal) (W : Wt.Idx → EReal) (b : Row.Idx → EReal) (d : Col.Idx → EReal) : Feat.Idx → EReal :=
  fun i => max (affine A W b i) 0 * d (ix2 (i 0) (0 : Fin 1))

/-- The policy head: for node r, the sum over k of H(r, k) · p(k), plus the head's bias. -/
def policy (H : Feat.Idx → EReal) (p : HeadW.Idx → EReal) (p₀ : One.Idx → EReal) : Col.Idx → EReal :=
  fun i => (∑ k : Fin 128, H (ix2 (i 0) k) * p (ix2 k (0 : Fin 1))) + p₀ (ix2 (0 : Fin 1) (0 : Fin 1))

/-- The value head: the sum over k of (the column sum of H at k, times 1/50000) · v(k), plus the
    head's bias. -/
def value (H : Feat.Idx → EReal) (v : HeadW.Idx → EReal) (v₀ : One.Idx → EReal) : One.Idx → EReal :=
  fun _ => (∑ k : Fin 128, ((∑ r : Fin 50000, H (ix2 r k)) * ((1 / 50000 : ℝ) : EReal)) * v (ix2 k (0 : Fin 1)))
    + v₀ (ix2 (0 : Fin 1) (0 : Fin 1))

end Cert.Spec

end
-- ==== Proof.KernelIdeal.LayerValue0.lean ====
import proofs.«421690_j88553635709104_2_alg».proof.Proof.KernelIdeal.Layer0
import proofs.«421690_j88553635709104_2_alg».proof.Proof.Spec
import Idealize.ShloMosaic.Lib.Pipeline.Value
import Idealize.ShloMosaic.Lib.ValueIdx
import Idealize.ShloMosaic.Lib.ValueLayout
import Idealize.ShloMosaic.PureOps.Ideal.Laws

/-!
  The output array of Pallas call 0 after the call, as ONE function of the four input arrays, over
  the extended reals. The call walks ten blocks of 5000 rows. At block `t` the body stores, over the
  whole 5000 × 128 output block, `max(x · W + b, 0) · d` of the block's rows `x` of the aggregated
  features, the whole weight matrix `W`, the bias row `b` and the block's rows `d` of the scale
  column. Entry (p, q) of that value reads row `p` of `x`, column `q` of `W`, entry `q` of `b` and
  entry `p` of `d`, and nothing else. Row `p` of block `t` is row 5000·t + p of the arrays, so what
  point `t` writes back is block `t` of the layer of the whole arrays; every row `r` lies in block
  `r / 5000`, so the array ends holding that layer at every index.
-/

noncomputable section

open scoped BigOperators

namespace Cert.KernelIdeal.LayerValue0

open Cert.KernelIdeal Cert.KernelIdeal.Gen
open Idealize.ShloMosaic Idealize.ShloMosaic.TcCoe Idealize.ShloMosaic.ValueIdx Idealize.SL.Sem
open Idealize.ShloMosaic.Pipeline (Dat)

/-! ## The product read at an index -/

/-- The product's left operand at output index `i` and contraction position `q` has `i`'s row … -/
theorem dot_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and the contraction position as its column; -/
theorem dot_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand has the contraction position as its row … -/
theorem dot_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and `i`'s column. -/
theorem dot_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block's product with the weights, into a zero accumulator, at row `p` and column `q`: the sum
    over `k` of the block at (p, k) times the weights at (k, q). -/
theorem matmul_at (x : FVec Ideal S5000x128 .f32) (w : FVec Ideal S128x128 .f32) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact dot_lhs_0 _ _
    | ⟨1, _⟩ => exact (dot_lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dot_rhs_0 _ _).trans hk
    | ⟨1, _⟩ => exact dot_rhs_1 _ _)
  rw [el, er]

/-- A column broadcast along the rows' other axis: a `[a, 1]` array broadcast to `[a, b]` reads, at
    `(p, c)`, the operand's row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- THE BODY'S VALUE AT AN INDEX: at row `p` and column `q` of the block, the row's product with the
    weights plus the bias at `q`, cut below at zero, times the row's scale. -/
theorem pay_apply (x : Vec Ideal S5000x128 .f32) (w : Vec Ideal S128x128 .f32) (b : Vec Ideal S1x128 .f32) (d : Vec Ideal S5000x1 .f32)
    (p : Fin 5000) (q : Fin 128) :
    k0_pay1 (F := Ideal) x w b d (ix2 p q)
      = max ((∑ k : Fin 128, x (ix2 p k) * w (ix2 k q)) + b (ix2 (0 : Fin 1) q)) 0 * d (ix2 p (0 : Fin 1)) := by
  unfold k0_pay1
  simp only [shapeCast_self]
  rw [mulf_apply, maximumf_apply, addf_apply, broadcast_apply]
  refine congrArg₂ (· * ·) (congrArg₂ max (congrArg₂ (· + ·) (matmul_at x w p q) ?_) Ideal.ofBits_zero_f32) ?_
  · exact broadcastTo_1b_ab_apply b broadcasts_S1x128_S5000x128 p q
  · exact broadcastTo_a1_ab_apply d broadcasts_S5000x1_S5000x128 p q

/-! ## What a point writes back -/

/-- The zero offsets of a whole-buffer load or store. -/
theorem hz : (![0, 0] : Fin 2 → Nat) = fun _ => 0 := funext fun a => by fin_cases a <;> rfl

/-- The body loads its four staging buffers whole and stores over the whole output buffer, so what it
    leaves there is its value on the buffers' contents. -/
theorem outBlock_eq {F : FTy → Type} [FloatOps F] [Named F] (x : Vec F S5000x128 .f32) (w : Vec F S128x128 .f32) (b : Vec F S1x128 .f32) (d : Vec F S5000x1 .f32) :
    Layer0.outBlock x w b d = k0_pay1 x w b d := by
  unfold Layer0.outBlock
  rw [View.canon_unit_zero hz]
  simp only [View.ld_unit_zero (S := S5000x128) hz, View.ld_unit_zero (S := S128x128) hz, View.ld_unit_zero (S := S1x128) hz,
    View.ld_unit_zero (S := S5000x1) hz]

/-- The index maps over the grid: at point `t` the features, the scales and the output are at row block
    `t`, column block 0; the weights and the bias are whole, at block (0, 0). -/
theorem idx_facts : ∀ t : Fin cfg0.N, win0_4.index t (0 : Fin 2) = t.val ∧ win0_4.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The output is written back at every point. -/
theorem flush_all : ∀ t : Fin cfg0.N, (cfg0.win 4).flush t = true :=
  (by decide +kernel : ∀ t : Fin grid0.N, win0_4.flush t = true)

/-- The grid has ten points. -/
theorem grid_N : cfg0.N = 10 := (by decide : grid0.N = 10)

/-- One entry of the body's value is the layer's entry of the whole arrays, when the block's row `p` is
    the arrays' row `r` and the weights and bias are the arrays'. -/
theorem entry_eq (A : Cert.Spec.Feat.Idx → EReal) (W : Cert.Spec.Wt.Idx → EReal) (B : Cert.Spec.Row.Idx → EReal) (D : Cert.Spec.Col.Idx → EReal)
    (x : Vec Ideal S5000x128 .f32) (w : Vec Ideal S128x128 .f32) (b : Vec Ideal S1x128 .f32) (d : Vec Ideal S5000x1 .f32)
    (p : Fin 5000) (q : Fin 128) (r : Fin 50000)
    (hx : ∀ k : Fin 128, x (ix2 p k) = A (ix2 r k)) (hw : ∀ k : Fin 128, w (ix2 k q) = W (ix2 k q))
    (hb : b (ix2 (0 : Fin 1) q) = B (ix2 (0 : Fin 1) q)) (hd : d (ix2 p (0 : Fin 1)) = D (ix2 r (0 : Fin 1))) :
    k0_pay1 (F := Ideal) x w b d (ix2 p q) = Cert.Spec.layer A W B D (ix2 r q) := by
  rw [pay_apply, hb, hd]
  unfold Cert.Spec.layer Cert.Spec.affine
  refine congrArg (fun s => max (s + B (ix2 (0 : Fin 1) q)) 0 * D (ix2 r (0 : Fin 1))) (Finset.sum_congr rfl fun k _ => ?_)
  rw [hx k, hw k]

variable (V : (c : Dev nD) → (b : Ref sig .tc) → Buf (Elt Ideal) ((c : Thread nD τ).loc b))

/-- The whole-array function the call computes: the layer of the four arrays as the call finds them. -/
abbrev G (c : Dev nD) : Cert.Spec.Feat.Idx → EReal :=
  Cert.Spec.layer (V c main_v13) (V c main_arg3) (V c main_v14) (V c main_v7)

/-- WHAT POINT `t` WRITES BACK is block `t` of the layer of the whole arrays. -/
theorem flushed_eq (c : Dev nD) (t : Fin cfg0.N) :
    (Layer0.dat (F := Ideal) V c).flushed 4 t = ((cfg0.win 4).blk t).view.read (Elt Ideal) (G V c) := by
  show (cfg0.win 4).cut (grid0.coords t) ((Layer0.dat (F := Ideal) V c).after 4 t) = _
  rw [Layer0.after_4, outBlock_eq]
  obtain ⟨e40, e41, e00, e01, e10, e11, e20, e21, e30, e31⟩ := idx_facts t
  have hN : t.val < 10 := lt_of_lt_of_eq t.isLt grid_N
  funext j
  obtain ⟨p, q, rfl⟩ : ∃ (p : Fin 5000) (q : Fin 128), j = ix2 p q := ⟨j 0, j 1, eq_ix2 j⟩
  have hp : p.val < 5000 := p.isLt
  refine (entry_eq (V c main_v13) (V c main_arg3) (V c main_v14) (V c main_v7)
    (Layer0.blockAt V c 0 t) (Layer0.blockAt V c 1 t) (Layer0.blockAt V c 2 t) (Layer0.blockAt V c 3 t) p q
    ⟨t.val * 5000 + p.val, by omega⟩ ?_ ?_ ?_ ?_).trans ?_
  · intro k
    show V c main_v13 (((cfg0.win 0).blk t).view.emb (ix2 p k)) = V c main_v13 (ix2 _ k)
    refine congrArg (V c main_v13) (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · intro k
    show V c main_arg3 (((cfg0.win 1).blk t).view.emb (ix2 k q)) = V c main_arg3 (ix2 k q)
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  · show V c main_v14 (((cfg0.win 2).blk t).view.emb (ix2 (0 : Fin 1) q)) = V c main_v14 (ix2 (0 : Fin 1) q)
    refine congrArg (V c main_v14) (funext fun a => Fin.ext ?_)
    match a with
    | ⟨0, _⟩ => show win0_2.index t (0 : Fin 2) * 1 + 1 * 0 = 0; omega
    | ⟨1, _⟩ => show win0_2.index t (1 : Fin 2) * 128 + 1 * q.val = q.val; omega
  · show V c main_v7 (((cfg0.win 3).blk t).view.emb (ix2 p (0 : Fin 1))) = V c main_v7 (ix2 _ (0 : Fin 1))
    refine congrArg (V c main_v7) (funext fun a => Fin.ext ?_)
    match a with
    | ⟨0, _⟩ => show win0_3.index t (0 : Fin 2) * 5000 + 1 * p.val = t.val * 5000 + p.val; omega
    | ⟨1, _⟩ => show win0_3.index t (1 : Fin 2) * 1 + 1 * 0 = 0; omega
  · show G V c _ = G V c (((cfg0.win 4).blk t).view.emb (ix2 p q))
    refine congrArg (G V c) (funext fun a => Fin.ext ?_)
    match a with
    | ⟨0, _⟩ => show t.val * 5000 + p.val = win0_4.index t (0 : Fin 2) * 5000 + 1 * p.val; omega
    | ⟨1, _⟩ => show q.val = win0_4.index t (1 : Fin 2) * 128 + 1 * q.val; omega

/-! ## The blocks tile the array -/

/-- An index of the array is in point `t`'s block iff each coordinate is in the block's range on its axis. -/
theorem mem_blk (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v15).slice (win0_4.rect t)).set ↔ _
  rw [View.set_slice_whole, Rect.mem_set_unit]
  exact Iff.rfl

/-- Row `r` of the array lies in the block of point `r / 5000`. -/
theorem cover (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have ht : (i 0).val / 5000 < cfg0.N := by rw [grid_N]; omega
  refine ⟨⟨(i 0).val / 5000, ht⟩, flush_all _, ?_⟩
  obtain ⟨e40, e41, -⟩ := idx_facts ⟨(i 0).val / 5000, ht⟩
  rw [mem_blk]
  intro a
  match a with
  | ⟨0, _⟩ =>
    show win0_4.index ⟨(i 0).val / 5000, ht⟩ (0 : Fin 2) * 5000 ≤ (i 0).val ∧ (i 0).val < win0_4.index ⟨(i 0).val / 5000, ht⟩ (0 : Fin 2) * 5000 + 5000
    rw [e40]
    show (i 0).val / 5000 * 5000 ≤ (i 0).val ∧ (i 0).val < (i 0).val / 5000 * 5000 + 5000
    omega
  | ⟨1, _⟩ =>
    show win0_4.index ⟨(i 0).val / 5000, ht⟩ (1 : Fin 2) * 128 ≤ (i 1).val ∧ (i 1).val < win0_4.index ⟨(i 0).val / 5000, ht⟩ (1 : Fin 2) * 128 + 128
    rw [e41]
    omega

/-- THE OUTPUT ARRAY AFTER THE CALL is the layer of the four input arrays as the call finds them:
    `max(A · W + b, 0) · d`, entry by entry. -/
theorem array_eq (c : Dev nD) :
    (Layer0.dat (F := Ideal) V c).arrAt 4 cfg0.N = Cert.Spec.layer (V c main_v13) (V c main_arg3) (V c main_v14) (V c main_v7) :=
  (Layer0.dat (F := Ideal) V c).arrAt_eq_of_cover 4 (G V c) (fun t _ => flushed_eq V c t) cover

end Cert.KernelIdeal.LayerValue0

end
-- ==== Proof.KernelIdeal.HeadValue.lean ====
import proofs.«421690_j88553635709104_2_alg».proof.Proof.KernelIdeal.Head
import proofs.«421690_j88553635709104_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules
import Mathlib.Algebra.BigOperators.Group.Finset.Defs
import Mathlib.Algebra.BigOperators.Group.Finset.Basic
import Mathlib.Data.Fintype.BigOperators

/-!
  What the last call leaves in its two output arrays, over the extended reals.

  Write H = A · W + b for the last layer's linear map of the 50000 × 128 node features A. The call
  walks A in ten blocks of 5000 rows. On block t it forms that block of H, which is rows
  5000·t … 5000·t + 4999 of H because row p of the block is row 5000·t + p of A and the weights and
  the bias row are the same at every point.

  The policy column. At every point the call stores (block of H) · p + p₀ over its 5000 × 1 output
  block: row r of the block is Σₖ H(5000·t + r, k) · p(k) + p₀, the specification's policy head at
  node 5000·t + r. Node i lies in the block of point i / 5000, so the ten blocks fill the column
  and the array ends holding the policy head everywhere.

  The value number. A 1 × 128 scratch row starts at zero and, at each point, takes the column sums
  of that point's block of H. Addition on the extended reals is associative with 0 + s = s, so by
  induction on the point the scratch after point n holds, at column k, the sum of H(r, k) over the
  first 5000·(n+1) rows: a sum over the range of row numbers below 5000·(n+1), which grows by a
  run of 5000 at each step. After point 9 that is the sum over all 50000 rows. Only that last point
  stores the second output, the scratch times the named reciprocal 1/50000 against the second
  head's weights plus its bias, and its block is the whole 1 × 1 array: the specification's value
  head.
-/

set_option maxRecDepth 16384

noncomputable section

open scoped BigOperators

namespace Cert.KernelIdeal.HeadValue

open Cert.KernelIdeal Cert.KernelIdeal.Gen
open Idealize.ShloMosaic Idealize.ShloMosaic.TcCoe Idealize.ShloMosaic.ValueIdx
open Idealize.SL.Sem
open Idealize.ShloMosaic.Pipeline (Dat)

/-! ## The three products' operand indices

Each product contracts the left operand's columns against the right operand's rows: at output
index (i₀, i₁) and contraction coordinate k the left operand is read at (i₀, k) and the right at
(k, i₁). One lemma per operand and axis. -/

theorem lhsA_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsA_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhsA_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhsA_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem lhsB_0 (i : S5000x1.Idx) (q : dot_S5000x128_S128x1_S5000x1_1_0_0_1_n_n.contr.Idx) :
    (dot_S5000x128_S128x1_S5000x1_1_0_0_1_n_n.lhsIdx i q 0).val = (i 0).val := by
  unfold DotDims.lhsIdx
  rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
  rfl
theorem lhsB_1 (i : S5000x1.Idx) (q : dot_S5000x128_S128x1_S5000x1_1_0_0_1_n_n.contr.Idx) :
    (dot_S5000x128_S128x1_S5000x1_1_0_0_1_n_n.lhsIdx i q 1).val = (q ⟨0, by decide⟩).val :=
  dot_S5000x128_S128x1_S5000x1_1_0_0_1_n_n.lhsIdx_val_of_single rfl i q
theorem rhsB_0 (i : S5000x1.Idx) (q : dot_S5000x128_S128x1_S5000x1_1_0_0_1_n_n.contr.Idx) :
    (dot_S5000x128_S128x1_S5000x1_1_0_0_1_n_n.rhsIdx i q 0).val = (q ⟨0, by decide⟩).val :=
  dot_S5000x128_S128x1_S5000x1_1_0_0_1_n_n.rhsIdx_val_of_single rfl i q
theorem rhsB_1 (i : S5000x1.Idx) (q : dot_S5000x128_S128x1_S5000x1_1_0_0_1_n_n.contr.Idx) :
    (dot_S5000x128_S128x1_S5000x1_1_0_0_1_n_n.rhsIdx i q 1).val = (i 1).val := by
  unfold DotDims.rhsIdx
  rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
  rfl

theorem lhsC_0 (i : S1x1.Idx) (q : dot_S1x128_S128x1_S1x1_1_0_0_1_n_n.contr.Idx) :
    (dot_S1x128_S128x1_S1x1_1_0_0_1_n_n.lhsIdx i q 0).val = (i 0).val := by
  unfold DotDims.lhsIdx
  rw [dif_neg (show ¬(0 : Fin S1x128.rank) ∈ dot_S1x128_S128x1_S1x1_1_0_0_1_n_n.lhsBatch by decide), dif_pos (show (0 : Fin S1x128.rank) ∈ dot_S1x128_S128x1_S1x1_1_0_0_1_n_n.lhsNonContracting by decide)]
  rfl
theorem lhsC_1 (i : S1x1.Idx) (q : dot_S1x128_S128x1_S1x1_1_0_0_1_n_n.contr.Idx) :
    (dot_S1x128_S128x1_S1x1_1_0_0_1_n_n.lhsIdx i q 1).val = (q ⟨0, by decide⟩).val :=
  dot_S1x128_S128x1_S1x1_1_0_0_1_n_n.lhsIdx_val_of_single rfl i q
theorem rhsC_0 (i : S1x1.Idx) (q : dot_S1x128_S128x1_S1x1_1_0_0_1_n_n.contr.Idx) :
    (dot_S1x128_S128x1_S1x1_1_0_0_1_n_n.rhsIdx i q 0).val = (q ⟨0, by decide⟩).val :=
  dot_S1x128_S128x1_S1x1_1_0_0_1_n_n.rhsIdx_val_of_single rfl i q
theorem rhsC_1 (i : S1x1.Idx) (q : dot_S1x128_S128x1_S1x1_1_0_0_1_n_n.contr.Idx) :
    (dot_S1x128_S128x1_S1x1_1_0_0_1_n_n.rhsIdx i q 1).val = (i 1).val := by
  unfold DotDims.rhsIdx
  rw [dif_neg (show ¬(1 : Fin S128x1.rank) ∈ dot_S1x128_S128x1_S1x1_1_0_0_1_n_n.rhsBatch by decide), dif_pos (show (1 : Fin S128x1.rank) ∈ dot_S1x128_S128x1_S1x1_1_0_0_1_n_n.rhsNonContracting by decide)]
  rfl

/-! ## The payloads at an index -/

/-- The block's linear map at row p, column q: the row of x against the column of w, plus the bias. -/
theorem pay2_apply (x : Vec Ideal S5000x128 .f32) (w : Vec Ideal S128x128 .f32) (b : Vec Ideal S1x128 .f32)
    (p : Fin 5000) (q : Fin 128) :
    k2_pay2 x w b (ix2 p q) = (∑ k : Fin 128, x (ix2 p k) * w (ix2 k q)) + b (ix2 (0 : Fin 1) q) := by
  unfold k2_pay2
  rw [addf_apply, shapeCast_self, shapeCast_self]
  refine congrArg₂ (· + ·) ?_ (broadcastTo_1b_ab_apply b broadcasts_S1x128_S5000x128 p q)
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhsA_0 _ _
    | ⟨1, _⟩ => exact (lhsA_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhsA_0 _ _).trans hk
    | ⟨1, _⟩ => exact rhsA_1 _ _)
  rw [el, er]

/-- The policy head on a block at row r: the row of the block's linear map against the head's column, plus the head's bias. -/
theorem pay4_apply (x : Vec Ideal S5000x128 .f32) (w : Vec Ideal S128x128 .f32) (b : Vec Ideal S1x128 .f32)
    (pw : Vec Ideal S128x1 .f32) (p0 : Vec Ideal S1x1 .f32) (r : Fin 5000) (u : Fin 1) :
    k2_pay4 x w b pw p0 (ix2 r u)
      = (∑ k : Fin 128, k2_pay2 x w b (ix2 r k) * pw (ix2 k (0 : Fin 1))) + p0 (ix2 (0 : Fin 1) (0 : Fin 1)) := by
  obtain rfl : u = 0 := Subsingleton.elim _ _
  unfold k2_pay4
  rw [addf_apply, shapeCast_self]
  refine congrArg₂ (· + ·) ?_ (broadcastTo_1b_ab_apply p0 broadcasts_S1x1_S5000x1 r (0 : Fin 1))
  generalize k2_pay2 x w b = h
  simp only [matmul]
  rw [Ideal.matmul_constant_zero_apply, ← Equiv.sum_comp (contrEquiv1 dot_S5000x128_S128x1_S5000x1_1_0_0_1_n_n 128 rfl rfl).symm]
  refine Finset.sum_congr rfl fun k _ => ?_
  have hk := contrEquiv1_symm_val dot_S5000x128_S128x1_S5000x1_1_0_0_1_n_n 128 rfl rfl k
  have el : dot_S5000x128_S128x1_S5000x1_1_0_0_1_n_n.lhsIdx (ix2 r (0 : Fin 1)) ((contrEquiv1 dot_S5000x128_S128x1_S5000x1_1_0_0_1_n_n 128 rfl rfl).symm k) = ix2 r k := funext fun a => Fin.ext (by
    match a with
    | ⟨0, _⟩ => exact lhsB_0 _ _
    | ⟨1, _⟩ => exact (lhsB_1 _ _).trans hk)
  have er : dot_S5000x128_S128x1_S5000x1_1_0_0_1_n_n.rhsIdx (ix2 r (0 : Fin 1)) ((contrEquiv1 dot_S5000x128_S128x1_S5000x1_1_0_0_1_n_n 128 rfl rfl).symm k) = ix2 k (0 : Fin 1) := funext fun a => Fin.ext (by
    match a with
    | ⟨0, _⟩ => exact (rhsB_0 _ _).trans hk
    | ⟨1, _⟩ => exact rhsB_1 _ _)
  rw [el, er]

/-- The column sums of the block's linear map, added into the scratch row. -/
theorem pay3_apply (x : Vec Ideal S5000x128 .f32) (w : Vec Ideal S128x128 .f32) (b : Vec Ideal S1x128 .f32)
    (acc : Vec Ideal S1x128 .f32) (u : Fin 1) (q : Fin 128) :
    k2_pay3 x w b acc (ix2 u q) = acc (ix2 u q) + ∑ r : Fin 5000, k2_pay2 x w b (ix2 r q) := by
  unfold k2_pay3
  rw [shapeCast_self, addf_apply]
  refine congrArg (acc (ix2 u q) + ·) ?_
  generalize k2_pay2 x w b = h
  rw [shapeCast_a_1a_apply]
  refine (Ideal.multiReduction_add_single h 0x00000000#32 reduces_S5000x128_S128 (.inl rfl) rfl (ix1 q)).trans ?_
  refine Finset.sum_congr rfl fun r _ => congrArg h ?_
  funext a
  match a with
  | ⟨0, _⟩ => rfl
  | ⟨1, _⟩ => rfl

/-- The scratch's reset value is the zero row. -/
theorem pay1_apply (u : Fin 1) (q : Fin 128) : k2_pay1 (F := Ideal) (ix2 u q) = 0 := by
  unfold k2_pay1
  rw [shapeCast_self]
  exact Ideal.ofBits_zero_f32

/-- The kernel's named reciprocal is the rational 1/50000. -/
theorem inv_n : Named.named (F := Ideal) Cert.KernelIdeal.κ "inv_50000" (φ := .f32) 0x37A7C5AC#32 = ((1 / 50000 : ℝ) : EReal) :=
  IdealRules.named_const.ideal_named_scalar _ _ _ _ rfl

/-- The value head: the scratch row times 1/50000 against the second head's column, plus its bias. -/
theorem pay5_apply (acc : Vec Ideal S1x128 .f32) (v : Vec Ideal S128x1 .f32) (v0 : Vec Ideal S1x1 .f32) (u u' : Fin 1) :
    k2_pay5 acc v v0 (ix2 u u')
      = (∑ k : Fin 128, (acc (ix2 (0 : Fin 1) k) * ((1 / 50000 : ℝ) : EReal)) * v (ix2 k (0 : Fin 1))) + v0 (ix2 (0 : Fin 1) (0 : Fin 1)) := by
  obtain rfl : u = 0 := Subsingleton.elim _ _
  obtain rfl : u' = 0 := Subsingleton.elim _ _
  unfold k2_pay5
  rw [addf_apply, shapeCast_self]
  refine congrArg (· + v0 (ix2 (0 : Fin 1) (0 : Fin 1))) ?_
  simp only [matmul]
  rw [Ideal.matmul_constant_zero_apply, ← Equiv.sum_comp (contrEquiv1 dot_S1x128_S128x1_S1x1_1_0_0_1_n_n 128 rfl rfl).symm]
  refine Finset.sum_congr rfl fun k _ => ?_
  have hk := contrEquiv1_symm_val dot_S1x128_S128x1_S1x1_1_0_0_1_n_n 128 rfl rfl k
  have el : dot_S1x128_S128x1_S1x1_1_0_0_1_n_n.lhsIdx (ix2 (0 : Fin 1) (0 : Fin 1)) ((contrEquiv1 dot_S1x128_S128x1_S1x1_1_0_0_1_n_n 128 rfl rfl).symm k) = ix2 (0 : Fin 1) k := funext fun a => Fin.ext (by
    match a with
    | ⟨0, _⟩ => exact lhsC_0 _ _
    | ⟨1, _⟩ => exact (lhsC_1 _ _).trans hk)
  have er : dot_S1x128_S128x1_S1x1_1_0_0_1_n_n.rhsIdx (ix2 (0 : Fin 1) (0 : Fin 1)) ((contrEquiv1 dot_S1x128_S128x1_S1x1_1_0_0_1_n_n 128 rfl rfl).symm k) = ix2 k (0 : Fin 1) := funext fun a => Fin.ext (by
    match a with
    | ⟨0, _⟩ => exact (rhsC_0 _ _).trans hk
    | ⟨1, _⟩ => exact rhsC_1 _ _)
  rw [el, er]
  rw [mulf_apply, broadcast_apply, inv_n]

/-! ## The call's blocks, read out of their arrays -/

variable (V : (c : Dev nD) → (b : Ref sig .tc) → Buf (Elt Ideal) ((c : Thread nD τ).loc b))

/-- The index maps over the ten points: the node features and the policy column move one block per
    point along the rows; every other window stays at its one block. -/
theorem idx_facts : ∀ t : Fin cfg2.N,
    win2_0.index t (0 : Fin 2) = t.val ∧ win2_0.index t (1 : Fin 2) = 0
    ∧ win2_7.index t (0 : Fin 2) = t.val ∧ win2_7.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_8.index t (0 : Fin 2) = 0 ∧ win2_8.index t (1 : Fin 2) = 0 :=
  (by decide +kernel : ∀ t : Fin grid2.N, _)

/-- The call has ten points. -/
theorem t_lt (t : Fin cfg2.N) : t.val < 10 := by
  have h : t.val < grid2.N := t.isLt
  rw [N_2] at h; exact h

/-- The node features the call finds, and its block at point t. -/
abbrev xarr (c : Dev nD) : Vec Ideal S50000x128 .f32 := V c main_v25
abbrev xblk (c : Dev nD) (t : Fin cfg2.N) : Vec Ideal S5000x128 .f32 := Head.blockAt V c 0 t
/-- The layer's weights. -/
abbrev warr (c : Dev nD) : Vec Ideal S128x128 .f32 := V c main_arg7
abbrev wblk (c : Dev nD) (t : Fin cfg2.N) : Vec Ideal S128x128 .f32 := Head.blockAt V c 1 t
/-- The layer's bias row. -/
abbrev barr (c : Dev nD) : Vec Ideal S1x128 .f32 := V c main_v26
abbrev bblk (c : Dev nD) (t : Fin cfg2.N) : Vec Ideal S1x128 .f32 := Head.blockAt V c 2 t

theorem xblk_apply (c : Dev nD) (t : Fin cfg2.N) (p : Fin 5000) (k : Fin 128) :
    xblk V c t (ix2 p k) = xarr V c (ix2 (⟨5000 * t.val + p.val, by have := t_lt t; have := p.isLt; omega⟩ : Fin 50000) k) := by
  obtain ⟨e0, e1, -⟩ := idx_facts t
  show V c main_v25 (((cfg2.win 0).blk t).view.emb (ix2 p k)) = V c main_v25 _
  refine congrArg (V c main_v25) (funext fun a => Fin.ext ?_)
  match a with
  | ⟨0, _⟩ => show win2_0.index t (0 : Fin 2) * 5000 + 1 * p.val = 5000 * t.val + p.val; omega
  | ⟨1, _⟩ => show win2_0.index t (1 : Fin 2) * 128 + 1 * k.val = k.val; omega

theorem wblk_eq (c : Dev nD) (t : Fin cfg2.N) : wblk V c t = warr V c := by
  obtain ⟨-, -, -, -, e0, e1, -⟩ := idx_facts t
  funext j
  show V c main_arg7 (((cfg2.win 1).blk t).view.emb j) = V c main_arg7 j
  refine congrArg (V c main_arg7) (funext fun a => Fin.ext ?_)
  match a with
  | ⟨0, _⟩ => show win2_1.index t (0 : Fin 2) * 128 + 1 * (j 0).val = (j 0).val; omega
  | ⟨1, _⟩ => show win2_1.index t (1 : Fin 2) * 128 + 1 * (j 1).val = (j 1).val; omega

/-- The policy head's weights and bias, the value head's weights and bias. -/
abbrev parr (c : Dev nD) : Vec Ideal S128x1 .f32 := V c main_arg9
abbrev pblk (c : Dev nD) (t : Fin cfg2.N) : Vec Ideal S128x1 .f32 := Head.blockAt V c 3 t
abbrev p0arr (c : Dev nD) : Vec Ideal S1x1 .f32 := V c main_v27
abbrev p0blk (c : Dev nD) (t : Fin cfg2.N) : Vec Ideal S1x1 .f32 := Head.blockAt V c 4 t
abbrev varr (c : Dev nD) : Vec Ideal S128x1 .f32 := V c main_arg11
abbrev vblk (c : Dev nD) (t : Fin cfg2.N) : Vec Ideal S128x1 .f32 := Head.blockAt V c 5 t
abbrev v0arr (c : Dev nD) : Vec Ideal S1x1 .f32 := V c main_v28
abbrev v0blk (c : Dev nD) (t : Fin cfg2.N) : Vec Ideal S1x1 .f32 := Head.blockAt V c 6 t

theorem bblk_eq (c : Dev nD) (t : Fin cfg2.N) : bblk V c t = barr V c := by
  obtain ⟨-, -, -, -, -, -, e0, e1, -⟩ := idx_facts t
  funext j
  show V c main_v26 (((cfg2.win 2).blk t).view.emb j) = V c main_v26 j
  refine congrArg (V c main_v26) (funext fun a => Fin.ext ?_)
  match a with
  | ⟨0, _⟩ => show win2_2.index t (0 : Fin 2) * 1 + 1 * (j 0).val = (j 0).val; omega
  | ⟨1, _⟩ => show win2_2.index t (1 : Fin 2) * 128 + 1 * (j 1).val = (j 1).val; omega

theorem pblk_eq (c : Dev nD) (t : Fin cfg2.N) : pblk V c t = parr V c := by
  obtain ⟨-, -, -, -, -, -, -, -, e0, e1, -⟩ := idx_facts t
  funext j
  show V c main_arg9 (((cfg2.win 3).blk t).view.emb j) = V c main_arg9 j
  refine congrArg (V c main_arg9) (funext fun a => Fin.ext ?_)
  match a with
  | ⟨0, _⟩ => show win2_3.index t (0 : Fin 2) * 128 + 1 * (j 0).val = (j 0).val; omega
  | ⟨1, _⟩ => show win2_3.index t (1 : Fin 2) * 1 + 1 * (j 1).val = (j 1).val; omega

theorem p0blk_eq (c : Dev nD) (t : Fin cfg2.N) : p0blk V c t = p0arr V c := by
  obtain ⟨-, -, -, -, -, -, -, -, -, -, e0, e1, -⟩ := idx_facts t
  funext j
  show V c main_v27 (((cfg2.win 4).blk t).view.emb j) = V c main_v27 j
  refine congrArg (V c main_v27) (funext fun a => Fin.ext ?_)
  match a with
  | ⟨0, _⟩ => show win2_4.index t (0 : Fin 2) * 1 + 1 * (j 0).val = (j 0).val; omega
  | ⟨1, _⟩ => show win2_4.index t (1 : Fin 2) * 1 + 1 * (j 1).val = (j 1).val; omega

theorem vblk_eq (c : Dev nD) (t : Fin cfg2.N) : vblk V c t = varr V c := by
  obtain ⟨-, -, -, -, -, -, -, -, -, -, -, -, e0, e1, -⟩ := idx_facts t
  funext j
  show V c main_arg11 (((cfg2.win 5).blk t).view.emb j) = V c main_arg11 j
  refine congrArg (V c main_arg11) (funext fun a => Fin.ext ?_)
  match a with
  | ⟨0, _⟩ => show win2_5.index t (0 : Fin 2) * 128 + 1 * (j 0).val = (j 0).val; omega
  | ⟨1, _⟩ => show win2_5.index t (1 : Fin 2) * 1 + 1 * (j 1).val = (j 1).val; omega

theorem v0blk_eq (c : Dev nD) (t : Fin cfg2.N) : v0blk V c t = v0arr V c := by
  obtain ⟨-, -, -, -, -, -, -, -, -, -, -, -, -, -, e0, e1, -⟩ := idx_facts t
  funext j
  show V c main_v28 (((cfg2.win 6).blk t).view.emb j) = V c main_v28 j
  refine congrArg (V c main_v28) (funext fun a => Fin.ext ?_)
  match a with
  | ⟨0, _⟩ => show win2_6.index t (0 : Fin 2) * 1 + 1 * (j 0).val = (j 0).val; omega
  | ⟨1, _⟩ => show win2_6.index t (1 : Fin 2) * 1 + 1 * (j 1).val = (j 1).val; omega

/-! ## The blocks' payloads in terms of the whole arrays -/

/-- The last layer's linear map of the whole arrays: what the specification calls H. -/
abbrev Harr (c : Dev nD) : Cert.Spec.Feat.Idx → EReal := Cert.Spec.affine (xarr V c) (warr V c) (barr V c)

/-- Row p of block t of the linear map is row 5000·t + p of H. -/
theorem pay2_block (c : Dev nD) (t : Fin cfg2.N) (p : Fin 5000) (q : Fin 128) :
    k2_pay2 (xblk V c t) (wblk V c t) (bblk V c t) (ix2 p q)
      = Harr V c (ix2 (⟨5000 * t.val + p.val, by have := t_lt t; have := p.isLt; omega⟩ : Fin 50000) q) := by
  rw [pay2_apply, wblk_eq, bblk_eq]
  show _ = (∑ k : Fin 128, xarr V c (ix2 _ k) * warr V c (ix2 k q)) + barr V c (ix2 (0 : Fin 1) q)
  refine congrArg (· + barr V c (ix2 (0 : Fin 1) q)) (Finset.sum_congr rfl fun k _ => ?_)
  rw [xblk_apply]

/-- Row r of block t of the policy head is the specification's policy at node 5000·t + r. -/
theorem pay4_block (c : Dev nD) (t : Fin cfg2.N) (r : Fin 5000) (u : Fin 1) :
    k2_pay4 (xblk V c t) (wblk V c t) (bblk V c t) (pblk V c t) (p0blk V c t) (ix2 r u)
      = Cert.Spec.policy (Harr V c) (parr V c) (p0arr V c)
          (ix2 (⟨5000 * t.val + r.val, by have := t_lt t; have := r.isLt; omega⟩ : Fin 50000) (0 : Fin 1)) := by
  rw [pay4_apply, pblk_eq, p0blk_eq]
  show _ = (∑ k : Fin 128, Harr V c (ix2 _ k) * parr V c (ix2 k (0 : Fin 1))) + p0arr V c (ix2 (0 : Fin 1) (0 : Fin 1))
  refine congrArg (· + p0arr V c (ix2 (0 : Fin 1) (0 : Fin 1))) (Finset.sum_congr rfl fun k _ => ?_)
  rw [pay2_block]

/-! ## The policy column: every point writes its block of the specification's policy -/

theorem flushed7_eq (c : Dev nD) (t : Fin cfg2.N) :
    (Head.dat V c).flushed 7 t
      = ((cfg2.win 7).blk t).view.read (Elt Ideal) (Cert.Spec.policy (Harr V c) (parr V c) (p0arr V c)) := by
  show (cfg2.win 7).cut (grid2.coords t) ((Head.dat V c).after 7 t) = _
  rw [Head.after_7]
  funext j
  obtain ⟨r, u, rfl⟩ : ∃ (r : Fin 5000) (u : Fin 1), j = ix2 r u := ⟨j 0, j 1, eq_ix2 j⟩
  refine (pay4_block V c t r u).trans ?_
  obtain ⟨-, -, e0, e1, -⟩ := idx_facts t
  show _ = Cert.Spec.policy (Harr V c) (parr V c) (p0arr V c) (((cfg2.win 7).blk t).view.emb (ix2 r u))
  refine congrArg (Cert.Spec.policy (Harr V c) (parr V c) (p0arr V c)) (funext fun a => Fin.ext ?_)
  match a with
  | ⟨0, _⟩ => show 5000 * t.val + r.val = win2_7.index t (0 : Fin 2) * 5000 + 1 * r.val; omega
  | ⟨1, _⟩ => show 0 = win2_7.index t (1 : Fin 2) * 1 + 1 * u.val; omega

theorem mem_blk7 (t : Fin cfg2.N) (i : S50000x1.Idx) :
    i ∈ ((cfg2.win 7).blk t).view.set ↔ ∀ a : Fin 2, win2_7.index t a * S5000x1.size a ≤ (i a).val ∧ (i a).val < win2_7.index t a * S5000x1.size a + S5000x1.size a := by
  show i ∈ ((View.whole main_v29_0).slice (win2_7.rect t)).set ↔ _
  rw [View.set_slice_whole, Rect.mem_set_unit]
  exact Iff.rfl

/-- Node i lies in the block of point i / 5000. -/
theorem cover7 (i : S50000x1.Idx) : ∃ t : Fin cfg2.N, (cfg2.win 7).flush t = true ∧ i ∈ ((cfg2.win 7).blk t).view.set := by
  have hi0 : (i 0).val < 50000 := (i 0).isLt
  have hi1 : (i 1).val < 1 := (i 1).isLt
  have hN : cfg2.N = 10 := N_2
  let t : Fin cfg2.N := ⟨(i 0).val / 5000, by rw [hN]; omega⟩
  have ht : t.val = (i 0).val / 5000 := rfl
  obtain ⟨-, -, e0, e1, -⟩ := idx_facts t
  refine ⟨t, flush2_7 t, ?_⟩
  rw [mem_blk7]
  intro a
  match a with
  | ⟨0, _⟩ => show win2_7.index t (0 : Fin 2) * 5000 ≤ (i 0).val ∧ (i 0).val < win2_7.index t (0 : Fin 2) * 5000 + 5000; omega
  | ⟨1, _⟩ => show win2_7.index t (1 : Fin 2) * 1 ≤ (i 1).val ∧ (i 1).val < win2_7.index t (1 : Fin 2) * 1 + 1; omega

/-- The first output array ends holding the specification's policy head. -/
theorem policy_eq (c : Dev nD) :
    (Head.dat (F := Ideal) V c).arrAt 7 cfg2.N
      = Cert.Spec.policy (Cert.Spec.affine (V c main_v25) (V c main_arg7) (V c main_v26)) (V c main_arg9) (V c main_v27) :=
  (Head.dat V c).arrAt_eq_of_cover 7 (Cert.Spec.policy (Harr V c) (parr V c) (p0arr V c))
    (fun t _ => flushed7_eq V c t) cover7

/-! ## The carried scratch: column sums of H over the rows seen so far -/

/-- Column q of H at a natural row number (zero past the last row), so that runs of rows add up
    as sums over ranges. -/
def Hrow (c : Dev nD) (q : Fin 128) (r : ℕ) : EReal :=
  if h : r < 50000 then Harr V c (ix2 (⟨r, h⟩ : Fin 50000) q) else 0

/-- The column sums of block t of the linear map are the sums of H over rows 5000·t … 5000·t + 4999. -/
theorem block_colsum (c : Dev nD) (t : Fin cfg2.N) (q : Fin 128) :
    (∑ p : Fin 5000, k2_pay2 (xblk V c t) (wblk V c t) (bblk V c t) (ix2 p q))
      = ∑ p ∈ Finset.range 5000, Hrow V c q (5000 * t.val + p) := by
  rw [← Fin.sum_univ_eq_sum_range (fun p => Hrow V c q (5000 * t.val + p)) 5000]
  refine Finset.sum_congr rfl fun p _ => ?_
  rw [pay2_block]
  unfold Hrow
  rw [dif_pos (by have := t_lt t; have := p.isLt; omega)]

/-- After point n the scratch holds, at column q, the sum of H over the first 5000·(n+1) rows:
    the zero row plus the first block's sums, then one more block's sums per point. -/
theorem scratch_sum (c : Dev nD) : ∀ (n : ℕ) (h : n < cfg2.N) (u : Fin 1) (q : Fin 128),
    Head.scratchAt V c n h (ix2 u q) = ∑ r ∈ Finset.range (5000 * (n + 1)), Hrow V c q r
  | 0, h, u, q => by
    rw [Head.scratchAt_zero]
    refine (pay3_apply (xblk V c ⟨0, h⟩) (wblk V c ⟨0, h⟩) (bblk V c ⟨0, h⟩) (k2_pay1 (F := Ideal)) u q).trans ?_
    rw [pay1_apply, zero_add, block_colsum]
    refine Finset.sum_congr rfl fun p _ => ?_
    show Hrow V c q (5000 * 0 + p) = _
    rw [Nat.mul_zero, Nat.zero_add]
  | n + 1, h, u, q => by
    rw [Head.scratchAt_succ]
    refine (pay3_apply (xblk V c ⟨n + 1, h⟩) (wblk V c ⟨n + 1, h⟩) (bblk V c ⟨n + 1, h⟩)
      (Head.scratchAt V c n (Nat.lt_of_succ_lt h)) u q).trans ?_
    rw [scratch_sum c n (Nat.lt_of_succ_lt h) u q, block_colsum]
    rw [show 5000 * (n + 1 + 1) = 5000 * (n + 1) + 5000 by omega, Finset.sum_range_add]

/-- After the last point: the sum over all 50000 rows. -/
theorem scratch_last (c : Dev nD) (t : Fin cfg2.N) (h9 : t.val = 9) (u : Fin 1) (q : Fin 128) :
    Head.scratchAt V c t.val t.isLt (ix2 u q) = ∑ r : Fin 50000, Harr V c (ix2 r q) := by
  rw [scratch_sum, show 5000 * (t.val + 1) = 50000 by omega, ← Fin.sum_univ_eq_sum_range (Hrow V c q) 50000]
  refine Finset.sum_congr rfl fun r _ => ?_
  unfold Hrow
  rw [dif_pos r.isLt]

/-! ## The value number: the last point writes the specification's value head -/

theorem flushed8_eq (c : Dev nD) (t : Fin cfg2.N) (hf : (cfg2.win 8).flush t = true) :
    (Head.dat V c).flushed 8 t
      = ((cfg2.win 8).blk t).view.read (Elt Ideal) (Cert.Spec.value (Harr V c) (varr V c) (v0arr V c)) := by
  have h9 : t.val = 9 := by have := (flush2_8 t).mp hf; have := t_lt t; omega
  show (cfg2.win 8).cut (grid2.coords t) ((Head.dat V c).after 8 t) = _
  rw [Head.after_8]
  funext j
  obtain ⟨u, u', rfl⟩ : ∃ (u u' : Fin 1), j = ix2 u u' := ⟨j 0, j 1, eq_ix2 j⟩
  refine (pay5_apply (Head.scratchAt V c t.val t.isLt) (vblk V c t) (v0blk V c t) u u').trans ?_
  rw [vblk_eq, v0blk_eq]
  show _ = (∑ k : Fin 128, ((∑ r : Fin 50000, Harr V c (ix2 r k)) * ((1 / 50000 : ℝ) : EReal)) * varr V c (ix2 k (0 : Fin 1)))
    + v0arr V c (ix2 (0 : Fin 1) (0 : Fin 1))
  refine congrArg (· + v0arr V c (ix2 (0 : Fin 1) (0 : Fin 1))) (Finset.sum_congr rfl fun k _ => ?_)
  rw [scratch_last V c t h9]

theorem mem_blk8 (t : Fin cfg2.N) (i : S1x1.Idx) :
    i ∈ ((cfg2.win 8).blk t).view.set ↔ ∀ a : Fin 2, win2_8.index t a * S1x1.size a ≤ (i a).val ∧ (i a).val < win2_8.index t a * S1x1.size a + S1x1.size a := by
  show i ∈ ((View.whole main_v29_1).slice (win2_8.rect t)).set ↔ _
  rw [View.set_slice_whole, Rect.mem_set_unit]
  exact Iff.rfl

/-- The last point's block is the whole 1 × 1 array. -/
theorem cover8 (i : S1x1.Idx) : ∃ t : Fin cfg2.N, (cfg2.win 8).flush t = true ∧ i ∈ ((cfg2.win 8).blk t).view.set := by
  have hi0 : (i 0).val < 1 := (i 0).isLt
  have hi1 : (i 1).val < 1 := (i 1).isLt
  obtain ⟨-, -, -, -, -, -, -, -, -, -, -, -, -, -, -, -, e0, e1⟩ := idx_facts t2_9
  refine ⟨t2_9, (flush2_8 t2_9).mpr rfl, ?_⟩
  rw [mem_blk8]
  intro a
  match a with
  | ⟨0, _⟩ => show win2_8.index t2_9 (0 : Fin 2) * 1 ≤ (i 0).val ∧ (i 0).val < win2_8.index t2_9 (0 : Fin 2) * 1 + 1; omega
  | ⟨1, _⟩ => show win2_8.index t2_9 (1 : Fin 2) * 1 ≤ (i 1).val ∧ (i 1).val < win2_8.index t2_9 (1 : Fin 2) * 1 + 1; omega

/-- The second output array ends holding the specification's value head. -/
theorem value_eq (c : Dev nD) :
    (Head.dat (F := Ideal) V c).arrAt 8 cfg2.N
      = Cert.Spec.value (Cert.Spec.affine (V c main_v25) (V c main_arg7) (V c main_v26)) (V c main_arg11) (V c main_v28) :=
  (Head.dat V c).arrAt_eq_of_cover 8 (Cert.Spec.value (Harr V c) (varr V c) (v0arr V c))
    (flushed8_eq V c) cover8

end Cert.KernelIdeal.HeadValue

end
-- ==== Proof.Chain.lean ====
import proofs.«421690_j88553635709104_2_alg».proof.Proof.Gen.ReferenceIdeal
import proofs.«421690_j88553635709104_2_alg».proof.Proof.Spec

/-!
  The part of the network both programs run as the same host operations, named once, and the
  network's two results as functions of its thirteen arguments.
  From the edge list's source ids `src` comes the inverse out-degree of every node: the number of
  edges leaving it (a scatter-add of ones), at least 1, inverted, as one column. A layer's sparse half
  sends node features `h` to the sum, over the edges into each node, of the source node's row: the
  rows are gathered at `src` (a negative id counted from the end) and scatter-added at `dst`.
  The network scales the input features by the inverse degree, aggregates, applies a dense layer
  (`Spec.layer`), twice, aggregates a third time and applies the last linear map (`Spec.affine`);
  the results are the two heads of `Spec` on that.
-/

noncomputable section

namespace Cert.Chain

open Idealize.ShloMosaic Cert.ReferenceIdeal Cert.ReferenceIdeal.Facts₀ Cert.ReferenceIdeal.Facts

/-- The inverse out-degree, one column: 1 / max(1, number of edges whose source is the node). -/
def degInv (src : IVec S800000 32) : FVec Ideal S50000x1 .f32 :=
  broadcastInDim S50000x1 ![0] bcast_S50000_S50000x1_0
    (Host.divf (broadcastInDim S50000 ![] bcast_S_S50000 (constant (F := Ideal) S_ .f32 0x3F800000#32))
      (maximumf (broadcastInDim S50000 ![] bcast_S_S50000 (id (constant (F := Ideal) S_ .f32 0x3F800000#32)))
        (Host.scatterAdd scatter_S50000_S800000x1_S800000_n_0_0_1
          (broadcastInDim S50000 ![] bcast_S_S50000 (constant (F := Ideal) S_ .f32 0x00000000#32))
          (broadcastInDim S800000x1 ![0] bcast_S800000_S800000x1_0 src)
          (broadcastInDim S800000 ![] bcast_S_S800000 (constant (F := Ideal) S_ .f32 0x3F800000#32)))))

/-- The source ids as gather indices: a negative id has 50000 added, and the list becomes a column. -/
def wrapped (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- A layer's sparse half: gather the rows of `h` at the edges' sources, add them up at the edges'
    destinations. -/
def aggregate (h : FVec Ideal S50000x128 .f32) (src dst : IVec S800000 32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 h (wrapped src))

/-- Node features scaled row by row by the inverse out-degree. -/
def scaled (h : FVec Ideal S50000x128 .f32) (src : IVec S800000 32) : FVec Ideal S50000x128 .f32 :=
  mulf h (broadcastInDim S50000x128 ![0, 1] bcast_S50000x1_S50000x128_0_1 (degInv src))

/-- A bias vector as one row. -/
def row (b : FVec Ideal S128 .f32) : FVec Ideal S1x128 .f32 := broadcastInDim S1x128 ![1] bcast_S128_S1x128_1 b

/-- A head's bias as a 1 × 1 array. -/
def one (b : FVec Ideal S1 .f32) : FVec Ideal S1x1 .f32 := broadcastInDim S1x1 ![1] bcast_S1_S1x1_1 b

/-- The last layer's output before the heads. -/
def hidden (x : FVec Ideal S50000x128 .f32) (src dst : IVec S800000 32)
    (W1 : FVec Ideal S128x128 .f32) (b1 : FVec Ideal S128 .f32) (W2 : FVec Ideal S128x128 .f32) (b2 : FVec Ideal S128 .f32)
    (W3 : FVec Ideal S128x128 .f32) (b3 : FVec Ideal S128 .f32) : FVec Ideal S50000x128 .f32 :=
  Spec.affine
    (aggregate
      (Spec.layer
        (aggregate (Spec.layer (aggregate (scaled x src) src dst) W1 (row b1) (degInv src)) src dst)
        W2 (row b2) (degInv src))
      src dst)
    W3 (row b3)

/-- The policy head's result, one number per node. -/
def policyOut (x : FVec Ideal S50000x128 .f32) (src dst : IVec S800000 32)
    (W1 : FVec Ideal S128x128 .f32) (b1 : FVec Ideal S128 .f32) (W2 : FVec Ideal S128x128 .f32) (b2 : FVec Ideal S128 .f32)
    (W3 : FVec Ideal S128x128 .f32) (b3 : FVec Ideal S128 .f32) (p : FVec Ideal S128x1 .f32) (p₀ : FVec Ideal S1 .f32) :
    FVec Ideal S50000x1 .f32 :=
  Spec.policy (hidden x src dst W1 b1 W2 b2 W3 b3) p (one p₀)

/-- The value head's result, one number. -/
def valueOut (x : FVec Ideal S50000x128 .f32) (src dst : IVec S800000 32)
    (W1 : FVec Ideal S128x128 .f32) (b1 : FVec Ideal S128 .f32) (W2 : FVec Ideal S128x128 .f32) (b2 : FVec Ideal S128 .f32)
    (W3 : FVec Ideal S128x128 .f32) (b3 : FVec Ideal S128 .f32) (v : FVec Ideal S128x1 .f32) (v₀ : FVec Ideal S1 .f32) :
    FVec Ideal S1x1 .f32 :=
  Spec.value (hidden x src dst W1 b1 W2 b2 W3 b3) v (one v₀)

end Cert.Chain

end
-- ==== Proof.SrcRange.lean ====
import proofs.«421690_j88553635709104_2_alg».proof.Proof.Gen.KernelIdeal
import proofs.«421690_j88553635709104_2_alg».proof.Proof.Gen.Pre_finite_inputs
import proofs.«421690_j88553635709104_2_alg».proof.Proof.Chain
import Idealize.ShloMosaic.Lib.ReduceAll
import Idealize.ShloMosaic.Lib.ValueIdx
import Idealize.ShloMosaic.Lib.Pipeline.Value

/-!
  Two facts about the edge list's source ids `src` (800000 signed 32-bit words).

  1. The precondition ends in `all (src ≥ -50000) ∧ all (src < 50000)`: read back, every source id lies
     in [-50000, 50000) as a signed integer.
  2. The kernel's program gathers rows with a take that wraps a negative id (adds 50000), tests
     0 ≤ id ≤ 49999 on the wrapped id, and puts a NaN row wherever the test fails. For ids in
     [-50000, 50000) the wrapped id is in [0, 50000), the test holds at every edge, and the masked take
     is the plain gather of the rows at the wrapped ids: the gather the reference performs.
-/

noncomputable section

namespace Cert.SrcRange

open Idealize.ShloMosaic Idealize.ShloMosaic.ValueIdx

/-! ## The precondition read back -/

section Decode

open Cert.Pre_finite_inputs

/-- Every source id is at least -50000 and below 50000: the precondition's last two conjuncts, each a
    reduction by `and` of a signed comparison against a broadcast constant, read at edge `e`. -/
theorem range_of_pre {F : FTy → Type} [FloatOps F] [Cert.Pre_finite_inputs.Facts]
    (a0 : FVec F S50000x128 .f32) (a1 : IVec S800000 32) (a2 : IVec S800000 32) (a3 : FVec F S128x128 .f32)
    (a4 : FVec F S128 .f32) (a5 : FVec F S128x128 .f32) (a6 : FVec F S128 .f32) (a7 : FVec F S128x128 .f32)
    (a8 : FVec F S128 .f32) (a9 : FVec F S128x1 .f32) (a10 : FVec F S1 .f32) (a11 : FVec F S128x1 .f32)
    (a12 : FVec F S1 .f32)
    (h : Cert.Pre_finite_inputs.fn (F := F) a0 a1 a2 a3 a4 a5 a6 a7 a8 a9 a10 a11 a12 = fun _ => 1#1) :
    ∀ e : Fin 800000, (-50000 : Int) ≤ (a1 (ix1 e)).toInt ∧ (a1 (ix1 e)).toInt < 50000 := by
  haveI : Subsingleton S_.Idx := ⟨fun a b => funext fun d => d.elim0⟩
  have e0 := congrFun h ix0
  dsimp only [fn, fn_part1, fn_part2, fn_part3] at e0
  obtain ⟨e1, hlt⟩ := IntOp.andi_eq_one.1 e0
  obtain ⟨-, hge⟩ := IntOp.andi_eq_one.1 e1
  intro e
  have g := Host.reduce_andi_all _ _ _ _ _ hge (ix1 e)
  have l := Host.reduce_andi_all _ _ _ _ _ hlt (ix1 e)
  have g' : (4294917296#32 : BitVec 32).toInt ≤ (a1 (ix1 e)).toInt := IntOp.cmpi_sge.1 g
  have l' : (a1 (ix1 e)).toInt < (50000#32 : BitVec 32).toInt := IntOp.cmpi_slt.1 l
  have c1 : (4294917296#32 : BitVec 32).toInt = -50000 := by decide
  have c2 : (50000#32 : BitVec 32).toInt = 50000 := by decide
  exact ⟨c1 ▸ g', c2 ▸ l'⟩

end Decode

/-! ## The masked take is the plain gather -/

section Take

open Cert.KernelIdeal Cert.KernelIdeal.Facts₀ Cert.KernelIdeal.Facts

/-- The kernel program's take of the rows of `x` at the source ids, operation by operation: the ids
    wrapped (a negative id has 50000 added) and made a column `idx`; the test 0 ≤ idx ≤ 49999 reduced by
    `and` over the column's one entry; the rows gathered at `idx`; a NaN row where the test fails. -/
def takeTerm (x : FVec Ideal S50000x128 .f32) (src : IVec S800000 32) : FVec Ideal S800000x128 .f32 :=
  select (broadcastInDim S800000x128 ![0] bcast_S800000_S800000x128_0 (Host.reduce IntOp.andi (andi (cmpi .sge idx (broadcastInDim S800000x1 ![] bcast_S_S800000x1 (constantI S_ 32 0#32))) (cmpi .sle idx (broadcastInDim S800000x1 ![0, 1] bcast_S1x1_S800000x1_0_1 (broadcastInDim S1x1 ![1] bcast_S1_S1x1_1 (constantI S1 32 49999#32))))) (constantI S_ 1 1#1) reducesTo_S800000x1_S800000_d1 h_S_)) (Host.gather gather_S50000x128_S800000x1_S800000x128_1_0_n_n_0_1_1128 x idx) (broadcastInDim S800000x128 ![] bcast_S_S800000x128 (constant (F := Ideal) S_ .f32 0x7FC00000#32))
  where idx := broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)

/-- The wrapped-id column is the reference's index column: the same operations. -/
theorem idx_eq_wrapped (src : IVec S800000 32) : takeTerm.idx src = Cert.Chain.wrapped src := rfl

/-- A left fold by `and` from 1 over one-bit words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    have h11 : IntOp.andi (1#1 : BitVec 1) 1#1 = 1#1 := by decide
    rw [List.foldl_cons, hf a, h11]
    exact foldl_andi_one f hf l

/-- A reduction by `and` from 1 of an array of one-bit words that are all 1 is 1 everywhere. -/
theorem reduce_andi_one {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_one x hx _

/-- A signed word in [-50000, 50000), wrapped, is in [0, 49999]: below 0 it has 50000 added, with no
    overflow; otherwise it is kept. -/
theorem wrap_range (w : BitVec 32) (h1 : (-50000 : Int) ≤ w.toInt) (h2 : w.toInt < 50000) :
    (0#32 : BitVec 32).toInt ≤ (Scalar.select (IntOp.cmpi .slt w 0#32) (IntOp.addi w 50000#32) w).toInt
      ∧ (Scalar.select (IntOp.cmpi .slt w 0#32) (IntOp.addi w 50000#32) w).toInt ≤ (49999#32 : BitVec 32).toInt := by
  have z : (0#32 : BitVec 32).toInt = 0 := by decide
  have t : (49999#32 : BitVec 32).toInt = 49999 := by decide
  rw [z, t]
  by_cases hneg : w.toInt < 0
  · have hc : IntOp.cmpi .slt w 0#32 = 1#1 := IntOp.cmpi_slt.2 (by rw [z]; exact hneg)
    rw [hc, select_one]
    have ha : (IntOp.addi w 50000#32).toInt = w.toInt + 50000 := by
      unfold IntOp.addi
      rw [BitVec.toInt_add, show (50000#32 : BitVec 32).toInt = 50000 from by decide]
      rw [Int.bmod_def]
      omega
    rw [ha]; omega
  · have hc : IntOp.cmpi .slt w 0#32 = 0#1 :=
      eq_zero_of_ne_one (fun h => hneg (by have := IntOp.cmpi_slt.1 h; rwa [z] at this))
    rw [hc, select_zero]; omega

/-- The wrapped-id column at row `e`: the wrapped id of edge `e`. -/
theorem idx_apply (src : IVec S800000 32) (e : Fin 800000) (c : Fin 1) :
    takeTerm.idx src (ix2 e c)
      = Scalar.select (IntOp.cmpi .slt (src (ix1 e)) 0#32) (IntOp.addi (src (ix1 e)) 50000#32) (src (ix1 e)) := by
  unfold takeTerm.idx
  refine (broadcastInDim_apply _ _ _ (ix2 e c) (ix1 e) (fun a => ?_)).trans rfl
  match a with
  | ⟨0, _⟩ => rfl

/-- The range test holds at every entry of the column. -/
theorem test_one (src : IVec S800000 32)
    (hr : ∀ e : Fin 800000, (-50000 : Int) ≤ (src (ix1 e)).toInt ∧ (src (ix1 e)).toInt < 50000) (i : S800000x1.Idx) :
    andi (cmpi .sge (takeTerm.idx src) (broadcastInDim S800000x1 ![] bcast_S_S800000x1 (constantI S_ 32 0#32)))
      (cmpi .sle (takeTerm.idx src) (broadcastInDim S800000x1 ![0, 1] bcast_S1x1_S800000x1_0_1
        (broadcastInDim S1x1 ![1] bcast_S1_S1x1_1 (constantI S1 32 49999#32)))) i = 1#1 := by
  obtain ⟨e, c, rfl⟩ : ∃ (e : Fin 800000) (c : Fin 1), i = ix2 e c := ⟨i 0, i 1, eq_ix2 i⟩
  show IntOp.andi (IntOp.cmpi .sge (takeTerm.idx src (ix2 e c)) 0#32) (IntOp.cmpi .sle (takeTerm.idx src (ix2 e c)) 49999#32) = 1#1
  rw [IntOp.andi_eq_one, IntOp.cmpi_sge, IntOp.cmpi_sle, idx_apply]
  exact wrap_range _ (hr e).1 (hr e).2

/-- A select whose condition is 1 at an index reads its first operand there. -/
theorem select_of_one {α : Type} {s : Shape} (c : IVec s 1) (a b : s.Idx → α) (j : s.Idx) (hc : c j = 1#1) :
    select c a b j = a j := by
  rw [select_apply, hc, select_one]

/-- With every source id in [-50000, 50000) the masked take is the gather at the wrapped ids. -/
theorem take_eq_gather (x : FVec Ideal S50000x128 .f32) (src : IVec S800000 32)
    (hr : ∀ e : Fin 800000, (-50000 : Int) ≤ (src (ix1 e)).toInt ∧ (src (ix1 e)).toInt < 50000) :
    takeTerm x src
      = Host.gather Cert.ReferenceIdeal.gather_S50000x128_S800000x1_S800000x128_1_0_n_n_0_1_1128 x (Cert.Chain.wrapped src) := by
  funext j
  unfold takeTerm
  refine (select_of_one _ _ _ j ?_).trans rfl
  exact reduce_andi_one _ _ _ _ (test_one src hr) rfl _

end Take

end Cert.SrcRange

end
-- ==== Proof.KernelIdeal.Stretches.lean ====
import proofs.«421690_j88553635709104_2_alg».proof.Proof.Gen.KernelIdeal.Launch
import proofs.«421690_j88553635709104_2_alg».proof.Proof.Gen.KernelIdeal.Regions
import proofs.«421690_j88553635709104_2_alg».proof.Proof.SrcRange
import proofs.«421690_j88553635709104_2_alg».proof.Proof.Chain
import Idealize.ShloMosaic.Lib.StableHlo.Run
import Idealize.ShloMosaic.Lib.Pipeline.Value

/-!
  What the host operations of the kernel program leave in the buffers its three kernel launches read,
  at the ideal instance, as functions of what they found.

  The program runs host operations, then a launch, three times over. Before the first launch: the
  out-degree of every node (a scatter-add of ones at the source ids), clipped below at 1 and inverted,
  as a column; the input features scaled by it; the scaled rows taken at the source ids (a negative id
  wrapped, a NaN row where the wrapped id is out of range) and scatter-added at the destination ids
  into zeros; the first bias reshaped to a row. Before the second and third launch: the previous
  launch's result taken and scatter-added in the same way, the next bias as a row, and before the third
  the two heads' biases as 1 × 1 arrays.

  Each stretch of operations is read alone, over opaque inputs, and the stretches are then composed.
  With every source id in [-50000, 50000) the take is the plain gather at the wrapped ids, so each
  aggregate is the reference's; a reshape of a vector to one row (or of one number to a 1 × 1 array) is
  the broadcast the reference writes.
-/

noncomputable section

namespace Cert.KernelIdeal.Stretches

open Cert.KernelIdeal Cert.KernelIdeal.Gen
open Idealize.ShloMosaic Idealize.ShloMosaic.TcCoe Idealize.SL.Sem Idealize.ShloMosaic.StableHlo
open Idealize.ShloMosaic.ValueIdx

/-! ## Small facts -/

/-- The two programs' dimension records are the same records. -/
theorem gather_dims_eq : Cert.KernelIdeal.gather_S50000x128_S800000x1_S800000x128_1_0_n_n_0_1_1128
    = Cert.ReferenceIdeal.gather_S50000x128_S800000x1_S800000x128_1_0_n_n_0_1_1128 := rfl
theorem scatter0_dims_eq : Cert.KernelIdeal.scatter_S50000_S800000x1_S800000_n_0_0_1
    = Cert.ReferenceIdeal.scatter_S50000_S800000x1_S800000_n_0_0_1 := rfl
theorem scatter1_dims_eq : Cert.KernelIdeal.scatter_S50000x128_S800000x1_S800000x128_1_0_0_1
    = Cert.ReferenceIdeal.scatter_S50000x128_S800000x1_S800000x128_1_0_0_1 := rfl

/-- Moving a value to a typed reference's buffer type and back is the identity. -/
theorem ofBuf_toBuf {T : BufTy} (x : StableHlo.TRef sig T) (v : T.Contents (Elt Ideal)) : x.ofBuf (x.toBuf v) = v := by
  obtain ⟨r, rfl, hd, hu⟩ := x; rfl

/-- A vector of 128 reshaped to one row is the vector broadcast along the row. -/
theorem shapeCast_row (b : FVec Ideal S128 .f32) (h : S128.ShapeCasts S1x128) :
    shapeCast S1x128 b h = Cert.Chain.row b := by
  funext j
  unfold Cert.Chain.row
  refine (shapeCast_addUnit_apply ![128] b h j).trans ?_
  refine (broadcastInDim_apply _ _ b j (fun a => j a.succ) (fun a => ?_)).symm
  match a with
  | ⟨0, _⟩ => rfl

/-- One number reshaped to a 1 × 1 array is the number broadcast to it. -/
theorem shapeCast_one (s : FVec Ideal S1 .f32) (h : S1.ShapeCasts S1x1) :
    shapeCast S1x1 s h = Cert.Chain.one s := by
  funext j
  unfold Cert.Chain.one
  refine (shapeCast_addUnit_apply ![1] s h j).trans ?_
  refine (broadcastInDim_apply _ _ s j (fun a => j a.succ) (fun a => ?_)).symm
  match a with
  | ⟨0, _⟩ =>
    have hj : (j 1).val < 1 := (j 1).isLt
    show (j 1).val = 0
    omega

/-- The inverse out-degree column, over the kernel program's names. -/
def degInvK (src : IVec S800000 32) : FVec Ideal S50000x1 .f32 :=
  broadcastInDim S50000x1 ![0] bcast_S50000_S50000x1_0
    (Host.divf (broadcastInDim S50000 ![] bcast_S_S50000 (constant (F := Ideal) S_ .f32 0x3F800000#32))
      (maximumf (broadcastInDim S50000 ![] bcast_S_S50000 (id (constant (F := Ideal) S_ .f32 0x3F800000#32)))
        (Host.scatterAdd scatter_S50000_S800000x1_S800000_n_0_0_1
          (broadcastInDim S50000 ![] bcast_S_S50000 (constant (F := Ideal) S_ .f32 0x00000000#32))
          (broadcastInDim S800000x1 ![0] bcast_S800000_S800000x1_0 src)
          (broadcastInDim S800000 ![] bcast_S_S800000 (constant (F := Ideal) S_ .f32 0x3F800000#32)))))

/-- It is the reference's. -/
theorem degInvK_eq (src : IVec S800000 32) : degInvK src = Cert.Chain.degInv src := by
  unfold degInvK Cert.Chain.degInv
  rw [scatter0_dims_eq]

/-- The features scaled by it are the reference's scaled features. -/
theorem scaledK_eq (x : FVec Ideal S50000x128 .f32) (src : IVec S800000 32) :
    mulf x (broadcastInDim S50000x128 ![0, 1] bcast_S50000x1_S50000x128_0_1 (degInvK src)) = Cert.Chain.scaled x src := by
  unfold Cert.Chain.scaled
  rw [degInvK_eq]

/-- With the source ids in range, the masked take scatter-added at the destinations is the reference's aggregate. -/
theorem aggK_eq (h : FVec Ideal S50000x128 .f32) (src dst : IVec S800000 32)
    (hr : ∀ e : Fin 800000, (-50000 : Int) ≤ (src (ix1 e)).toInt ∧ (src (ix1 e)).toInt < 50000) :
    Host.scatterAdd scatter_S50000x128_S800000x1_S800000x128_1_0_0_1
        (broadcastInDim S50000x128 ![] bcast_S_S50000x128 (constant (F := Ideal) S_ .f32 0x00000000#32))
        (broadcastInDim S800000x1 ![0] bcast_S800000_S800000x1_0 dst)
        (Cert.SrcRange.takeTerm h src)
      = Cert.Chain.aggregate h src dst := by
  rw [Cert.SrcRange.take_eq_gather h src hr]
  unfold Cert.Chain.aggregate
  rw [scatter1_dims_eq]

/-! ## Each stretch alone, its inputs opaque -/

section Stretch

variable (X : Valuation τ sig (Elt Ideal))

/-! A buffer a stretch does not write keeps its contents. -/

theorem keep0 (V : Valuation τ sig (Elt Ideal)) (r : Ref sig .tc) (hr : r ∉ hostOps0_W := by decide) :
    StableHlo.after (hostOps0 (F := Ideal)) V (Proc.devRef .tc r) = V (Proc.devRef .tc r) :=
  StableHlo.after_of_writes_sub hostOps0 V hostOps0_writes hr

theorem keep0_1 (V : Valuation τ sig (Elt Ideal)) (r : Ref sig .tc) (hr : r ∉ hostOps0_1_W := by decide) :
    StableHlo.after (hostOps0_1 (F := Ideal)) V (Proc.devRef .tc r) = V (Proc.devRef .tc r) :=
  StableHlo.after_of_writes_sub hostOps0_1 V hostOps0_1_writes hr

theorem keep0_2 (V : Valuation τ sig (Elt Ideal)) (r : Ref sig .tc) (hr : r ∉ hostOps0_2_W := by decide) :
    StableHlo.after (hostOps0_2 (F := Ideal)) V (Proc.devRef .tc r) = V (Proc.devRef .tc r) :=
  StableHlo.after_of_writes_sub hostOps0_2 V hostOps0_2_writes hr

theorem keep0_3 (V : Valuation τ sig (Elt Ideal)) (r : Ref sig .tc) (hr : r ∉ hostOps0_3_W := by decide) :
    StableHlo.after (hostOps0_3 (F := Ideal)) V (Proc.devRef .tc r) = V (Proc.devRef .tc r) :=
  StableHlo.after_of_writes_sub hostOps0_3 V hostOps0_3_writes hr

theorem keep0_4 (V : Valuation τ sig (Elt Ideal)) (r : Ref sig .tc) (hr : r ∉ hostOps0_4_W := by decide) :
    StableHlo.after (hostOps0_4 (F := Ideal)) V (Proc.devRef .tc r) = V (Proc.devRef .tc r) :=
  StableHlo.after_of_writes_sub hostOps0_4 V hostOps0_4_writes hr

theorem keep1 (V : Valuation τ sig (Elt Ideal)) (r : Ref sig .tc) (hr : r ∉ hostOps1_W := by decide) :
    StableHlo.after (hostOps1 (F := Ideal)) V (Proc.devRef .tc r) = V (Proc.devRef .tc r) :=
  StableHlo.after_of_writes_sub hostOps1 V hostOps1_writes hr

theorem keep1_1 (V : Valuation τ sig (Elt Ideal)) (r : Ref sig .tc) (hr : r ∉ hostOps1_1_W := by decide) :
    StableHlo.after (hostOps1_1 (F := Ideal)) V (Proc.devRef .tc r) = V (Proc.devRef .tc r) :=
  StableHlo.after_of_writes_sub hostOps1_1 V hostOps1_1_writes hr

theorem keep2 (V : Valuation τ sig (Elt Ideal)) (r : Ref sig .tc) (hr : r ∉ hostOps2_W := by decide) :
    StableHlo.after (hostOps2 (F := Ideal)) V (Proc.devRef .tc r) = V (Proc.devRef .tc r) :=
  StableHlo.after_of_writes_sub hostOps2 V hostOps2_writes hr

theorem keep2_1 (V : Valuation τ sig (Elt Ideal)) (r : Ref sig .tc) (hr : r ∉ hostOps2_1_W := by decide) :
    StableHlo.after (hostOps2_1 (F := Ideal)) V (Proc.devRef .tc r) = V (Proc.devRef .tc r) :=
  StableHlo.after_of_writes_sub hostOps2_1 V hostOps2_1_writes hr

/-- The first stretch leaves the constant 1 … -/
theorem s0_one : StableHlo.after (hostOps0 (F := Ideal)) X (Proc.devRef .tc main_cst_1) = constant (F := Ideal) S_ .f32 0x3F800000#32 := by
  after_results_simp

/-- … and the out-degrees: ones scatter-added at the source ids into zeros. -/
theorem s0_deg (src : IVec S800000 32) (hs : src = X (Proc.devRef .tc main_arg1)) :
    StableHlo.after (hostOps0 (F := Ideal)) X (Proc.devRef .tc main_v3)
      = Host.scatterAdd scatter_S50000_S800000x1_S800000_n_0_0_1
          (broadcastInDim S50000 ![] bcast_S_S50000 (constant (F := Ideal) S_ .f32 0x00000000#32))
          (broadcastInDim S800000x1 ![0] bcast_S800000_S800000x1_0 src)
          (broadcastInDim S800000 ![] bcast_S_S800000 (constant (F := Ideal) S_ .f32 0x3F800000#32)) := by
  subst hs; after_results_simp

/-- The clip: the maximum of the broadcast lower bound and the degrees. -/
theorem clip_out (one : FVec Ideal S_ .f32) (deg : FVec Ideal S50000 .f32)
    (h1 : one = X (Proc.devRef .tc main_cst_1)) (h3 : deg = X (Proc.devRef .tc main_v3)) :
    StableHlo.after (hostOps0_1 (F := Ideal)) X (Proc.devRef .tc main_v4)
      = maximumf (broadcastInDim S50000 ![] bcast_S_S50000 (id one)) deg := by
  subst h1 h3; after_results_simp; rfl

/-- The inverse of the clipped degrees, as a column … -/
theorem s2_scale (v4 : FVec Ideal S50000 .f32) (h4 : v4 = X (Proc.devRef .tc main_v4)) :
    StableHlo.after (hostOps0_2 (F := Ideal)) X (Proc.devRef .tc main_v7)
      = broadcastInDim S50000x1 ![0] bcast_S50000_S50000x1_0
          (Host.divf (broadcastInDim S50000 ![] bcast_S_S50000 (constant (F := Ideal) S_ .f32 0x3F800000#32)) v4) := by
  subst h4; after_results_simp

/-- … and the features scaled by it. -/
theorem s2_scaled (x : FVec Ideal S50000x128 .f32) (v4 : FVec Ideal S50000 .f32)
    (hx : x = X (Proc.devRef .tc main_arg0)) (h4 : v4 = X (Proc.devRef .tc main_v4)) :
    StableHlo.after (hostOps0_2 (F := Ideal)) X (Proc.devRef .tc main_v9)
      = mulf x (broadcastInDim S50000x128 ![0, 1] bcast_S50000x1_S50000x128_0_1
          (broadcastInDim S50000x1 ![0] bcast_S50000_S50000x1_0
            (Host.divf (broadcastInDim S50000 ![] bcast_S_S50000 (constant (F := Ideal) S_ .f32 0x3F800000#32)) v4))) := by
  subst hx h4; after_results_simp

/-- The take of the rows of `h` at the source ids, left in its result buffer. -/
theorem take0_out (h : FVec Ideal S50000x128 .f32) (src : IVec S800000 32)
    (hh : h = X (Proc.devRef .tc main_v9)) (hs : src = X (Proc.devRef .tc main_arg1)) :
    StableHlo.after (hostOps0_3 (F := Ideal)) X (Proc.devRef .tc main_v10) = Cert.SrcRange.takeTerm h src := by
  have e1 : (StableHlo.TRef.of main_arg1 : StableHlo.TRef sig ⟨S800000, .i32⟩).ofBuf (X (Proc.devRef .tc main_arg1)) = src := by
    subst hs; rfl
  have e2 : (StableHlo.TRef.of main_v9 : StableHlo.TRef sig ⟨S50000x128, .f32⟩).ofBuf (X (Proc.devRef .tc main_v9)) = h := by
    subst hh; rfl
  have e3 : ∀ v : FVec Ideal S800000x128 .f32,
      (StableHlo.TRef.of main_v10 : StableHlo.TRef sig ⟨S800000x128, .f32⟩).toBuf (Val := Elt Ideal) v = v := fun _ => rfl
  after_results_simp
  simp only [ofBuf_toBuf, e1, e2]
  refine (e3 _).trans ?_
  unfold Cert.SrcRange.takeTerm Cert.SrcRange.takeTerm.idx
  rfl

/-- The take of the rows of `h` at the source ids, left in its result buffer. -/
theorem take1_out (h : FVec Ideal S50000x128 .f32) (src : IVec S800000 32)
    (hh : h = X (Proc.devRef .tc main_v15)) (hs : src = X (Proc.devRef .tc main_arg1)) :
    StableHlo.after (hostOps1 (F := Ideal)) X (Proc.devRef .tc main_v16) = Cert.SrcRange.takeTerm h src := by
  have e1 : (StableHlo.TRef.of main_arg1 : StableHlo.TRef sig ⟨S800000, .i32⟩).ofBuf (X (Proc.devRef .tc main_arg1)) = src := by
    subst hs; rfl
  have e2 : (StableHlo.TRef.of main_v15 : StableHlo.TRef sig ⟨S50000x128, .f32⟩).ofBuf (X (Proc.devRef .tc main_v15)) = h := by
    subst hh; rfl
  have e3 : ∀ v : FVec Ideal S800000x128 .f32,
      (StableHlo.TRef.of main_v16 : StableHlo.TRef sig ⟨S800000x128, .f32⟩).toBuf (Val := Elt Ideal) v = v := fun _ => rfl
  after_results_simp
  simp only [ofBuf_toBuf, e1, e2]
  refine (e3 _).trans ?_
  unfold Cert.SrcRange.takeTerm Cert.SrcRange.takeTerm.idx
  rfl

/-- The take of the rows of `h` at the source ids, left in its result buffer. -/
theorem take2_out (h : FVec Ideal S50000x128 .f32) (src : IVec S800000 32)
    (hh : h = X (Proc.devRef .tc main_v21)) (hs : src = X (Proc.devRef .tc main_arg1)) :
    StableHlo.after (hostOps2 (F := Ideal)) X (Proc.devRef .tc main_v22) = Cert.SrcRange.takeTerm h src := by
  have e1 : (StableHlo.TRef.of main_arg1 : StableHlo.TRef sig ⟨S800000, .i32⟩).ofBuf (X (Proc.devRef .tc main_arg1)) = src := by
    subst hs; rfl
  have e2 : (StableHlo.TRef.of main_v21 : StableHlo.TRef sig ⟨S50000x128, .f32⟩).ofBuf (X (Proc.devRef .tc main_v21)) = h := by
    subst hh; rfl
  have e3 : ∀ v : FVec Ideal S800000x128 .f32,
      (StableHlo.TRef.of main_v22 : StableHlo.TRef sig ⟨S800000x128, .f32⟩).toBuf (Val := Elt Ideal) v = v := fun _ => rfl
  after_results_simp
  simp only [ofBuf_toBuf, e1, e2]
  refine (e3 _).trans ?_
  unfold Cert.SrcRange.takeTerm Cert.SrcRange.takeTerm.idx
  rfl

/-- The taken rows scatter-added at the destination ids into zeros. -/
theorem agg0_out (t : FVec Ideal S800000x128 .f32) (dst : IVec S800000 32)
    (ht : t = X (Proc.devRef .tc main_v10)) (hd : dst = X (Proc.devRef .tc main_arg2)) :
    StableHlo.after (hostOps0_4 (F := Ideal)) X (Proc.devRef .tc main_v13)
      = Host.scatterAdd scatter_S50000x128_S800000x1_S800000x128_1_0_0_1
          (broadcastInDim S50000x128 ![] bcast_S_S50000x128 (constant (F := Ideal) S_ .f32 0x00000000#32))
          (broadcastInDim S800000x1 ![0] bcast_S800000_S800000x1_0 dst) t := by
  subst ht hd; after_results_simp

/-- The taken rows scatter-added at the destination ids into zeros. -/
theorem agg1_out (t : FVec Ideal S800000x128 .f32) (dst : IVec S800000 32)
    (ht : t = X (Proc.devRef .tc main_v16)) (hd : dst = X (Proc.devRef .tc main_arg2)) :
    StableHlo.after (hostOps1_1 (F := Ideal)) X (Proc.devRef .tc main_v19)
      = Host.scatterAdd scatter_S50000x128_S800000x1_S800000x128_1_0_0_1
          (broadcastInDim S50000x128 ![] bcast_S_S50000x128 (constant (F := Ideal) S_ .f32 0x00000000#32))
          (broadcastInDim S800000x1 ![0] bcast_S800000_S800000x1_0 dst) t := by
  subst ht hd; after_results_simp

/-- The taken rows scatter-added at the destination ids into zeros. -/
theorem agg2_out (t : FVec Ideal S800000x128 .f32) (dst : IVec S800000 32)
    (ht : t = X (Proc.devRef .tc main_v22)) (hd : dst = X (Proc.devRef .tc main_arg2)) :
    StableHlo.after (hostOps2_1 (F := Ideal)) X (Proc.devRef .tc main_v25)
      = Host.scatterAdd scatter_S50000x128_S800000x1_S800000x128_1_0_0_1
          (broadcastInDim S50000x128 ![] bcast_S_S50000x128 (constant (F := Ideal) S_ .f32 0x00000000#32))
          (broadcastInDim S800000x1 ![0] bcast_S800000_S800000x1_0 dst) t := by
  subst ht hd; after_results_simp

/-- A bias reshaped to one row. -/
theorem row0_out (b : FVec Ideal S128 .f32) (hb : b = X (Proc.devRef .tc main_arg4)) :
    StableHlo.after (hostOps0_4 (F := Ideal)) X (Proc.devRef .tc main_v14) = Cert.Chain.row b := by
  subst hb; after_results_simp; exact shapeCast_row _ _

/-- A bias reshaped to one row. -/
theorem row1_out (b : FVec Ideal S128 .f32) (hb : b = X (Proc.devRef .tc main_arg6)) :
    StableHlo.after (hostOps1_1 (F := Ideal)) X (Proc.devRef .tc main_v20) = Cert.Chain.row b := by
  subst hb; after_results_simp; exact shapeCast_row _ _

/-- A bias reshaped to one row. -/
theorem row2_out (b : FVec Ideal S128 .f32) (hb : b = X (Proc.devRef .tc main_arg8)) :
    StableHlo.after (hostOps2_1 (F := Ideal)) X (Proc.devRef .tc main_v26) = Cert.Chain.row b := by
  subst hb; after_results_simp; exact shapeCast_row _ _

/-- A head's bias reshaped to a 1 × 1 array. -/
theorem pbias_out (s : FVec Ideal S1 .f32) (hs : s = X (Proc.devRef .tc main_arg10)) :
    StableHlo.after (hostOps2_1 (F := Ideal)) X (Proc.devRef .tc main_v27) = Cert.Chain.one s := by
  subst hs; after_results_simp; exact shapeCast_one _ _

/-- A head's bias reshaped to a 1 × 1 array. -/
theorem vbias_out (s : FVec Ideal S1 .f32) (hs : s = X (Proc.devRef .tc main_arg12)) :
    StableHlo.after (hostOps2_1 (F := Ideal)) X (Proc.devRef .tc main_v28) = Cert.Chain.one s := by
  subst hs; after_results_simp; exact shapeCast_one _ _

end Stretch

/-! ## The stretches composed -/

section Compose

variable (X : Valuation τ sig (Elt Ideal))

-- the contents after each stretch before the first launch …
local notation "A1" => StableHlo.after (hostOps0 (F := Ideal)) X
local notation "A2" => StableHlo.after (hostOps0_1 (F := Ideal)) A1
local notation "A3" => StableHlo.after (hostOps0_2 (F := Ideal)) A2
local notation "A4" => StableHlo.after (hostOps0_3 (F := Ideal)) A3
local notation "A5" => StableHlo.after (hostOps0_4 (F := Ideal)) A4
-- … before the second …
local notation "B1" => StableHlo.after (hostOps1 (F := Ideal)) X
local notation "B2" => StableHlo.after (hostOps1_1 (F := Ideal)) B1
-- … and before the third
local notation "C1" => StableHlo.after (hostOps2 (F := Ideal)) X
local notation "C2" => StableHlo.after (hostOps2_1 (F := Ideal)) C1

/-! A buffer none of the stretches so far writes still holds what it held. -/

theorem keepA2 (r : Ref sig .tc) (h0 : r ∉ hostOps0_W := by decide) (h1 : r ∉ hostOps0_1_W := by decide) :
    A2 (Proc.devRef .tc r) = X (Proc.devRef .tc r) := (keep0_1 A1 r h1).trans (keep0 X r h0)
theorem keepA3 (r : Ref sig .tc) (h0 : r ∉ hostOps0_W := by decide) (h1 : r ∉ hostOps0_1_W := by decide)
    (h2 : r ∉ hostOps0_2_W := by decide) :
    A3 (Proc.devRef .tc r) = X (Proc.devRef .tc r) := (keep0_2 A2 r h2).trans (keepA2 X r h0 h1)
theorem keepA4 (r : Ref sig .tc) (h0 : r ∉ hostOps0_W := by decide) (h1 : r ∉ hostOps0_1_W := by decide)
    (h2 : r ∉ hostOps0_2_W := by decide) (h3 : r ∉ hostOps0_3_W := by decide) :
    A4 (Proc.devRef .tc r) = X (Proc.devRef .tc r) := (keep0_3 A3 r h3).trans (keepA3 X r h0 h1 h2)
theorem keepA5 (r : Ref sig .tc) (h0 : r ∉ hostOps0_W := by decide) (h1 : r ∉ hostOps0_1_W := by decide)
    (h2 : r ∉ hostOps0_2_W := by decide) (h3 : r ∉ hostOps0_3_W := by decide) (h4 : r ∉ hostOps0_4_W := by decide) :
    A5 (Proc.devRef .tc r) = X (Proc.devRef .tc r) := (keep0_4 A4 r h4).trans (keepA4 X r h0 h1 h2 h3)
theorem keepB2 (r : Ref sig .tc) (h0 : r ∉ hostOps1_W := by decide) (h1 : r ∉ hostOps1_1_W := by decide) :
    B2 (Proc.devRef .tc r) = X (Proc.devRef .tc r) := (keep1_1 B1 r h1).trans (keep1 X r h0)
theorem keepC2 (r : Ref sig .tc) (h0 : r ∉ hostOps2_W := by decide) (h1 : r ∉ hostOps2_1_W := by decide) :
    C2 (Proc.devRef .tc r) = X (Proc.devRef .tc r) := (keep2_1 C1 r h1).trans (keep2 X r h0)

/-! ### Before the first launch -/

/-- The clipped out-degrees. -/
theorem clipped_at (src : IVec S800000 32) (hs : src = X (Proc.devRef .tc main_arg1)) :
    A2 (Proc.devRef .tc main_v4)
      = maximumf (broadcastInDim S50000 ![] bcast_S_S50000 (id (constant (F := Ideal) S_ .f32 0x3F800000#32)))
          (Host.scatterAdd scatter_S50000_S800000x1_S800000_n_0_0_1
            (broadcastInDim S50000 ![] bcast_S_S50000 (constant (F := Ideal) S_ .f32 0x00000000#32))
            (broadcastInDim S800000x1 ![0] bcast_S800000_S800000x1_0 src)
            (broadcastInDim S800000 ![] bcast_S_S800000 (constant (F := Ideal) S_ .f32 0x3F800000#32))) :=
  clip_out A1 _ _ (s0_one X).symm (s0_deg X src hs).symm

/-- The inverse out-degree column. -/
theorem scale_at (src : IVec S800000 32) (hs : src = X (Proc.devRef .tc main_arg1)) :
    A3 (Proc.devRef .tc main_v7) = degInvK src :=
  s2_scale A2 _ (clipped_at X src hs).symm

/-- The scaled features. -/
theorem scaled_at (x : FVec Ideal S50000x128 .f32) (src : IVec S800000 32)
    (hx : x = X (Proc.devRef .tc main_arg0)) (hs : src = X (Proc.devRef .tc main_arg1)) :
    A3 (Proc.devRef .tc main_v9)
      = mulf x (broadcastInDim S50000x128 ![0, 1] bcast_S50000x1_S50000x128_0_1 (degInvK src)) :=
  s2_scaled A2 x _ (hx.trans (keepA2 X main_arg0).symm) (clipped_at X src hs).symm

theorem before0_scale (src : IVec S800000 32) (hs : src = X (Proc.devRef .tc main_arg1)) :
    A5 (Proc.devRef .tc main_v7) = Cert.Chain.degInv src :=
  (keep0_4 A4 main_v7).trans <| (keep0_3 A3 main_v7).trans <| (scale_at X src hs).trans (degInvK_eq src)

theorem before0_agg (x : FVec Ideal S50000x128 .f32) (src dst : IVec S800000 32)
    (hx : x = X (Proc.devRef .tc main_arg0)) (hs : src = X (Proc.devRef .tc main_arg1)) (hd : dst = X (Proc.devRef .tc main_arg2))
    (hr : ∀ e : Fin 800000, (-50000 : Int) ≤ (src (ix1 e)).toInt ∧ (src (ix1 e)).toInt < 50000) :
    A5 (Proc.devRef .tc main_v13) = Cert.Chain.aggregate (Cert.Chain.scaled x src) src dst :=
  (agg0_out A4 _ dst
      (take0_out A3 _ src (scaled_at X x src hx hs).symm (hs.trans (keepA3 X main_arg1).symm)).symm
      (hd.trans (keepA4 X main_arg2).symm)).trans <|
    (aggK_eq _ src dst hr).trans (congrArg (fun h => Cert.Chain.aggregate h src dst) (scaledK_eq x src))

theorem before0_bias (b : FVec Ideal S128 .f32) (hb : b = X (Proc.devRef .tc main_arg4)) :
    A5 (Proc.devRef .tc main_v14) = Cert.Chain.row b :=
  row0_out A4 b (hb.trans (keepA4 X main_arg4).symm)

theorem before0_weight (W : FVec Ideal S128x128 .f32) (hW : W = X (Proc.devRef .tc main_arg3)) :
    A5 (Proc.devRef .tc main_arg3) = W :=
  (keepA5 X main_arg3).trans hW.symm

/-! ### Before the second launch -/

theorem before1_agg (h : FVec Ideal S50000x128 .f32) (src dst : IVec S800000 32)
    (hh : h = X (Proc.devRef .tc main_v15)) (hs : src = X (Proc.devRef .tc main_arg1)) (hd : dst = X (Proc.devRef .tc main_arg2))
    (hr : ∀ e : Fin 800000, (-50000 : Int) ≤ (src (ix1 e)).toInt ∧ (src (ix1 e)).toInt < 50000) :
    B2 (Proc.devRef .tc main_v19) = Cert.Chain.aggregate h src dst :=
  (agg1_out B1 _ dst (take1_out X h src hh hs).symm (hd.trans (keep1 X main_arg2).symm)).trans (aggK_eq h src dst hr)

theorem before1_bias (b : FVec Ideal S128 .f32) (hb : b = X (Proc.devRef .tc main_arg6)) :
    B2 (Proc.devRef .tc main_v20) = Cert.Chain.row b :=
  row1_out B1 b (hb.trans (keep1 X main_arg6).symm)

theorem before1_scale (d : FVec Ideal S50000x1 .f32) (hd : d = X (Proc.devRef .tc main_v7)) :
    B2 (Proc.devRef .tc main_v7) = d :=
  (keepB2 X main_v7).trans hd.symm

theorem before1_weight (W : FVec Ideal S128x128 .f32) (hW : W = X (Proc.devRef .tc main_arg5)) :
    B2 (Proc.devRef .tc main_arg5) = W :=
  (keepB2 X main_arg5).trans hW.symm

/-! ### Before the third launch -/

theorem before2_agg (h : FVec Ideal S50000x128 .f32) (src dst : IVec S800000 32)
    (hh : h = X (Proc.devRef .tc main_v21)) (hs : src = X (Proc.devRef .tc main_arg1)) (hd : dst = X (Proc.devRef .tc main_arg2))
    (hr : ∀ e : Fin 800000, (-50000 : Int) ≤ (src (ix1 e)).toInt ∧ (src (ix1 e)).toInt < 50000) :
    C2 (Proc.devRef .tc main_v25) = Cert.Chain.aggregate h src dst :=
  (agg2_out C1 _ dst (take2_out X h src hh hs).symm (hd.trans (keep2 X main_arg2).symm)).trans (aggK_eq h src dst hr)

theorem before2_bias (b : FVec Ideal S128 .f32) (hb : b = X (Proc.devRef .tc main_arg8)) :
    C2 (Proc.devRef .tc main_v26) = Cert.Chain.row b :=
  row2_out C1 b (hb.trans (keep2 X main_arg8).symm)

theorem before2_pbias (s : FVec Ideal S1 .f32) (hs : s = X (Proc.devRef .tc main_arg10)) :
    C2 (Proc.devRef .tc main_v27) = Cert.Chain.one s :=
  pbias_out C1 s (hs.trans (keep2 X main_arg10).symm)

theorem before2_vbias (s : FVec Ideal S1 .f32) (hs : s = X (Proc.devRef .tc main_arg12)) :
    C2 (Proc.devRef .tc main_v28) = Cert.Chain.one s :=
  vbias_out C1 s (hs.trans (keep2 X main_arg12).symm)

theorem before2_weight (W : FVec Ideal S128x128 .f32) (hW : W = X (Proc.devRef .tc main_arg7)) :
    C2 (Proc.devRef .tc main_arg7) = W :=
  (keepC2 X main_arg7).trans hW.symm

theorem before2_pw (p : FVec Ideal S128x1 .f32) (hp : p = X (Proc.devRef .tc main_arg9)) :
    C2 (Proc.devRef .tc main_arg9) = p :=
  (keepC2 X main_arg9).trans hp.symm

theorem before2_vw (p : FVec Ideal S128x1 .f32) (hp : p = X (Proc.devRef .tc main_arg11)) :
    C2 (Proc.devRef .tc main_arg11) = p :=
  (keepC2 X main_arg11).trans hp.symm

end Compose

end Cert.KernelIdeal.Stretches

end
-- ==== Proof.KernelIdeal.Result.lean ====
import proofs.«421690_j88553635709104_2_alg».proof.Proof.KernelIdeal.Run
import proofs.«421690_j88553635709104_2_alg».proof.Proof.KernelIdeal.LayerValue0
import proofs.«421690_j88553635709104_2_alg».proof.Proof.KernelIdeal.LayerValue1
import proofs.«421690_j88553635709104_2_alg».proof.Proof.KernelIdeal.HeadValue
import proofs.«421690_j88553635709104_2_alg».proof.Proof.KernelIdeal.Stretches
import proofs.«421690_j88553635709104_2_alg».proof.Proof.SrcRange
import proofs.«421690_j88553635709104_2_alg».proof.Proof.Chain

/-!
  The idealized kernel program's two results as functions of its arguments, over the extended reals.
  The run's buffer contents are followed from the launch through the three Pallas calls: the host
  operations before a call leave the inverse out-degree column, the aggregated features, the bias
  row and the weights where the call's windows read them; the call leaves its layer of those in its
  output array; the next stretch aggregates that. After the third call the two output arrays hold the
  policy and value heads of the last layer. Wherever rows are gathered the source ids are within
  `[-50000, 50000)`, so the gather's out-of-range fill never shows.
-/

noncomputable section

namespace Cert.KernelIdeal.Result

open Cert.KernelIdeal Cert.KernelIdeal.Gen Cert.KernelIdeal.Run
open Idealize.ShloMosaic Idealize.ShloMosaic.TcCoe Idealize.ShloMosaic.ValueIdx Idealize.SL.Sem

variable (m : (ℓ : Loc nD τ sig) → Buf (Elt Ideal) ℓ) (ρ : Dev nD → PrngReg)

/-- Every source id is a valid row number, counted from the front or from the end. -/
abbrev InRange (src : IVec S800000 32) : Prop :=
  ∀ e : Fin 800000, (-50000 : Int) ≤ (src (ix1 e)).toInt ∧ (src (ix1 e)).toInt < 50000

/-! ## What reaches each call unchanged -/

/-- A buffer no stretch before the first call writes holds its launch contents there. -/
theorem at5 (c : Dev nD) (r : Ref sig .tc) (h0 : r ∉ hostOps0_W) (h1 : r ∉ hostOps0_1_W) (h2 : r ∉ hostOps0_2_W)
    (h3 : r ∉ hostOps0_3_W) (h4 : r ∉ hostOps0_4_W) : W5 m ρ c (Proc.devRef .tc r) = m ((c : Thread nD τ).loc r) :=
  (StableHlo.after_of_writes_sub hostOps0_4 _ hostOps0_4_writes h4).trans <|
  (StableHlo.after_of_writes_sub hostOps0_3 _ hostOps0_3_writes h3).trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

/-- The first call changes only its output array, so such a buffer also holds its launch contents after it. -/
theorem at6 (c : Dev nD) (r : Ref sig .tc) (hr : r ≠ main_v15) (h0 : r ∉ hostOps0_W) (h1 : r ∉ hostOps0_1_W) (h2 : r ∉ hostOps0_2_W)
    (h3 : r ∉ hostOps0_3_W) (h4 : r ∉ hostOps0_4_W) : W6 m ρ c (Proc.devRef .tc r) = m ((c : Thread nD τ).loc r) :=
  (W6_keep m ρ c r hr).trans (at5 m ρ c r h0 h1 h2 h3 h4)

/-- A buffer the two stretches before the second call do not write is there as the first call left it. -/
theorem at8 (c : Dev nD) (r : Ref sig .tc) (h0 : r ∉ hostOps1_W) (h1 : r ∉ hostOps1_1_W) :
    W8 m ρ c (Proc.devRef .tc r) = W6 m ρ c (Proc.devRef .tc r) :=
  (StableHlo.after_of_writes_sub hostOps1_1 _ hostOps1_1_writes h1).trans
    (StableHlo.after_of_writes_sub hostOps1 _ hostOps1_writes h0)

/-- The same through the second call, -/
theorem at9 (c : Dev nD) (r : Ref sig .tc) (hr : r ≠ main_v21) (h0 : r ∉ hostOps1_W) (h1 : r ∉ hostOps1_1_W) :
    W9 m ρ c (Proc.devRef .tc r) = W6 m ρ c (Proc.devRef .tc r) :=
  (W9_keep m ρ c r hr).trans (at8 m ρ c r h0 h1)

/-- and through the two stretches before the third. -/
theorem at11 (c : Dev nD) (r : Ref sig .tc) (h0 : r ∉ hostOps2_W) (h1 : r ∉ hostOps2_1_W) :
    W11 m ρ c (Proc.devRef .tc r) = W9 m ρ c (Proc.devRef .tc r) :=
  (StableHlo.after_of_writes_sub hostOps2_1 _ hostOps2_1_writes h1).trans
    (StableHlo.after_of_writes_sub hostOps2 _ hostOps2_writes h0)

/-- An argument no item writes is at its launch contents when the second call is entered, -/
theorem arg6 (c : Dev nD) (r : Ref sig .tc) (hr : r ≠ main_v15) (h0 : r ∉ hostOps0_W) (h1 : r ∉ hostOps0_1_W) (h2 : r ∉ hostOps0_2_W)
    (h3 : r ∉ hostOps0_3_W) (h4 : r ∉ hostOps0_4_W) : W6 m ρ c (Proc.devRef .tc r) = m ((c : Thread nD τ).loc r) :=
  at6 m ρ c r hr h0 h1 h2 h3 h4

/-- and when the third is. -/
theorem arg9 (c : Dev nD) (r : Ref sig .tc) (hr : r ≠ main_v15) (hr' : r ≠ main_v21) (h0 : r ∉ hostOps0_W) (h1 : r ∉ hostOps0_1_W) (h2 : r ∉ hostOps0_2_W)
    (h3 : r ∉ hostOps0_3_W) (h4 : r ∉ hostOps0_4_W) (h5 : r ∉ hostOps1_W) (h6 : r ∉ hostOps1_1_W) :
    W9 m ρ c (Proc.devRef .tc r) = m ((c : Thread nD τ).loc r) :=
  (at9 m ρ c r hr' h5 h6).trans (at6 m ρ c r hr h0 h1 h2 h3 h4)

/-! ## The inverse out-degree column, wherever a call reads it -/

theorem scale5 (c : Dev nD) : V5 m ρ c main_v7 = Cert.Chain.degInv (m ((c : Thread nD τ).loc main_arg1)) :=
  Cert.KernelIdeal.Stretches.before0_scale (W0 m ρ c) _ rfl

theorem scale8 (c : Dev nD) : V8 m ρ c main_v7 = Cert.Chain.degInv (m ((c : Thread nD τ).loc main_arg1)) :=
  (Cert.KernelIdeal.Stretches.before1_scale (W6 m ρ c) _ rfl).trans ((W6_keep m ρ c main_v7 (by decide)).trans (scale5 m ρ c))

/-! ## The three calls' outputs -/

/-- After the first call its output array is the first layer of the aggregated, degree-scaled input features. -/
theorem layer1_out (c : Dev nD) (hr : InRange (m ((c : Thread nD τ).loc main_arg1))) :
    W6 m ρ c (Proc.devRef .tc main_v15)
      = Cert.Spec.layer (Cert.Chain.aggregate (Cert.Chain.scaled (m ((c : Thread nD τ).loc main_arg0)) (m ((c : Thread nD τ).loc main_arg1))) (m ((c : Thread nD τ).loc main_arg1)) (m ((c : Thread nD τ).loc main_arg2)))
          (m ((c : Thread nD τ).loc main_arg3)) (Cert.Chain.row (m ((c : Thread nD τ).loc main_arg4))) (Cert.Chain.degInv (m ((c : Thread nD τ).loc main_arg1))) := by
  rw [W6_out, Cert.KernelIdeal.LayerValue0.array_eq (V5 m ρ) c]
  rw [show V5 m ρ c main_v13 = _ from Cert.KernelIdeal.Stretches.before0_agg (W0 m ρ c) _ _ _ rfl rfl rfl hr,
    show V5 m ρ c main_arg3 = _ from Cert.KernelIdeal.Stretches.before0_weight (W0 m ρ c) _ rfl,
    show V5 m ρ c main_v14 = _ from Cert.KernelIdeal.Stretches.before0_bias (W0 m ρ c) _ rfl,
    scale5 m ρ c]

/-- After the second call its output array is the second layer of the aggregated first. -/
theorem layer2_out (c : Dev nD) (hr : InRange (m ((c : Thread nD τ).loc main_arg1))) :
    W9 m ρ c (Proc.devRef .tc main_v21)
      = Cert.Spec.layer
          (Cert.Chain.aggregate
            (Cert.Spec.layer (Cert.Chain.aggregate (Cert.Chain.scaled (m ((c : Thread nD τ).loc main_arg0)) (m ((c : Thread nD τ).loc main_arg1))) (m ((c : Thread nD τ).loc main_arg1)) (m ((c : Thread nD τ).loc main_arg2)))
              (m ((c : Thread nD τ).loc main_arg3)) (Cert.Chain.row (m ((c : Thread nD τ).loc main_arg4))) (Cert.Chain.degInv (m ((c : Thread nD τ).loc main_arg1))))
            (m ((c : Thread nD τ).loc main_arg1)) (m ((c : Thread nD τ).loc main_arg2)))
          (m ((c : Thread nD τ).loc main_arg5)) (Cert.Chain.row (m ((c : Thread nD τ).loc main_arg6))) (Cert.Chain.degInv (m ((c : Thread nD τ).loc main_arg1))) := by
  have e1 : W6 m ρ c (Proc.devRef .tc main_arg1) = m ((c : Thread nD τ).loc main_arg1) := arg6 m ρ c main_arg1 (by decide) (by decide) (by decide) (by decide) (by decide) (by decide)
  have e2 : W6 m ρ c (Proc.devRef .tc main_arg2) = m ((c : Thread nD τ).loc main_arg2) := arg6 m ρ c main_arg2 (by decide) (by decide) (by decide) (by decide) (by decide) (by decide)
  have e5 : W6 m ρ c (Proc.devRef .tc main_arg5) = m ((c : Thread nD τ).loc main_arg5) := arg6 m ρ c main_arg5 (by decide) (by decide) (by decide) (by decide) (by decide) (by decide)
  have e6 : W6 m ρ c (Proc.devRef .tc main_arg6) = m ((c : Thread nD τ).loc main_arg6) := arg6 m ρ c main_arg6 (by decide) (by decide) (by decide) (by decide) (by decide) (by decide)
  rw [W9_out, Cert.KernelIdeal.LayerValue1.array_eq (V8 m ρ) c]
  rw [show V8 m ρ c main_v19 = _ from Cert.KernelIdeal.Stretches.before1_agg (W6 m ρ c) _ _ _ (layer1_out m ρ c hr).symm e1.symm e2.symm hr,
    show V8 m ρ c main_arg5 = _ from Cert.KernelIdeal.Stretches.before1_weight (W6 m ρ c) _ e5.symm,
    show V8 m ρ c main_v20 = _ from Cert.KernelIdeal.Stretches.before1_bias (W6 m ρ c) _ e6.symm,
    scale8 m ρ c]

/-- What the third call finds in its first window: the aggregated second layer. -/
theorem last_in (c : Dev nD) (hr : InRange (m ((c : Thread nD τ).loc main_arg1))) :
    V11 m ρ c main_v25
      = Cert.Chain.aggregate
          (Cert.Spec.layer
            (Cert.Chain.aggregate
              (Cert.Spec.layer (Cert.Chain.aggregate (Cert.Chain.scaled (m ((c : Thread nD τ).loc main_arg0)) (m ((c : Thread nD τ).loc main_arg1))) (m ((c : Thread nD τ).loc main_arg1)) (m ((c : Thread nD τ).loc main_arg2)))
                (m ((c : Thread nD τ).loc main_arg3)) (Cert.Chain.row (m ((c : Thread nD τ).loc main_arg4))) (Cert.Chain.degInv (m ((c : Thread nD τ).loc main_arg1))))
              (m ((c : Thread nD τ).loc main_arg1)) (m ((c : Thread nD τ).loc main_arg2)))
            (m ((c : Thread nD τ).loc main_arg5)) (Cert.Chain.row (m ((c : Thread nD τ).loc main_arg6))) (Cert.Chain.degInv (m ((c : Thread nD τ).loc main_arg1))))
          (m ((c : Thread nD τ).loc main_arg1)) (m ((c : Thread nD τ).loc main_arg2)) := by
  have e1 : W9 m ρ c (Proc.devRef .tc main_arg1) = m ((c : Thread nD τ).loc main_arg1) := arg9 m ρ c main_arg1 (by decide) (by decide) (by decide) (by decide) (by decide) (by decide) (by decide) (by decide) (by decide)
  have e2 : W9 m ρ c (Proc.devRef .tc main_arg2) = m ((c : Thread nD τ).loc main_arg2) := arg9 m ρ c main_arg2 (by decide) (by decide) (by decide) (by decide) (by decide) (by decide) (by decide) (by decide) (by decide)
  exact Cert.KernelIdeal.Stretches.before2_agg (W9 m ρ c) _ _ _ (layer2_out m ρ c hr).symm e1.symm e2.symm hr

/-- The policy head's array after the run. -/
theorem policy_result (c : Dev nD) (hr : InRange (m ((c : Thread nD τ).loc main_arg1))) :
    W12 m ρ c (Proc.devRef .tc main_v29_0) = Cert.Chain.policyOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have e7 : W9 m ρ c (Proc.devRef .tc main_arg7) = m ((c : Thread nD τ).loc main_arg7) := arg9 m ρ c main_arg7 (by decide) (by decide) (by decide) (by decide) (by decide) (by decide) (by decide) (by decide) (by decide)
  have e8 : W9 m ρ c (Proc.devRef .tc main_arg8) = m ((c : Thread nD τ).loc main_arg8) := arg9 m ρ c main_arg8 (by decide) (by decide) (by decide) (by decide) (by decide) (by decide) (by decide) (by decide) (by decide)
  have e9 : W9 m ρ c (Proc.devRef .tc main_arg9) = m ((c : Thread nD τ).loc main_arg9) := arg9 m ρ c main_arg9 (by decide) (by decide) (by decide) (by decide) (by decide) (by decide) (by decide) (by decide) (by decide)
  have e10 : W9 m ρ c (Proc.devRef .tc main_arg10) = m ((c : Thread nD τ).loc main_arg10) := arg9 m ρ c main_arg10 (by decide) (by decide) (by decide) (by decide) (by decide) (by decide) (by decide) (by decide) (by decide)
  rw [W12_policy, Cert.KernelIdeal.HeadValue.policy_eq (V11 m ρ) c, last_in m ρ c hr]
  rw [show V11 m ρ c main_arg7 = _ from Cert.KernelIdeal.Stretches.before2_weight (W9 m ρ c) _ e7.symm,
    show V11 m ρ c main_v26 = _ from Cert.KernelIdeal.Stretches.before2_bias (W9 m ρ c) _ e8.symm,
    show V11 m ρ c main_arg9 = _ from Cert.KernelIdeal.Stretches.before2_pw (W9 m ρ c) _ e9.symm,
    show V11 m ρ c main_v27 = _ from Cert.KernelIdeal.Stretches.before2_pbias (W9 m ρ c) _ e10.symm]
  rfl

/-- The value head's array after the run. -/
theorem value_result (c : Dev nD) (hr : InRange (m ((c : Thread nD τ).loc main_arg1))) :
    W12 m ρ c (Proc.devRef .tc main_v29_1) = Cert.Chain.valueOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) := by
  have e7 : W9 m ρ c (Proc.devRef .tc main_arg7) = m ((c : Thread nD τ).loc main_arg7) := arg9 m ρ c main_arg7 (by decide) (by decide) (by decide) (by decide) (by decide) (by decide) (by decide) (by decide) (by decide)
  have e8 : W9 m ρ c (Proc.devRef .tc main_arg8) = m ((c : Thread nD τ).loc main_arg8) := arg9 m ρ c main_arg8 (by decide) (by decide) (by decide) (by decide) (by decide) (by decide) (by decide) (by decide) (by decide)
  have e11 : W9 m ρ c (Proc.devRef .tc main_arg11) = m ((c : Thread nD τ).loc main_arg11) := arg9 m ρ c main_arg11 (by decide) (by decide) (by decide) (by decide) (by decide) (by decide) (by decide) (by decide) (by decide)
  have e12 : W9 m ρ c (Proc.devRef .tc main_arg12) = m ((c : Thread nD τ).loc main_arg12) := arg9 m ρ c main_arg12 (by decide) (by decide) (by decide) (by decide) (by decide) (by decide) (by decide) (by decide) (by decide)
  rw [W12_value, Cert.KernelIdeal.HeadValue.value_eq (V11 m ρ) c, last_in m ρ c hr]
  rw [show V11 m ρ c main_arg7 = _ from Cert.KernelIdeal.Stretches.before2_weight (W9 m ρ c) _ e7.symm,
    show V11 m ρ c main_v26 = _ from Cert.KernelIdeal.Stretches.before2_bias (W9 m ρ c) _ e8.symm,
    show V11 m ρ c main_arg11 = _ from Cert.KernelIdeal.Stretches.before2_vw (W9 m ρ c) _ e11.symm,
    show V11 m ρ c main_v28 = _ from Cert.KernelIdeal.Stretches.before2_vbias (W9 m ρ c) _ e12.symm]
  rfl

end Cert.KernelIdeal.Result

end
-- ==== Proof.RefSide.lean ====
import proofs.«421690_j88553635709104_2_alg».proof.Proof.Gen.ReferenceIdeal.Run
import proofs.«421690_j88553635709104_2_alg».proof.Proof.Gen.ReferenceIdeal.Read
import proofs.«421690_j88553635709104_2_alg».proof.Proof.Chain
import proofs.«421690_j88553635709104_2_alg».proof.Proof.Spec
import Idealize.ShloMosaic.PureOps.Ideal.Laws
import Idealize.ShloMosaic.Lib.ValueIdx
import Idealize.ShloMosaic.Lib.Pipeline.Value

/-!
  What the plain program computes, over the extended reals, as the network's named functions of its
  thirteen arguments.

  Its operations fall into two kinds. The sparse ones (the out-degree count, the wrap of negative
  source ids, the gather of rows at the sources and their scatter-add at the destinations) are carried
  whole: they are the very terms the shared chain names, and nothing here looks inside them. The dense
  ones are read index by index:

  * a matrix product against a 128-row weight is, at entry (r, j), the sum over k of A(r, k) · W(k, j);
  * a bias row, a per-node column and a single number spread over a larger array read the one entry
    they were spread from, and the spread zero word is the number 0;
  * so product + bias is the affine map, its maximum with 0 times the per-node column is a layer, and
    the product with a 128 × 1 column plus a spread number is the policy head;
  * the column sums start from the zero word, so they are 0 + ∑ r H(r, k) = ∑ r H(r, k); the word
    0x47435000 is the real 50000, and on every extended real, the infinities included, dividing by a
    nonzero real is multiplying by its reciprocal; hence the mean row is the column sums times 1/50000,
    and its product with a 128 × 1 column plus a number is the value head.

  Composing these equalities around the shared sparse terms gives the two results.
-/

noncomputable section

open scoped BigOperators

namespace Cert.RefSide

open Cert.ReferenceIdeal Cert.ReferenceIdeal.Gen Idealize.ShloMosaic Idealize.ShloMosaic.TcCoe Idealize.SL.Sem
  Idealize.ShloMosaic.StableHlo Idealize.ShloMosaic.ValueIdx

/-! ## The matrix products at an entry -/

/-- Node features times a 128 × 128 weight, at entry (r, j): the sum over k of A(r, k) · W(k, j). -/
theorem dot_feat_apply (A : FVec Ideal S50000x128 .f32) (W : FVec Ideal S128x128 .f32) (r : Fin 50000) (j : Fin 128) :
    Host.dotGeneral dot_S50000x128_S128x128_S50000x128_1_0_0_1_n_n none A W (ix2 r j) = ∑ k : Fin 128, A (ix2 r k) * W (ix2 k j) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 r j) ((contrEquiv1 dot_S50000x128_S128x128_S50000x128_1_0_0_1_n_n 128 rfl rfl).symm k) = ix2 r k :=
    funext fun a => Fin.ext (by
      match a with
      | ⟨0, _⟩ => exact Read.lhs_main_v20_0 _ _
      | ⟨1, _⟩ => exact (Read.lhs_main_v20_1 _ _).trans hk)
  have er : dot_S50000x128_S128x128_S50000x128_1_0_0_1_n_n.rhsIdx (ix2 r j) ((contrEquiv1 dot_S50000x128_S128x128_S50000x128_1_0_0_1_n_n 128 rfl rfl).symm k) = ix2 k j :=
    funext fun a => Fin.ext (by
      match a with
      | ⟨0, _⟩ => exact (Read.rhs_main_v20_0 _ _).trans hk
      | ⟨1, _⟩ => exact Read.rhs_main_v20_1 _ _)
  rw [el, er]

/-- Node features times a 128 × 1 column, at node r: the sum over k of A(r, k) · W(k). -/
theorem dot_head_apply (A : FVec Ideal S50000x128 .f32) (W : FVec Ideal S128x1 .f32) (r : Fin 50000) :
    Host.dotGeneral dot_S50000x128_S128x1_S50000x1_1_0_0_1_n_n none A W (ix2 r (0 : Fin 1)) = ∑ k : Fin 128, A (ix2 r k) * W (ix2 k (0 : Fin 1)) := by
  simp only [Host.dotGeneral]
  rw [Ideal.dotGeneral_apply, ← Equiv.sum_comp (contrEquiv1 dot_S50000x128_S128x1_S50000x1_1_0_0_1_n_n 128 rfl rfl).symm]
  refine Finset.sum_congr rfl fun k _ => ?_
  have hk := contrEquiv1_symm_val dot_S50000x128_S128x1_S50000x1_1_0_0_1_n_n 128 rfl rfl k
  have el : dot_S50000x128_S128x1_S50000x1_1_0_0_1_n_n.lhsIdx (ix2 r (0 : Fin 1)) ((contrEquiv1 dot_S50000x128_S128x1_S50000x1_1_0_0_1_n_n 128 rfl rfl).symm k) = ix2 r k :=
    funext fun a => Fin.ext (by
      match a with
      | ⟨0, _⟩ => exact Read.lhs_main_v62_0 _ _
      | ⟨1, _⟩ => exact (Read.lhs_main_v62_1 _ _).trans hk)
  have er : dot_S50000x128_S128x1_S50000x1_1_0_0_1_n_n.rhsIdx (ix2 r (0 : Fin 1)) ((contrEquiv1 dot_S50000x128_S128x1_S50000x1_1_0_0_1_n_n 128 rfl rfl).symm k) = ix2 k (0 : Fin 1) :=
    funext fun a => Fin.ext (by
      match a with
      | ⟨0, _⟩ => exact (Read.rhs_main_v62_0 _ _).trans hk
      | ⟨1, _⟩ => exact Read.rhs_main_v62_1 _ _)
  rw [el, er]

/-- One row of 128 times a 128 × 1 column: the sum over k of A(k) · W(k). -/
theorem dot_one_apply (A : FVec Ideal S1x128 .f32) (W : FVec Ideal S128x1 .f32)  :
    Host.dotGeneral dot_S1x128_S128x1_S1x1_1_0_0_1_n_n none A W (ix2 (0 : Fin 1) (0 : Fin 1)) = ∑ k : Fin 128, A (ix2 (0 : Fin 1) k) * W (ix2 k (0 : Fin 1)) := by
  simp only [Host.dotGeneral]
  rw [Ideal.dotGeneral_apply, ← Equiv.sum_comp (contrEquiv1 dot_S1x128_S128x1_S1x1_1_0_0_1_n_n 128 rfl rfl).symm]
  refine Finset.sum_congr rfl fun k _ => ?_
  have hk := contrEquiv1_symm_val dot_S1x128_S128x1_S1x1_1_0_0_1_n_n 128 rfl rfl k
  have el : dot_S1x128_S128x1_S1x1_1_0_0_1_n_n.lhsIdx (ix2 (0 : Fin 1) (0 : Fin 1)) ((contrEquiv1 dot_S1x128_S128x1_S1x1_1_0_0_1_n_n 128 rfl rfl).symm k) = ix2 (0 : Fin 1) k :=
    funext fun a => Fin.ext (by
      match a with
      | ⟨0, _⟩ => exact Read.lhs_main_v66_0 _ _
      | ⟨1, _⟩ => exact (Read.lhs_main_v66_1 _ _).trans hk)
  have er : dot_S1x128_S128x1_S1x1_1_0_0_1_n_n.rhsIdx (ix2 (0 : Fin 1) (0 : Fin 1)) ((contrEquiv1 dot_S1x128_S128x1_S1x1_1_0_0_1_n_n 128 rfl rfl).symm k) = ix2 k (0 : Fin 1) :=
    funext fun a => Fin.ext (by
      match a with
      | ⟨0, _⟩ => exact (Read.rhs_main_v66_0 _ _).trans hk
      | ⟨1, _⟩ => exact Read.rhs_main_v66_1 _ _)
  rw [el, er]

/-! ## Spread arrays read the entry they were spread from -/

/-- A row spread over all nodes: entry (r, j) is the row's entry j. -/
theorem rowSpread_apply (y : FVec Ideal S1x128 .f32) (r : Fin 50000) (j : Fin 128) :
    broadcastInDim S50000x128 ![0, 1] bcast_S1x128_S50000x128_0_1 y (ix2 r j) = y (ix2 (0 : Fin 1) j) :=
  broadcastInDim_apply _ bcast_S1x128_S50000x128_0_1 y (ix2 r j) (ix2 (0 : Fin 1) j) (fun a => match a with
    | ⟨0, _⟩ => by show 0 = if (1 : Nat) = 1 then 0 else r.val; rw [if_pos rfl]
    | ⟨1, _⟩ => by show j.val = if (128 : Nat) = 1 then 0 else j.val; rw [if_neg (by decide)])

/-- A per-node column spread over the 128 features: entry (r, j) is the column's entry r. -/
theorem colSpread_apply (d : FVec Ideal S50000x1 .f32) (r : Fin 50000) (j : Fin 128) :
    broadcastInDim S50000x128 ![0, 1] bcast_S50000x1_S50000x128_0_1 d (ix2 r j) = d (ix2 r (0 : Fin 1)) :=
  broadcastInDim_apply _ bcast_S50000x1_S50000x128_0_1 d (ix2 r j) (ix2 r (0 : Fin 1)) (fun a => match a with
    | ⟨0, _⟩ => by show r.val = if (50000 : Nat) = 1 then 0 else r.val; rw [if_neg (by decide)]
    | ⟨1, _⟩ => by show 0 = if (1 : Nat) = 1 then 0 else j.val; rw [if_pos rfl])

/-- The zero word spread over the node features is the number 0 everywhere. -/
theorem zeroSpread_apply (r : Fin 50000) (j : Fin 128) :
    broadcastInDim S50000x128 ![] bcast_S_S50000x128 (constant (F := Ideal) S_ .f32 0x00000000#32) (ix2 r j) = 0 := by
  rw [broadcastInDim_apply _ bcast_S_S50000x128 _ (ix2 r j) ix0 (fun a => a.elim0), constant_apply,
    Ideal.ofBits_zero_f32]

/-- A single number spread over a column of nodes: every entry is that number. -/
theorem oneSpread_apply (y : FVec Ideal S1x1 .f32) (r : Fin 50000) :
    broadcastInDim S50000x1 ![0, 1] bcast_S1x1_S50000x1_0_1 y (ix2 r (0 : Fin 1)) = y (ix2 (0 : Fin 1) (0 : Fin 1)) :=
  broadcastInDim_apply _ bcast_S1x1_S50000x1_0_1 y (ix2 r (0 : Fin 1)) (ix2 (0 : Fin 1) (0 : Fin 1)) (fun a => match a with
    | ⟨0, _⟩ => by show 0 = if (1 : Nat) = 1 then 0 else r.val; rw [if_pos rfl]
    | ⟨1, _⟩ => by show 0 = if (1 : Nat) = 1 then 0 else 0; rw [if_pos rfl])

/-- A vector of 128 as one row: entry (0, k) is the vector's entry k. -/
theorem asRow_apply (y : FVec Ideal S128 .f32) (k : Fin 128) :
    broadcastInDim S1x128 ![1] bcast_S128_S1x128_1 y (ix2 (0 : Fin 1) k) = y (ix1 k) :=
  broadcastInDim_apply _ bcast_S128_S1x128_1 y (ix2 (0 : Fin 1) k) (ix1 k) (fun a => match a with
    | ⟨0, _⟩ => by show k.val = if (128 : Nat) = 1 then 0 else k.val; rw [if_neg (by decide)])

/-! ## The dense operations are the network's named functions -/

/-- Product plus bias row is the affine map. -/
theorem affine_eq (A : FVec Ideal S50000x128 .f32) (W : FVec Ideal S128x128 .f32) (b : FVec Ideal S128 .f32) :
    addf (Host.dotGeneral dot_S50000x128_S128x128_S50000x128_1_0_0_1_n_n none A W)
        (broadcastInDim S50000x128 ![0, 1] bcast_S1x128_S50000x128_0_1 (broadcastInDim S1x128 ![1] bcast_S128_S1x128_1 b))
      = Spec.affine A W (Chain.row b) := by
  funext i
  obtain ⟨r, j, rfl⟩ : ∃ (r : Fin 50000) (j : Fin 128), i = ix2 r j := ⟨i 0, i 1, eq_ix2 i⟩
  show Host.dotGeneral dot_S50000x128_S128x128_S50000x128_1_0_0_1_n_n none A W (ix2 r j)
        + broadcastInDim S50000x128 ![0, 1] bcast_S1x128_S50000x128_0_1 (Chain.row b) (ix2 r j)
      = (∑ k : Fin 128, A (ix2 r k) * W (ix2 k j)) + Chain.row b (ix2 (0 : Fin 1) j)
  rw [dot_feat_apply, rowSpread_apply]

/-- The affine map, its maximum with the spread zero, times the spread per-node column, is a layer. -/
theorem layer_eq (A : FVec Ideal S50000x128 .f32) (W : FVec Ideal S128x128 .f32) (b : FVec Ideal S128 .f32)
    (d : FVec Ideal S50000x1 .f32) :
    mulf (maximumf (addf (Host.dotGeneral dot_S50000x128_S128x128_S50000x128_1_0_0_1_n_n none A W)
          (broadcastInDim S50000x128 ![0, 1] bcast_S1x128_S50000x128_0_1 (broadcastInDim S1x128 ![1] bcast_S128_S1x128_1 b)))
        (broadcastInDim S50000x128 ![] bcast_S_S50000x128 (constant (F := Ideal) S_ .f32 0x00000000#32)))
      (broadcastInDim S50000x128 ![0, 1] bcast_S50000x1_S50000x128_0_1 d)
      = Spec.layer A W (Chain.row b) d := by
  rw [affine_eq]
  funext i
  obtain ⟨r, j, rfl⟩ : ∃ (r : Fin 50000) (j : Fin 128), i = ix2 r j := ⟨i 0, i 1, eq_ix2 i⟩
  show max (Spec.affine A W (Chain.row b) (ix2 r j))
          (broadcastInDim S50000x128 ![] bcast_S_S50000x128 (constant (F := Ideal) S_ .f32 0x00000000#32) (ix2 r j))
        * broadcastInDim S50000x128 ![0, 1] bcast_S50000x1_S50000x128_0_1 d (ix2 r j)
      = max (Spec.affine A W (Chain.row b) (ix2 r j)) 0 * d (ix2 r (0 : Fin 1))
  rw [zeroSpread_apply, colSpread_apply]

/-- Product with a 128 × 1 column plus a spread number is the policy head. -/
theorem policy_eq (H : FVec Ideal S50000x128 .f32) (p : FVec Ideal S128x1 .f32) (p₀ : FVec Ideal S1 .f32) :
    addf (Host.dotGeneral dot_S50000x128_S128x1_S50000x1_1_0_0_1_n_n none H p)
        (broadcastInDim S50000x1 ![0, 1] bcast_S1x1_S50000x1_0_1 (broadcastInDim S1x1 ![1] bcast_S1_S1x1_1 p₀))
      = Spec.policy H p (Chain.one p₀) := by
  funext i
  obtain ⟨r, z, rfl⟩ : ∃ (r : Fin 50000) (z : Fin 1), i = ix2 r z := ⟨i 0, i 1, eq_ix2 i⟩
  obtain rfl : z = 0 := Subsingleton.elim _ _
  show Host.dotGeneral dot_S50000x128_S128x1_S50000x1_1_0_0_1_n_n none H p (ix2 r (0 : Fin 1))
        + broadcastInDim S50000x1 ![0, 1] bcast_S1x1_S50000x1_0_1 (Chain.one p₀) (ix2 r (0 : Fin 1))
      = (∑ k : Fin 128, H (ix2 r k) * p (ix2 k (0 : Fin 1))) + Chain.one p₀ (ix2 (0 : Fin 1) (0 : Fin 1))
  rw [dot_head_apply, oneSpread_apply]

/-! ## The mean row -/

/-- The word 0x47435000 is the real number 50000. -/
theorem ofBits_50000 : Ideal.ofBits .f32 0x47435000#32 = ((50000 : ℝ) : EReal) := by
  simp [Ideal.ofBits, Ideal.ieee, -EReal.coe_mul]; norm_num

/-- The column sums from the zero word, as one row, divided by the spread 50000: entry (0, k) is the
    column sum ∑ r H(r, k) times 1/50000. -/
theorem meanRow_apply (H : FVec Ideal S50000x128 .f32) (k : Fin 128) :
    Host.divf (broadcastInDim S1x128 ![1] bcast_S128_S1x128_1
          (Host.reduceAdd H (constant (F := Ideal) S_ .f32 0x00000000#32) reducesTo_S50000x128_S128_d0 h_S_))
        (broadcastInDim S1x128 ![] bcast_S_S1x128 (constant (F := Ideal) S_ .f32 0x47435000#32)) (ix2 (0 : Fin 1) k)
      = (∑ r : Fin 50000, H (ix2 r k)) * ((1 / 50000 : ℝ) : EReal) := by
  show Ideal.div (broadcastInDim S1x128 ![1] bcast_S128_S1x128_1
          (Host.reduceAdd H (constant (F := Ideal) S_ .f32 0x00000000#32) reducesTo_S50000x128_S128_d0 h_S_) (ix2 (0 : Fin 1) k))
        (broadcastInDim S1x128 ![] bcast_S_S1x128 (constant (F := Ideal) S_ .f32 0x47435000#32) (ix2 (0 : Fin 1) k)) = _
  rw [asRow_apply, broadcastInDim_apply _ bcast_S_S1x128 _ (ix2 (0 : Fin 1) k) ix0 (fun a => a.elim0), constant_apply,
    ofBits_50000, Ideal.div_coe (by norm_num : (50000 : ℝ) ≠ 0)]
  refine congrArg (· * ((1 / 50000 : ℝ) : EReal)) ?_
  simp only [Host.reduceAdd, Ideal.hostReduceAdd_def]
  rw [Ideal.hostReduceAdd_single reducesTo_S50000x128_S128_d0 (by decide), constant_apply, Ideal.ofBits_zero_f32, zero_add]
  refine Finset.sum_congr rfl fun r _ => ?_
  exact congrArg H (funext fun a => Fin.ext (by match a with | ⟨0, _⟩ => rfl | ⟨1, _⟩ => rfl))

/-- The mean row times a 128 × 1 column plus a number is the value head. -/
theorem value_eq (H : FVec Ideal S50000x128 .f32) (v : FVec Ideal S128x1 .f32) (v₀ : FVec Ideal S1 .f32) :
    addf (Host.dotGeneral dot_S1x128_S128x1_S1x1_1_0_0_1_n_n none
          (Host.divf (broadcastInDim S1x128 ![1] bcast_S128_S1x128_1
              (Host.reduceAdd H (constant (F := Ideal) S_ .f32 0x00000000#32) reducesTo_S50000x128_S128_d0 h_S_))
            (broadcastInDim S1x128 ![] bcast_S_S1x128 (constant (F := Ideal) S_ .f32 0x47435000#32))) v)
        (broadcastInDim S1x1 ![1] bcast_S1_S1x1_1 v₀)
      = Spec.value H v (Chain.one v₀) := by
  funext i
  obtain ⟨y, z, rfl⟩ : ∃ (y : Fin 1) (z : Fin 1), i = ix2 y z := ⟨i 0, i 1, eq_ix2 i⟩
  obtain rfl : y = 0 := Subsingleton.elim _ _
  obtain rfl : z = 0 := Subsingleton.elim _ _
  show Host.dotGeneral dot_S1x128_S128x1_S1x1_1_0_0_1_n_n none
          (Host.divf (broadcastInDim S1x128 ![1] bcast_S128_S1x128_1
              (Host.reduceAdd H (constant (F := Ideal) S_ .f32 0x00000000#32) reducesTo_S50000x128_S128_d0 h_S_))
            (broadcastInDim S1x128 ![] bcast_S_S1x128 (constant (F := Ideal) S_ .f32 0x47435000#32))) v
          (ix2 (0 : Fin 1) (0 : Fin 1))
        + Chain.one v₀ (ix2 (0 : Fin 1) (0 : Fin 1))
      = (∑ k : Fin 128, ((∑ r : Fin 50000, H (ix2 r k)) * ((1 / 50000 : ℝ) : EReal)) * v (ix2 k (0 : Fin 1)))
        + Chain.one v₀ (ix2 (0 : Fin 1) (0 : Fin 1))
  rw [dot_one_apply]
  refine congrArg (· + Chain.one v₀ (ix2 (0 : Fin 1) (0 : Fin 1))) (Finset.sum_congr rfl fun k _ => ?_)
  rw [meanRow_apply]

/-! ## The two results -/

/-- The first result is the policy head on the network's last layer. -/
theorem res_out0_eq (m : (ℓ : Loc nD τ sig) → Buf (Elt Ideal) ℓ) (c : Dev nD) :
    Value.res_out0 (F := Ideal) m c
      = Chain.policyOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold Chain.policyOut Chain.hidden
  rw [← policy_eq, ← affine_eq, ← layer_eq, ← layer_eq]
  show Value.res_main_v65 (F := Ideal) m c = _
  unfold Value.res_main_v65 Chain.aggregate Chain.scaled Chain.degInv Chain.wrapped
  rfl

/-- The second result is the value head on the network's last layer. -/
theorem res_out1_eq (m : (ℓ : Loc nD τ sig) → Buf (Elt Ideal) ℓ) (c : Dev nD) :
    Value.res_out1 (F := Ideal) m c
      = Chain.valueOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  unfold Chain.valueOut Chain.hidden
  rw [← value_eq, ← affine_eq, ← layer_eq, ← layer_eq]
  show Value.res_main_v68 (F := Ideal) m c = _
  unfold Value.res_main_v68 Chain.aggregate Chain.scaled Chain.degInv Chain.wrapped
  rfl

/-- Every weakly fair execution of the plain program ends with its two results at the policy head and
    the value head of the network's last layer, as functions of the thirteen arguments, and the
    arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
      r.2.mem ((c.tc : Thread nD τ).loc main_v65)
          = Cert.Chain.policyOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v68)
          = Cert.Chain.valueOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono
    (fun _ h c => ⟨(h c).1.trans (res_out0_eq m c), (h c).2.1.trans (res_out1_eq m c), (h c).2.2⟩)
    (Value.run (F := Ideal) m ρ)

end Cert.RefSide

end
-- ==== Proof.lean ====
import proofs.«421690_j88553635709104_2_alg».proof.Defs
import proofs.«421690_j88553635709104_2_alg».proof.Proof.Gen.Kernel
import proofs.«421690_j88553635709104_2_alg».proof.Proof.Gen.KernelIdeal
import proofs.«421690_j88553635709104_2_alg».proof.Proof.Gen.ReferenceIdeal
import proofs.«421690_j88553635709104_2_alg».proof.Proof.Gen.Pre_finite_inputs
import proofs.«421690_j88553635709104_2_alg».proof.Proof.Kernel.Run
import proofs.«421690_j88553635709104_2_alg».proof.Proof.KernelIdeal.Run
import proofs.«421690_j88553635709104_2_alg».proof.Proof.KernelIdeal.Result
import proofs.«421690_j88553635709104_2_alg».proof.Proof.RefSide
import proofs.«421690_j88553635709104_2_alg».proof.Proof.SrcRange
import Idealize.ShloMosaic.PureOps.IdealRules
import Idealize.ShloMosaic.Adequacy
import Idealize.ShloMosaic.Init

/-!
  A three-layer graph convolution with a policy and a value head: the Pallas program against its jnp
  reference, over the extended reals.
  Both programs compute the inverse out-degree of every node from the edges' source ids, scale the
  input features by it, and three times gather rows at the sources and add them up at the
  destinations; between these they apply `max(A · W + b, 0) · d` (twice) and `A · W + b` (last), and
  finish with `H · p + p₀` per node and with the mean row of `H` times a second vector plus a bias.
  The Pallas program runs the dense halves block by block (ten blocks of 5000 nodes) in three
  calls, keeps the running column sums of the last layer in a scratch between blocks, and takes the
  mean as the sums times the constant 1/50000 where the reference divides by 50000: on every
  extended real the quotient by 50000 is that product. Its gather fills rows whose source id is out
  of range with a junk value where the reference's clamps the id; the statement asks the ids to be
  within `[-50000, 50000)`, where the two agree. So each program ends at the same two functions of
  the arguments (`Chain.policyOut`, `Chain.valueOut`).
  The three frames: the two Pallas programs run to the end with every argument array unchanged (the
  run through the host stretches and the three calls, read at the arguments); the reference's is its
  run with the results dropped.
-/

noncomputable section

namespace Cert.Proof

open Idealize.ShloMosaic Idealize.ShloMosaic.TcCoe Idealize.SL.Sem

/-- The word-level program terminates, faults nowhere, and leaves its arguments as launched. -/
theorem frame_k : Cert.frame_Kernel := fun m ρ _ =>
  (θ_run (Cert.Kernel.defs (F := Bits)) _ _).mono (fun r h c => ⟨
    (h c _ (Cert.Kernel.Run.mem_uc Cert.Kernel.main_arg0 (by decide))).trans (Cert.Kernel.Run.W12_main_arg0 m ρ c),
    (h c _ (Cert.Kernel.Run.mem_uc Cert.Kernel.main_arg1 (by decide))).trans (Cert.Kernel.Run.W12_main_arg1 m ρ c),
    (h c _ (Cert.Kernel.Run.mem_uc Cert.Kernel.main_arg2 (by decide))).trans (Cert.Kernel.Run.W12_main_arg2 m ρ c),
    (h c _ (Cert.Kernel.Run.mem_uc Cert.Kernel.main_arg3 (by decide))).trans (Cert.Kernel.Run.W12_main_arg3 m ρ c),
    (h c _ (Cert.Kernel.Run.mem_uc Cert.Kernel.main_arg4 (by decide))).trans (Cert.Kernel.Run.W12_main_arg4 m ρ c),
    (h c _ (Cert.Kernel.Run.mem_uc Cert.Kernel.main_arg5 (by decide))).trans (Cert.Kernel.Run.W12_main_arg5 m ρ c),
    (h c _ (Cert.Kernel.Run.mem_uc Cert.Kernel.main_arg6 (by decide))).trans (Cert.Kernel.Run.W12_main_arg6 m ρ c),
    (h c _ (Cert.Kernel.Run.mem_uc Cert.Kernel.main_arg7 (by decide))).trans (Cert.Kernel.Run.W12_main_arg7 m ρ c),
    (h c _ (Cert.Kernel.Run.mem_uc Cert.Kernel.main_arg8 (by decide))).trans (Cert.Kernel.Run.W12_main_arg8 m ρ c),
    (h c _ (Cert.Kernel.Run.mem_uc Cert.Kernel.main_arg9 (by decide))).trans (Cert.Kernel.Run.W12_main_arg9 m ρ c),
    (h c _ (Cert.Kernel.Run.mem_uc Cert.Kernel.main_arg10 (by decide))).trans (Cert.Kernel.Run.W12_main_arg10 m ρ c),
    (h c _ (Cert.Kernel.Run.mem_uc Cert.Kernel.main_arg11 (by decide))).trans (Cert.Kernel.Run.W12_main_arg11 m ρ c),
    (h c _ (Cert.Kernel.Run.mem_uc Cert.Kernel.main_arg12 (by decide))).trans (Cert.Kernel.Run.W12_main_arg12 m ρ c)⟩)
    (Cert.Kernel.Run.run_all (F := Bits) m ρ)

/-- The same for its idealization. -/
theorem frame_ki : Cert.frame_KernelIdeal := fun m ρ _ =>
  (θ_run (Cert.KernelIdeal.defs (F := Ideal)) _ _).mono (fun r h c => ⟨
    (h c _ (Cert.KernelIdeal.Run.mem_uc Cert.KernelIdeal.main_arg0 (by decide))).trans (Cert.KernelIdeal.Run.W12_main_arg0 m ρ c),
    (h c _ (Cert.KernelIdeal.Run.mem_uc Cert.KernelIdeal.main_arg1 (by decide))).trans (Cert.KernelIdeal.Run.W12_main_arg1 m ρ c),
    (h c _ (Cert.KernelIdeal.Run.mem_uc Cert.KernelIdeal.main_arg2 (by decide))).trans (Cert.KernelIdeal.Run.W12_main_arg2 m ρ c),
    (h c _ (Cert.KernelIdeal.Run.mem_uc Cert.KernelIdeal.main_arg3 (by decide))).trans (Cert.KernelIdeal.Run.W12_main_arg3 m ρ c),
    (h c _ (Cert.KernelIdeal.Run.mem_uc Cert.KernelIdeal.main_arg4 (by decide))).trans (Cert.KernelIdeal.Run.W12_main_arg4 m ρ c),
    (h c _ (Cert.KernelIdeal.Run.mem_uc Cert.KernelIdeal.main_arg5 (by decide))).trans (Cert.KernelIdeal.Run.W12_main_arg5 m ρ c),
    (h c _ (Cert.KernelIdeal.Run.mem_uc Cert.KernelIdeal.main_arg6 (by decide))).trans (Cert.KernelIdeal.Run.W12_main_arg6 m ρ c),
    (h c _ (Cert.KernelIdeal.Run.mem_uc Cert.KernelIdeal.main_arg7 (by decide))).trans (Cert.KernelIdeal.Run.W12_main_arg7 m ρ c),
    (h c _ (Cert.KernelIdeal.Run.mem_uc Cert.KernelIdeal.main_arg8 (by decide))).trans (Cert.KernelIdeal.Run.W12_main_arg8 m ρ c),
    (h c _ (Cert.KernelIdeal.Run.mem_uc Cert.KernelIdeal.main_arg9 (by decide))).trans (Cert.KernelIdeal.Run.W12_main_arg9 m ρ c),
    (h c _ (Cert.KernelIdeal.Run.mem_uc Cert.KernelIdeal.main_arg10 (by decide))).trans (Cert.KernelIdeal.Run.W12_main_arg10 m ρ c),
    (h c _ (Cert.KernelIdeal.Run.mem_uc Cert.KernelIdeal.main_arg11 (by decide))).trans (Cert.KernelIdeal.Run.W12_main_arg11 m ρ c),
    (h c _ (Cert.KernelIdeal.Run.mem_uc Cert.KernelIdeal.main_arg12 (by decide))).trans (Cert.KernelIdeal.Run.W12_main_arg12 m ρ c)⟩)
    (Cert.KernelIdeal.Run.run_all (F := Ideal) m ρ)

/-- The reference's frame is its run with the results dropped. -/
theorem frame_ri : Cert.frame_ReferenceIdeal := fun m ρ _ =>
  (θ_run (Cert.ReferenceIdeal.defs (F := Ideal)) _ _).mono (fun _ h c => (h c).2.2) (Cert.RefSide.run m ρ)

/-- The one rewrite of the idealization: the constant the kernel multiplies the column sums by is
    named, and the name stands for the rational 1/50000. -/
theorem preserves : Cert.preserves_Kernel_KernelIdeal :=
  IdealRules.named_const.statement Cert.KernelIdeal.κ "inv_50000" .f32 0x37A7C5AC#32 ((1 / 50000 : ℝ) : EReal) rfl

/-- The policy head's term depends only on the eleven arrays it is given. -/
theorem policyOut_congr {x x' : FVec Ideal Cert.ReferenceIdeal.S50000x128 .f32} {s s' d d' : IVec Cert.ReferenceIdeal.S800000 32}
    {W1 W1' W2 W2' W3 W3' : FVec Ideal Cert.ReferenceIdeal.S128x128 .f32} {b1 b1' b2 b2' b3 b3' : FVec Ideal Cert.ReferenceIdeal.S128 .f32}
    {p p' : FVec Ideal Cert.ReferenceIdeal.S128x1 .f32} {q q' : FVec Ideal Cert.ReferenceIdeal.S1 .f32}
    (h0 : x' = x) (h1 : s' = s) (h2 : d' = d) (h3 : W1' = W1) (h4 : b1' = b1) (h5 : W2' = W2) (h6 : b2' = b2) (h7 : W3' = W3) (h8 : b3' = b3)
    (h9 : p' = p) (h10 : q' = q) :
    Cert.Chain.policyOut x' s' d' W1' b1' W2' b2' W3' b3' p' q' = Cert.Chain.policyOut x s d W1 b1 W2 b2 W3 b3 p q := by
  subst h0 h1 h2 h3 h4 h5 h6 h7 h8 h9 h10; rfl

/-- The same for the value head. -/
theorem valueOut_congr {x x' : FVec Ideal Cert.ReferenceIdeal.S50000x128 .f32} {s s' d d' : IVec Cert.ReferenceIdeal.S800000 32}
    {W1 W1' W2 W2' W3 W3' : FVec Ideal Cert.ReferenceIdeal.S128x128 .f32} {b1 b1' b2 b2' b3 b3' : FVec Ideal Cert.ReferenceIdeal.S128 .f32}
    {p p' : FVec Ideal Cert.ReferenceIdeal.S128x1 .f32} {q q' : FVec Ideal Cert.ReferenceIdeal.S1 .f32}
    (h0 : x' = x) (h1 : s' = s) (h2 : d' = d) (h3 : W1' = W1) (h4 : b1' = b1) (h5 : W2' = W2) (h6 : b2' = b2) (h7 : W3' = W3) (h8 : b3' = b3)
    (h9 : p' = p) (h10 : q' = q) :
    Cert.Chain.valueOut x' s' d' W1' b1' W2' b2' W3' b3' p' q' = Cert.Chain.valueOut x s d W1 b1 W2 b2 W3 b3 p q := by
  subst h0 h1 h2 h3 h4 h5 h6 h7 h8 h9 h10; rfl

/-- From memories that agree on the arguments, with every source id a valid row number, both
    programs end with the policy head at `Chain.policyOut` and the value head at `Chain.valueOut` of
    the arguments. -/
theorem algebraic : Cert.algebraic_KernelIdeal_ReferenceIdeal := by
  intro m ρ m' ρ' hpre hagree
  have hr : ∀ c : Dev Cert.KernelIdeal.nD, Cert.KernelIdeal.Result.InRange (m ((c.tc : Thread Cert.KernelIdeal.nD Cert.KernelIdeal.τ).loc Cert.KernelIdeal.main_arg1)) :=
    fun c => Cert.SrcRange.range_of_pre _ _ _ _ _ _ _ _ _ _ _ _ _ (hpre c)
  refine ⟨fun c => Cert.Chain.policyOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.Chain.valueOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · refine (θ_run (Cert.KernelIdeal.defs (F := Ideal)) _ _).mono (fun r h c => ⟨
      (h c _ (Cert.KernelIdeal.Run.mem_uc Cert.KernelIdeal.main_v29_0 (by decide))).trans (Cert.KernelIdeal.Result.policy_result m ρ c (hr c)),
      (h c _ (Cert.KernelIdeal.Run.mem_uc Cert.KernelIdeal.main_v29_1 (by decide))).trans (Cert.KernelIdeal.Result.value_result m ρ c (hr c)),
      (h c _ (Cert.KernelIdeal.Run.mem_uc Cert.KernelIdeal.main_arg0 (by decide))).trans (Cert.KernelIdeal.Run.W12_main_arg0 m ρ c),
      (h c _ (Cert.KernelIdeal.Run.mem_uc Cert.KernelIdeal.main_arg1 (by decide))).trans (Cert.KernelIdeal.Run.W12_main_arg1 m ρ c),
      (h c _ (Cert.KernelIdeal.Run.mem_uc Cert.KernelIdeal.main_arg2 (by decide))).trans (Cert.KernelIdeal.Run.W12_main_arg2 m ρ c),
      (h c _ (Cert.KernelIdeal.Run.mem_uc Cert.KernelIdeal.main_arg3 (by decide))).trans (Cert.KernelIdeal.Run.W12_main_arg3 m ρ c),
      (h c _ (Cert.KernelIdeal.Run.mem_uc Cert.KernelIdeal.main_arg4 (by decide))).trans (Cert.KernelIdeal.Run.W12_main_arg4 m ρ c),
      (h c _ (Cert.KernelIdeal.Run.mem_uc Cert.KernelIdeal.main_arg5 (by decide))).trans (Cert.KernelIdeal.Run.W12_main_arg5 m ρ c),
      (h c _ (Cert.KernelIdeal.Run.mem_uc Cert.KernelIdeal.main_arg6 (by decide))).trans (Cert.KernelIdeal.Run.W12_main_arg6 m ρ c),
      (h c _ (Cert.KernelIdeal.Run.mem_uc Cert.KernelIdeal.main_arg7 (by decide))).trans (Cert.KernelIdeal.Run.W12_main_arg7 m ρ c),
      (h c _ (Cert.KernelIdeal.Run.mem_uc Cert.KernelIdeal.main_arg8 (by decide))).trans (Cert.KernelIdeal.Run.W12_main_arg8 m ρ c),
      (h c _ (Cert.KernelIdeal.Run.mem_uc Cert.KernelIdeal.main_arg9 (by decide))).trans (Cert.KernelIdeal.Run.W12_main_arg9 m ρ c),
      (h c _ (Cert.KernelIdeal.Run.mem_uc Cert.KernelIdeal.main_arg10 (by decide))).trans (Cert.KernelIdeal.Run.W12_main_arg10 m ρ c),
      (h c _ (Cert.KernelIdeal.Run.mem_uc Cert.KernelIdeal.main_arg11 (by decide))).trans (Cert.KernelIdeal.Run.W12_main_arg11 m ρ c),
      (h c _ (Cert.KernelIdeal.Run.mem_uc Cert.KernelIdeal.main_arg12 (by decide))).trans (Cert.KernelIdeal.Run.W12_main_arg12 m ρ c)⟩)
      (Cert.KernelIdeal.Run.run_all (F := Ideal) m ρ)
  · refine (θ_run (Cert.ReferenceIdeal.defs (F := Ideal)) _ _).mono (fun r h c => ?_) (Cert.RefSide.run m' ρ')
    obtain ⟨h0, h1, hargs⟩ := h c
    obtain ⟨a0, a1, a2, a3, a4, a5, a6, a7, a8, a9, a10, a11, a12⟩ := hagree c
    refine ⟨h0.trans ?_, h1.trans ?_, hargs⟩
    · exact policyOut_congr a0 a1 a2 a3 a4 a5 a6 a7 a8 a9 a10
    · exact valueOut_congr a0 a1 a2 a3 a4 a5 a6 a7 a8 a11 a12

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
